-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S4194304x3 : Shape := ⟨2, ![4194304, 3]⟩
abbrev S8x2048x2048 : Shape := ⟨3, ![8, 2048, 2048]⟩
abbrev S16x11 : Shape := ⟨2, ![16, 11]⟩
abbrev S16 : Shape := ⟨1, ![16]⟩
abbrev S16x16 : Shape := ⟨2, ![16, 16]⟩
abbrev S3x16 : Shape := ⟨2, ![3, 16]⟩
abbrev S3 : Shape := ⟨1, ![3]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel
  bcast_S_S4194304x3 : S_.BroadcastsInDim S4194304x3 (![] : Fin 0 → Fin S4194304x3.rank)
  reducesTo_S4194304x3_S_d0_1 : S4194304x3.ReducesTo [0, 1] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S16x11 : S_.BroadcastsInDim S16x11 (![] : Fin 0 → Fin S16x11.rank)
  reducesTo_S16x11_S_d0_1 : S16x11.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S3x16 : S_.BroadcastsInDim S3x16 (![] : Fin 0 → Fin S3x16.rank)
  reducesTo_S3x16_S_d0_1 : S3x16.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3x16 .f32) (main_arg8 : FVec F S3 .f32) (main_v33 : IVec S_ 1) : IVec S_ 1 :=
  let main_v34 : FVec F S3x16 .f32 := Host.absf main_arg7
  let main_cst_12 : FVec F S_ .f32 := constant S_ .f32 0x7F800000#32
  let main_v35 : FVec F S3x16 .f32 := broadcastInDim S3x16 ![] bcast_S_S3x16 main_cst_12
  let main_v36 : IVec S3x16 1 := cmpf .olt main_v34 main_v35
  let main_c_13 : IVec S_ 1 := constantI S_ 1 1#1
  let main_v37 : IVec S_ 1 := (fun x v => Host.reduce IntOp.andi x v reducesTo_S3x16_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S16 .f32) (main_arg5 : FVec F S16x16 .f32) (main_arg6 : FVec F S16 .f32) (main_arg7 : FVec F S3x16 .f32) (main_arg8 : FVec F S3 .f32) (main_v13 : IVec S_ 1) (main_v16 : IVec S16x11 1) : IVec S_ 1 :=
  let main_c_5 : IVec S_ 1 := constantI S_ 1 1#1
  let main_v17 : IVec S_ 1 := (fun x v => Host.reduce IntOp.andi x v reducesTo_S16x11_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S4194304x2 .f32) (main_arg1 : FVec F S4194304x3 .f32) (main_arg2 : FVec F S8x2048x2048 .f32) (main_arg3 : FVec F S16x11 .f32) (main_arg4 : FVec F S16 .f32) (main_arg5 : FVec F S16x16 .f32) (main_arg6 : FVec F S16 .f32) (main_arg7 : FVec F S3x16 .f32) (main_arg8 : FVec F S3 .f32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_v4 : FVec F S4194304x3 .f32 := Host.absf main_arg1
  let main_cst_0 : FVec F S_ .f32 := constant S_ .f32 0x7F800000#32
  let main_v5 : FVec F S4194304x3 .f32 := broadcastInDim S4194304x3 ![] bcast_S_S4194304x3 main_cst_0
  let main_v6 : IVec S4194304x3 1 := cmpf .olt main_v4 main_v5
  let main_c_1 : IVec S_ 1 := constantI S_ 1 1#1
  let main_v7 : IVec S_ 1 := (fun x v => Host.reduce IntOp.andi x v reducesTo_S4194304x3_S_d0_1 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S16x11 .f32 := Host.absf main_arg3
  let main_cst_4 : FVec F S_ .f32 := constant S_ .f32 0x7F800000#32
  let main_v15 : FVec F S16x11 .f32 := broadcastInDim S16x11 ![] bcast_S_S16x11 main_cst_4
  let main_v16 : IVec S16x11 1 := cmpf .olt main_v14 main_v15
  fn_part1 (F := F) main_arg4 main_arg5 main_arg6 main_arg7 main_arg8 main_v13 main_v16
-- ==== Kernel.lean ====
abbrev S4194304x2 : Shape := ⟨2, ![4194304, 2]⟩
abbrev S4194304x3 : Shape := ⟨2, ![4194304, 3]⟩
abbrev S8x2048x2048 : Shape := ⟨3, ![8, 2048, 2048]⟩
abbrev S16x11 : Shape := ⟨2, ![16, 11]⟩
abbrev S16 : Shape := ⟨1, ![16]⟩
abbrev S16x16 : Shape := ⟨2, ![16, 16]⟩
abbrev S3x16 : Shape := ⟨2, ![3, 16]⟩
abbrev S3 : Shape := ⟨1, ![3]⟩
abbrev S4194304x1 : Shape := ⟨2, ![4194304, 1]⟩
abbrev S4194304 : Shape := ⟨1, ![4194304]⟩
abbrev S_ : Shape := ⟨0, ![]⟩
abbrev S8x4194304 : Shape := ⟨2, ![8, 4194304]⟩
abbrev S4194304x8 : Shape := ⟨2, ![4194304, 8]⟩
abbrev S4194304x4 : Shape := ⟨2, ![4194304, 4]⟩
abbrev S16x8 : Shape := ⟨2, ![16, 8]⟩
abbrev S16x3 : Shape := ⟨2, ![16, 3]⟩
abbrev S1x16 : Shape := ⟨2, ![1, 16]⟩
abbrev S1x3 : Shape := ⟨2, ![1, 3]⟩
abbrev S16384x8 : Shape := ⟨2, ![16384, 8]⟩
abbrev S16384x4 : Shape := ⟨2, ![16384, 4]⟩
abbrev S16384x3 : Shape := ⟨2, ![16384, 3]⟩
abbrev S16384x1 : Shape := ⟨2, ![16384, 1]⟩
abbrev S8x16 : Shape := ⟨2, ![8, 16]⟩
abbrev S16384x16 : Shape := ⟨2, ![16384, 16]⟩

abbrev nBuf : Space → Nat
  | .hbm => 212
  | .vmem => 21
  | .smem => 0
  | _ => 0

abbrev hbmTy0_0 (i : Nat) : BufTy := match i % 128 with
  | 0 => ⟨S4194304x2, .f32⟩
  | 1 => ⟨S4194304x3, .f32⟩
  | 2 => ⟨S8x2048x2048, .f32⟩
  | 3 => ⟨S16x11, .f32⟩
  | 4 => ⟨S16, .f32⟩
  | 5 => ⟨S16x16, .f32⟩
  | 6 => ⟨S16, .f32⟩
  | 7 => ⟨S3x16, .f32⟩
  | 8 => ⟨S3, .f32⟩
  | 9 => ⟨S4194304x1, .f32⟩
  | 10 => ⟨S4194304, .f32⟩
  | 11 => ⟨S_, .f32⟩
  | 12 => ⟨S4194304, .f32⟩
  | 13 => ⟨S4194304, .f32⟩
  | 14 => ⟨S_, .f32⟩
  | 15 => ⟨S4194304, .f32⟩
  | 16 => ⟨S4194304, .f32⟩
  | 17 => ⟨S_, .f32⟩
  | 18 => ⟨S4194304, .f32⟩
  | 19 => ⟨S4194304, .f32⟩
  | 20 => ⟨S4194304x1, .f32⟩
  | 21 => ⟨S4194304, .f32⟩
  | 22 => ⟨S_, .f32⟩
  | 23 => ⟨S4194304, .f32⟩
  | 24 => ⟨S4194304, .f32⟩
  | 25 => ⟨S_, .f32⟩
  | 26 => ⟨S4194304, .f32⟩
  | 27 => ⟨S4194304, .f32⟩
  | 28 => ⟨S_, .f32⟩
  | 29 => ⟨S4194304, .f32⟩
  | 30 => ⟨S4194304, .f32⟩
  | 31 => ⟨S4194304, .f32⟩
  | 32 => ⟨S4194304, .f32⟩
  | 33 => ⟨S4194304, .f32⟩
  | 34 => ⟨S4194304, .f32⟩
  | 35 => ⟨S_, .f32⟩
  | 36 => ⟨S4194304, .f32⟩
  | 37 => ⟨S4194304, .f32⟩
  | 38 => ⟨S_, .f32⟩
  | 39 => ⟨S4194304, .f32⟩
  | 40 => ⟨S4194304, .f32⟩
  | 41 => ⟨S4194304, .i32⟩
  | 42 => ⟨S4194304, .i32⟩
  | 43 => ⟨S_, .i32⟩
  | 44 => ⟨S4194304, .i32⟩
  | 45 => ⟨S4194304, .i32⟩
  | 46 => ⟨S_, .i32⟩
  | 47 => ⟨S4194304, .i32⟩
  | 48 => ⟨S4194304, .i32⟩
  | 49 => ⟨S_, .i32⟩
  | 50 => ⟨S4194304, .i32⟩
  | 51 => ⟨S4194304, .i1⟩
  | 52 => ⟨S_, .i32⟩
  | 53 => ⟨S4194304, .i32⟩
  | 54 => ⟨S4194304, .i1⟩
  | 55 => ⟨S4194304, .i1⟩
  | 56 => ⟨S4194304, .f32⟩
  | 57 => ⟨S_, .i32⟩
  | 58 => ⟨S4194304, .i32⟩
  | 59 => ⟨S4194304, .i1⟩
  | 60 => ⟨S_, .i32⟩
  | 61 => ⟨S4194304, .i32⟩
  | 62 => ⟨S4194304, .i1⟩
  | 63 => ⟨S4194304, .i1⟩
  | 64 => ⟨S4194304, .f32⟩
  | 65 => ⟨S_, .i32⟩
  | 66 => ⟨S4194304, .i32⟩
  | 67 => ⟨S4194304, .i1⟩
  | 68 => ⟨S_, .i32⟩
  | 69 => ⟨S4194304, .i32⟩
  | 70 => ⟨S4194304, .i1⟩
  | 71 => ⟨S4194304, .i1⟩
  | 72 => ⟨S4194304, .f32⟩
  | 73 => ⟨S_, .i32⟩
  | 74 => ⟨S4194304, .i32⟩
  | 75 => ⟨S4194304, .i1⟩
  | 76 => ⟨S_, .i32⟩
  | 77 => ⟨S4194304, .i32⟩
  | 78 => ⟨S4194304, .i1⟩
  | 79 => ⟨S4194304, .i1⟩
  | 80 => ⟨S4194304, .f32⟩
  | 81 => ⟨S_, .i32⟩
  | 82 => ⟨S_, .i32⟩
  | 83 => ⟨S_, .i32⟩
  | 84 => ⟨S4194304, .i32⟩
  | 85 => ⟨S4194304, .i32⟩
  | 86 => ⟨S_, .i32⟩
  | 87 => ⟨S4194304, .i32⟩
  | 88 => ⟨S4194304, .i32⟩
  | 89 => ⟨S_, .i32⟩
  | 90 => ⟨S_, .i32⟩
  | 91 => ⟨S_, .i32⟩
  | 92 => ⟨S4194304, .i32⟩
  | 93 => ⟨S4194304, .i32⟩
  | 94 => ⟨S_, .i32⟩
  | 95 => ⟨S4194304, .i32⟩
  | 96 => ⟨S4194304, .i32⟩
  | 97 => ⟨S_, .i32⟩
  | 98 => ⟨S_, .i32⟩
  | 99 => ⟨S_, .i32⟩
  | 100 => ⟨S4194304, .i32⟩
  | 101 => ⟨S4194304, .i32⟩
  | 102 => ⟨S_, .i32⟩
  | 103 => ⟨S4194304, .i32⟩
  | 104 => ⟨S4194304, .i32⟩
  | 105 => ⟨S_, .i32⟩
  | 106 => ⟨S_, .i32⟩
  | 107 => ⟨S_, .i32⟩
  | 108 => ⟨S4194304, .i32⟩
  | 109 => ⟨S4194304, .i32⟩
  | 110 => ⟨S_, .i32⟩
  | 111 => ⟨S4194304, .i32⟩
  | 112 => ⟨S4194304, .i32⟩
  | 113 => ⟨S_, .i32⟩
  | 114 => ⟨S4194304, .i32⟩
  | 115 => ⟨S4194304, .i1⟩
  | 116 => ⟨S_, .i32⟩
  | 117 => ⟨S4194304, .i32⟩
  | 118 => ⟨S4194304, .i32⟩
  | 119 => ⟨S4194304, .i32⟩
  | 120 => ⟨S_, .i32⟩
  | 121 => ⟨S4194304, .i32⟩
  | 122 => ⟨S4194304, .i1⟩
  | 123 => ⟨S_, .i32⟩
  | 124 => ⟨S4194304, .i32⟩
  | 125 => ⟨S4194304, .i32⟩
  | 126 => ⟨S4194304, .i32⟩
  | 127 => ⟨S4194304x1, .i32⟩
  | _ => ⟨S4194304x2, .f32⟩

abbrev hbmTy0_1 (i : Nat) : BufTy := match i % 128 with
  | 0 => ⟨S4194304x1, .i32⟩
  | 1 => ⟨S4194304x2, .i32⟩
  | 2 => ⟨S8x4194304, .f32⟩
  | 3 => ⟨S4194304x8, .f32⟩
  | 4 => ⟨S_, .i32⟩
  | 5 => ⟨S4194304, .i32⟩
  | 6 => ⟨S4194304, .i1⟩
  | 7 => ⟨S_, .i32⟩
  | 8 => ⟨S4194304, .i32⟩
  | 9 => ⟨S4194304, .i32⟩
  | 10 => ⟨S4194304, .i32⟩
  | 11 => ⟨S_, .i32⟩
  | 12 => ⟨S4194304, .i32⟩
  | 13 => ⟨S4194304, .i1⟩
  | 14 => ⟨S_, .i32⟩
  | 15 => ⟨S4194304, .i32⟩
  | 16 => ⟨S4194304, .i32⟩
  | 17 => ⟨S4194304, .i32⟩
  | 18 => ⟨S4194304x1, .i32⟩
  | 19 => ⟨S4194304x1, .i32⟩
  | 20 => ⟨S4194304x2, .i32⟩
  | 21 => ⟨S8x4194304, .f32⟩
  | 22 => ⟨S4194304x8, .f32⟩
  | 23 => ⟨S_, .i32⟩
  | 24 => ⟨S4194304, .i32⟩
  | 25 => ⟨S4194304, .i1⟩
  | 26 => ⟨S_, .i32⟩
  | 27 => ⟨S4194304, .i32⟩
  | 28 => ⟨S4194304, .i32⟩
  | 29 => ⟨S4194304, .i32⟩
  | 30 => ⟨S_, .i32⟩
  | 31 => ⟨S4194304, .i32⟩
  | 32 => ⟨S4194304, .i1⟩
  | 33 => ⟨S_, .i32⟩
  | 34 => ⟨S4194304, .i32⟩
  | 35 => ⟨S4194304, .i32⟩
  | 36 => ⟨S4194304, .i32⟩
  | 37 => ⟨S4194304x1, .i32⟩
  | 38 => ⟨S4194304x1, .i32⟩
  | 39 => ⟨S4194304x2, .i32⟩
  | 40 => ⟨S8x4194304, .f32⟩
  | 41 => ⟨S4194304x8, .f32⟩
  | 42 => ⟨S_, .i32⟩
  | 43 => ⟨S4194304, .i32⟩
  | 44 => ⟨S4194304, .i1⟩
  | 45 => ⟨S_, .i32⟩
  | 46 => ⟨S4194304, .i32⟩
  | 47 => ⟨S4194304, .i32⟩
  | 48 => ⟨S4194304, .i32⟩
  | 49 => ⟨S_, .i32⟩
  | 50 => ⟨S4194304, .i32⟩
  | 51 => ⟨S4194304, .i1⟩
  | 52 => ⟨S_, .i32⟩
  | 53 => ⟨S4194304, .i32⟩
  | 54 => ⟨S4194304, .i32⟩
  | 55 => ⟨S4194304, .i32⟩
  | 56 => ⟨S4194304x1, .i32⟩
  | 57 => ⟨S4194304x1, .i32⟩
  | 58 => ⟨S4194304x2, .i32⟩
  | 59 => ⟨S8x4194304, .f32⟩
  | 60 => ⟨S4194304x8, .f32⟩
  | 61 => ⟨S4194304, .f32⟩
  | 62 => ⟨S4194304, .f32⟩
  | 63 => ⟨S4194304, .f32⟩
  | 64 => ⟨S4194304, .f32⟩
  | 65 => ⟨S4194304, .f32⟩
  | 66 => ⟨S4194304, .f32⟩
  | 67 => ⟨S4194304, .f32⟩
  | 68 => ⟨S4194304, .f32⟩
  | 69 => ⟨S4194304, .f32⟩
  | 70 => ⟨S4194304, .f32⟩
  | 71 => ⟨S4194304, .f32⟩
  | 72 => ⟨S4194304, .f32⟩
  | 73 => ⟨S4194304x1, .f32⟩
  | 74 => ⟨S4194304x1, .f32⟩
  | 75 => ⟨S4194304x1, .f32⟩
  | 76 => ⟨S4194304x1, .f32⟩
  | 77 => ⟨S4194304x4, .f32⟩
  | 78 => ⟨S16x8, .f32⟩
  | 79 => ⟨S16x3, .f32⟩
  | 80 => ⟨S1x16, .f32⟩
  | 81 => ⟨S1x16, .f32⟩
  | 82 => ⟨S1x3, .f32⟩
  | 83 => ⟨S4194304x3, .f32⟩
  | _ => ⟨S4194304x2, .f32⟩

abbrev hbmTy (i : Nat) : BufTy := match i / 128 with
  | 0 => hbmTy0_0 i
  | 1 => hbmTy0_1 i
  | _ => ⟨S4194304x2, .f32⟩

abbrev bufTy : (tb : Table) → Fin (tcTables nBuf tb) → BufTy
  | .hbm, ⟨i, _⟩ => hbmTy i
  | .local _ .vmem, ⟨0, _⟩ => ⟨S16384x8, .f32⟩
  | .local _ .vmem, ⟨1, _⟩ => ⟨S16384x8, .f32⟩
  | .local _ .vmem, ⟨2, _⟩ => ⟨S16384x8, .f32⟩
  | .local _ .vmem, ⟨3, _⟩ => ⟨S16384x8, .f32⟩
  | .local _ .vmem, ⟨4, _⟩ => ⟨S16384x8, .f32⟩
  | .local _ .vmem, ⟨5, _⟩ => ⟨S16384x8, .f32⟩
  | .local _ .vmem, ⟨6, _⟩ => ⟨S16384x8, .f32⟩
  | .local _ .vmem, ⟨7, _⟩ => ⟨S16384x8, .f32⟩
  | .local _ .vmem, ⟨8, _⟩ => ⟨S16384x4, .f32⟩
  | .local _ .vmem, ⟨9, _⟩ => ⟨S16384x4, .f32⟩
  | .local _ .vmem, ⟨10, _⟩ => ⟨S16384x3, .f32⟩
  | .local _ .vmem, ⟨11, _⟩ => ⟨S16384x3, .f32⟩
  | .local _ .vmem, ⟨12, _⟩ => ⟨S16x8, .f32⟩
  | .local _ .vmem, ⟨13, _⟩ => ⟨S16x3, .f32⟩
  | .local _ .vmem, ⟨14, _⟩ => ⟨S1x16, .f32⟩
  | .local _ .vmem, ⟨15, _⟩ => ⟨S16x16, .f32⟩
  | .local _ .vmem, ⟨16, _⟩ => ⟨S1x16, .f32⟩
  | .local _ .vmem, ⟨17, _⟩ => ⟨S3x16, .f32⟩
  | .local _ .vmem, ⟨18, _⟩ => ⟨S1x3, .f32⟩
  | .local _ .vmem, ⟨19, _⟩ => ⟨S16384x3, .f32⟩
  | .local _ .vmem, ⟨20, _⟩ => ⟨S16384x3, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_10 : Ref sig .tc := ⟨.hbm, 57, rfl⟩
abbrev main_v36 : Ref sig .tc := ⟨.hbm, 58, rfl⟩
abbrev main_v37 : Ref sig .tc := ⟨.hbm, 59, rfl⟩
abbrev main_c_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_c_13 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_14 : Ref sig .tc := ⟨.hbm, 73, rfl⟩
abbrev main_v48 : Ref sig .tc := ⟨.hbm, 74, rfl⟩
abbrev main_v49 : Ref sig .tc := ⟨.hbm, 75, rfl⟩
abbrev main_c_15 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_16 : Ref sig .tc := ⟨.hbm, 81, rfl⟩
abbrev main_c_17 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_v54 : Ref sig .tc := ⟨.hbm, 88, rfl⟩
abbrev main_c_18 : Ref sig .tc := ⟨.hbm, 89, rfl⟩
abbrev main_c_19 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v55 : Ref sig .tc := ⟨.hbm, 96, rfl⟩
abbrev main_c_20 : Ref sig .tc := ⟨.hbm, 97, rfl⟩
abbrev main_c_21 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v56 : Ref sig .tc := ⟨.hbm, 104, rfl⟩
abbrev main_c_22 : Ref sig .tc := ⟨.hbm, 105, rfl⟩
abbrev main_c_23 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v57 : Ref sig .tc := ⟨.hbm, 112, rfl⟩
abbrev main_c_24 : Ref sig .tc := ⟨.hbm, 113, rfl⟩
abbrev main_v58 : Ref sig .tc := ⟨.hbm, 114, rfl⟩
abbrev main_v59 : Ref sig .tc := ⟨.hbm, 115, rfl⟩
abbrev main_c_25 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_c_26 : Ref sig .tc := ⟨.hbm, 120, rfl⟩
abbrev main_v63 : Ref sig .tc := ⟨.hbm, 121, rfl⟩
abbrev main_v64 : Ref sig .tc := ⟨.hbm, 122, rfl⟩
abbrev main_c_27 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_c_28 : Ref sig .tc := ⟨.hbm, 132, rfl⟩
abbrev main_v73 : Ref sig .tc := ⟨.hbm, 133, rfl⟩
abbrev main_v74 : Ref sig .tc := ⟨.hbm, 134, rfl⟩
abbrev main_c_29 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_c_30 : Ref sig .tc := ⟨.hbm, 139, rfl⟩
abbrev main_v78 : Ref sig .tc := ⟨.hbm, 140, rfl⟩
abbrev main_v79 : Ref sig .tc := ⟨.hbm, 141, rfl⟩
abbrev main_c_31 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_c_32 : Ref sig .tc := ⟨.hbm, 151, rfl⟩
abbrev main_v88 : Ref sig .tc := ⟨.hbm, 152, rfl⟩
abbrev main_v89 : Ref sig .tc := ⟨.hbm, 153, rfl⟩
abbrev main_c_33 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_c_34 : Ref sig .tc := ⟨.hbm, 158, rfl⟩
abbrev main_v93 : Ref sig .tc := ⟨.hbm, 159, rfl⟩
abbrev main_v94 : Ref sig .tc := ⟨.hbm, 160, rfl⟩
abbrev main_c_35 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_c_36 : Ref sig .tc := ⟨.hbm, 170, rfl⟩
abbrev main_v103 : Ref sig .tc := ⟨.hbm, 171, rfl⟩
abbrev main_v104 : Ref sig .tc := ⟨.hbm, 172, rfl⟩
abbrev main_c_37 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_c_38 : Ref sig .tc := ⟨.hbm, 177, rfl⟩
abbrev main_v108 : Ref sig .tc := ⟨.hbm, 178, rfl⟩
abbrev main_v109 : Ref sig .tc := ⟨.hbm, 179, rfl⟩
abbrev main_c_39 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16384x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16384x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S4194304x2_S4194304x1_0_0 : S4194304x2.Slices ![0, 0] S4194304x1
  shapeCasts_S4194304x1_S4194304 : S4194304x1.ShapeCasts S4194304
  bcast_S_S4194304 : S_.BroadcastsInDim S4194304 (![] : Fin 0 → Fin S4194304.rank)
  slices_S4194304x2_S4194304x1_0_1 : S4194304x2.Slices ![0, 1] S4194304x1
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  transposes_S8x4194304_S4194304x8_1_0 : S8x4194304.Transposes [1, 0] S4194304x8
  concatenates_S4194304x1_S4194304x1_S4194304x1_S4194304x1_S4194304x4_d1 : Shape.Concatenates [S4194304x1, S4194304x1, S4194304x1, S4194304x1] S4194304x4 1
  slices_S16x11_S16x8_0_0 : S16x11.Slices ![0, 0] S16x8
  slices_S16x11_S16x3_0_8 : S16x11.Slices ![0, 8] S16x3
  shapeCasts_S16_S1x16 : S16.ShapeCasts S1x16
  shapeCasts_S3_S1x3 : S3.ShapeCasts S1x3
  inb_S16384x4_S16384x4_0_0 : ∀ a, (![0, 0] : Fin 2 → Nat) a + S16384x4.size a ≤ S16384x4.size a
  h_S16384x4 : 0 < S16384x4.numel
  shapeCasts_S16384x4_S16384x4 : S16384x4.ShapeCasts S16384x4
  inb_S16384x8_S16384x8_0_0 : ∀ a, (![0, 0] : Fin 2 → Nat) a + S16384x8.size a ≤ S16384x8.size a
  h_S16384x8 : 0 < S16384x8.numel
  shapeCasts_S16384x8_S16384x8 : S16384x8.ShapeCasts S16384x8
  slices_S16384x4_o0_0_S16384x1 : S16384x4.Slices ![0, 0] S16384x1
  broadcasts_S16384x1_S16384x8 : S16384x1.Broadcasts S16384x8
  slices_S16384x4_o0_1_S16384x1 : S16384x4.Slices ![0, 1] S16384x1
  slices_S16384x4_o0_2_S16384x1 : S16384x4.Slices ![0, 2] S16384x1
  slices_S16384x4_o0_3_S16384x1 : S16384x4.Slices ![0, 3] S16384x1
  inb_S16384x3_S16384x3_0_0 : ∀ a, (![0, 0] : Fin 2 → Nat) a + S16384x3.size a ≤ S16384x3.size a
  h_S16384x3 : 0 < S16384x3.numel
  bitsLt_bf16_f32 : FTy.bits .bf16 < FTy.bits .f32
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S16x16_S16x16_0_0 : ∀ a, (![0, 0] : Fin 2 → Nat) a + S16x16.size a ≤ S16x16.size a
  h_S16x16 : 0 < S16x16.numel
  inb_S3x16_S3x16_0_0 : ∀ a, (![0, 0] : Fin 2 → Nat) a + S3x16.size a ≤ S3x16.size a
  h_S3x16 : 0 < S3x16.numel
  transposes_S16x8_p1_0_S8x16 : S16x8.Transposes [1, 0] S8x16
  transposes_S16x3_p1_0_S3x16 : S16x3.Transposes [1, 0] S3x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S16384x16 : S1x16.Broadcasts S16384x16
  transposes_S16x16_p1_0_S16x16 : S16x16.Transposes [1, 0] S16x16
  transposes_S3x16_p1_0_S16x3 : S3x16.Transposes [1, 0] S16x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S16384x3 : S1x3.Broadcasts S16384x3
  gather_S8x2048x2048_S4194304x2_S8x4194304_0_12_n_n_12_1_811_wf : GatherDims.WF S8x2048x2048 S4194304x2 S8x4194304 [0] [1, 2] [] [1, 2] [] 1 ![8, 1, 1]
  dot_S16384x8_S8x16_S16384x16_1_0_0_1_n_n_wf : DotDims.WF S16384x8 S8x16 S16384x16 [1] [0] [0] [1] [] []
  dot_S16384x3_S3x16_S16384x16_1_0_0_1_n_n_wf : DotDims.WF S16384x3 S3x16 S16384x16 [1] [0] [0] [1] [] []
  dot_S16384x16_S16x16_S16384x16_1_0_0_1_n_n_wf : DotDims.WF S16384x16 S16x16 S16384x16 [1] [0] [0] [1] [] []
  dot_S16384x16_S16x3_S16384x3_1_0_0_1_n_n_wf : DotDims.WF S16384x16 S16x3 S16384x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x8.size a ≤ S4194304x8.size a
  hwx0_0 : ∀ i : grid0.Coords, EltTy.bits .f32 = 32 ∨ (Rect.block (s := S4194304x8) S16384x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x8.size a ≤ S4194304x8.size a
  hwx0_1 : ∀ i : grid0.Coords, EltTy.bits .f32 = 32 ∨ (Rect.block (s := S4194304x8) S16384x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x8.size a ≤ S4194304x8.size a
  hwx0_2 : ∀ i : grid0.Coords, EltTy.bits .f32 = 32 ∨ (Rect.block (s := S4194304x8) S16384x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x8.size a ≤ S4194304x8.size a
  hwx0_3 : ∀ i : grid0.Coords, EltTy.bits .f32 = 32 ∨ (Rect.block (s := S4194304x8) S16384x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16384x4.size a ≤ S4194304x4.size a
  hwx0_4 : ∀ i : grid0.Coords, EltTy.bits .f32 = 32 ∨ (Rect.block (s := S4194304x4) S16384x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x3.size a ≤ S4194304x3.size a
  hwx0_5 : ∀ i : grid0.Coords, EltTy.bits .f32 = 32 ∨ (Rect.block (s := S4194304x3) S16384x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8.size a ≤ S16x8.size a
  hwx0_6 : ∀ i : grid0.Coords, EltTy.bits .f32 = 32 ∨ (Rect.block (s := S16x8) S16x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x3.size a ≤ S16x3.size a
  hwx0_7 : ∀ i : grid0.Coords, EltTy.bits .f32 = 32 ∨ (Rect.block (s := S16x3) S16x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x16.size a ≤ S16x16.size a
  hwx0_9 : ∀ i : grid0.Coords, EltTy.bits .f32 = 32 ∨ (Rect.block (s := S16x16) S16x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x16.size a ≤ S3x16.size a
  hwx0_11 : ∀ i : grid0.Coords, EltTy.bits .f32 = 32 ∨ (Rect.block (s := S3x16) S3x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3.size a ≤ S1x3.size a
  hwx0_12 : ∀ i : grid0.Coords, EltTy.bits .f32 = 32 ∨ (Rect.block (s := S1x3) S1x3.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16384x3.size a ≤ S4194304x3.size a
  hwx0_13 : ∀ i : grid0.Coords, EltTy.bits .f32 = 32 ∨ (Rect.block (s := S4194304x3) S16384x3.size (cc0_transform_13 i) (hinb0_13 i)).WholeWords (EltTy.packing .f32)

variable [Facts₀]

def gather_S8x2048x2048_S4194304x2_S8x4194304_0_12_n_n_12_1_811 : GatherDims S8x2048x2048 S4194304x2 S8x4194304 where
  offsetDims := [0]
  collapsedSliceDims := [1, 2]
  operandBatchingDims := []
  startIndicesBatchingDims := []
  startIndexMap := [1, 2]
  indexVectorDim := 1
  sliceSizes := ![8, 1, 1]
  wf := gather_S8x2048x2048_S4194304x2_S8x4194304_0_12_n_n_12_1_811_wf
def dot_S16384x8_S8x16_S16384x16_1_0_0_1_n_n : DotDims S16384x8 S8x16 S16384x16 where
  lhsContracting := [1]
  rhsContracting := [0]
  lhsNonContracting := [0]
  rhsNonContracting := [1]
  lhsBatch := []
  rhsBatch := []
  wf := dot_S16384x8_S8x16_S16384x16_1_0_0_1_n_n_wf
def dot_S16384x3_S3x16_S16384x16_1_0_0_1_n_n : DotDims S16384x3 S3x16 S16384x16 where
  lhsContracting := [1]
  rhsContracting := [0]
  lhsNonContracting := [0]
  rhsNonContracting := [1]
  lhsBatch := []
  rhsBatch := []
  wf := dot_S16384x3_S3x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x3_S16384x3_1_0_0_1_n_n : DotDims S16384x16 S16x3 S16384x3 where
  lhsContracting := [1]
  rhsContracting := [0]
  lhsNonContracting := [0]
  rhsNonContracting := [1]
  lhsBatch := []
  rhsBatch := []
  wf := dot_S16384x16_S16x3_S16384x3_1_0_0_1_n_n_wf

abbrev win0_0 : Pipeline.Window sig grid0 :=
  Pipeline.Window.ofSpec (Memref.whole main_v72) S16384x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v87) S16384x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S16384x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v117) S16384x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v134) S16384x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S16384x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v135) S16x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v136) S16x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v137) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S16x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v138) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S3x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v139) S1x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v140) S16384x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S4194304x3 : Shape := ⟨2, ![4194304, 3]⟩
abbrev S8x2048x2048 : Shape := ⟨3, ![8, 2048, 2048]⟩
abbrev S16x11 : Shape := ⟨2, ![16, 11]⟩
abbrev S16 : Shape := ⟨1, ![16]⟩
abbrev S16x16 : Shape := ⟨2, ![16, 16]⟩
abbrev S3x16 : Shape := ⟨2, ![3, 16]⟩
abbrev S3 : Shape := ⟨1, ![3]⟩
abbrev S4194304x1 : Shape := ⟨2, ![4194304, 1]⟩
abbrev S4194304 : Shape := ⟨1, ![4194304]⟩
abbrev S_ : Shape := ⟨0, ![]⟩
abbrev S8x4194304 : Shape := ⟨2, ![8, 4194304]⟩
abbrev S4194304x8 : Shape := ⟨2, ![4194304, 8]⟩
abbrev S4194304x11 : Shape := ⟨2, ![4194304, 11]⟩
abbrev S11x16 : Shape := ⟨2, ![11, 16]⟩
abbrev S4194304x16 : Shape := ⟨2, ![4194304, 16]⟩
abbrev S1x16 : Shape := ⟨2, ![1, 16]⟩
abbrev S16x3 : Shape := ⟨2, ![16, 3]⟩
abbrev S1x3 : Shape := ⟨2, ![1, 3]⟩

abbrev nBuf : Space → Nat
  | .hbm => 246
  | .vmem => 0
  | .smem => 0
  | _ => 0

abbrev hbmTy0_0 (i : Nat) : BufTy := match i % 128 with
  | 0 => ⟨S4194304x2, .f32⟩
  | 1 => ⟨S4194304x3, .f32⟩
  | 2 => ⟨S8x2048x2048, .f32⟩
  | 3 => ⟨S16x11, .f32⟩
  | 4 => ⟨S16, .f32⟩
  | 5 => ⟨S16x16, .f32⟩
  | 6 => ⟨S16, .f32⟩
  | 7 => ⟨S3x16, .f32⟩
  | 8 => ⟨S3, .f32⟩
  | 9 => ⟨S4194304x1, .f32⟩
  | 10 => ⟨S4194304, .f32⟩
  | 11 => ⟨S_, .f32⟩
  | 12 => ⟨S4194304, .f32⟩
  | 13 => ⟨S4194304, .f32⟩
  | 14 => ⟨S_, .f32⟩
  | 15 => ⟨S4194304, .f32⟩
  | 16 => ⟨S4194304, .f32⟩
  | 17 => ⟨S_, .f32⟩
  | 18 => ⟨S4194304, .f32⟩
  | 19 => ⟨S4194304, .f32⟩
  | 20 => ⟨S4194304x1, .f32⟩
  | 21 => ⟨S4194304, .f32⟩
  | 22 => ⟨S_, .f32⟩
  | 23 => ⟨S4194304, .f32⟩
  | 24 => ⟨S4194304, .f32⟩
  | 25 => ⟨S_, .f32⟩
  | 26 => ⟨S4194304, .f32⟩
  | 27 => ⟨S4194304, .f32⟩
  | 28 => ⟨S_, .f32⟩
  | 29 => ⟨S4194304, .f32⟩
  | 30 => ⟨S4194304, .f32⟩
  | 31 => ⟨S4194304, .f32⟩
  | 32 => ⟨S4194304, .f32⟩
  | 33 => ⟨S4194304, .f32⟩
  | 34 => ⟨S4194304, .f32⟩
  | 35 => ⟨S_, .f32⟩
  | 36 => ⟨S4194304, .f32⟩
  | 37 => ⟨S4194304, .f32⟩
  | 38 => ⟨S_, .f32⟩
  | 39 => ⟨S4194304, .f32⟩
  | 40 => ⟨S4194304, .f32⟩
  | 41 => ⟨S4194304, .i32⟩
  | 42 => ⟨S4194304, .i32⟩
  | 43 => ⟨S_, .i32⟩
  | 44 => ⟨S4194304, .i32⟩
  | 45 => ⟨S4194304, .i32⟩
  | 46 => ⟨S_, .i32⟩
  | 47 => ⟨S4194304, .i32⟩
  | 48 => ⟨S4194304, .i32⟩
  | 49 => ⟨S_, .i32⟩
  | 50 => ⟨S4194304, .i32⟩
  | 51 => ⟨S4194304, .i1⟩
  | 52 => ⟨S_, .i32⟩
  | 53 => ⟨S4194304, .i32⟩
  | 54 => ⟨S4194304, .i1⟩
  | 55 => ⟨S4194304, .i1⟩
  | 56 => ⟨S4194304, .f32⟩
  | 57 => ⟨S_, .i32⟩
  | 58 => ⟨S4194304, .i32⟩
  | 59 => ⟨S4194304, .i1⟩
  | 60 => ⟨S_, .i32⟩
  | 61 => ⟨S4194304, .i32⟩
  | 62 => ⟨S4194304, .i1⟩
  | 63 => ⟨S4194304, .i1⟩
  | 64 => ⟨S4194304, .f32⟩
  | 65 => ⟨S_, .i32⟩
  | 66 => ⟨S4194304, .i32⟩
  | 67 => ⟨S4194304, .i1⟩
  | 68 => ⟨S_, .i32⟩
  | 69 => ⟨S4194304, .i32⟩
  | 70 => ⟨S4194304, .i1⟩
  | 71 => ⟨S4194304, .i1⟩
  | 72 => ⟨S4194304, .f32⟩
  | 73 => ⟨S_, .i32⟩
  | 74 => ⟨S4194304, .i32⟩
  | 75 => ⟨S4194304, .i1⟩
  | 76 => ⟨S_, .i32⟩
  | 77 => ⟨S4194304, .i32⟩
  | 78 => ⟨S4194304, .i1⟩
  | 79 => ⟨S4194304, .i1⟩
  | 80 => ⟨S4194304, .f32⟩
  | 81 => ⟨S_, .i32⟩
  | 82 => ⟨S_, .i32⟩
  | 83 => ⟨S_, .i32⟩
  | 84 => ⟨S4194304, .i32⟩
  | 85 => ⟨S4194304, .i32⟩
  | 86 => ⟨S_, .i32⟩
  | 87 => ⟨S4194304, .i32⟩
  | 88 => ⟨S4194304, .i32⟩
  | 89 => ⟨S_, .i32⟩
  | 90 => ⟨S_, .i32⟩
  | 91 => ⟨S_, .i32⟩
  | 92 => ⟨S4194304, .i32⟩
  | 93 => ⟨S4194304, .i32⟩
  | 94 => ⟨S_, .i32⟩
  | 95 => ⟨S4194304, .i32⟩
  | 96 => ⟨S4194304, .i32⟩
  | 97 => ⟨S_, .i32⟩
  | 98 => ⟨S_, .i32⟩
  | 99 => ⟨S_, .i32⟩
  | 100 => ⟨S4194304, .i32⟩
  | 101 => ⟨S4194304, .i32⟩
  | 102 => ⟨S_, .i32⟩
  | 103 => ⟨S4194304, .i32⟩
  | 104 => ⟨S4194304, .i32⟩
  | 105 => ⟨S_, .i32⟩
  | 106 => ⟨S_, .i32⟩
  | 107 => ⟨S_, .i32⟩
  | 108 => ⟨S4194304, .i32⟩
  | 109 => ⟨S4194304, .i32⟩
  | 110 => ⟨S_, .i32⟩
  | 111 => ⟨S4194304, .i32⟩
  | 112 => ⟨S4194304, .i32⟩
  | 113 => ⟨S_, .i32⟩
  | 114 => ⟨S4194304, .i32⟩
  | 115 => ⟨S4194304, .i1⟩
  | 116 => ⟨S_, .i32⟩
  | 117 => ⟨S4194304, .i32⟩
  | 118 => ⟨S4194304, .i32⟩
  | 119 => ⟨S4194304, .i32⟩
  | 120 => ⟨S_, .i32⟩
  | 121 => ⟨S4194304, .i32⟩
  | 122 => ⟨S4194304, .i1⟩
  | 123 => ⟨S_, .i32⟩
  | 124 => ⟨S4194304, .i32⟩
  | 125 => ⟨S4194304, .i32⟩
  | 126 => ⟨S4194304, .i32⟩
  | 127 => ⟨S4194304x1, .i32⟩
  | _ => ⟨S4194304x2, .f32⟩

abbrev hbmTy0_1 (i : Nat) : BufTy := match i % 128 with
  | 0 => ⟨S4194304x1, .i32⟩
  | 1 => ⟨S4194304x2, .i32⟩
  | 2 => ⟨S8x4194304, .f32⟩
  | 3 => ⟨S4194304x8, .f32⟩
  | 4 => ⟨S4194304, .f32⟩
  | 5 => ⟨S4194304, .f32⟩
  | 6 => ⟨S4194304, .f32⟩
  | 7 => ⟨S4194304x1, .f32⟩
  | 8 => ⟨S4194304x8, .f32⟩
  | 9 => ⟨S4194304x8, .f32⟩
  | 10 => ⟨S_, .i32⟩
  | 11 => ⟨S4194304, .i32⟩
  | 12 => ⟨S4194304, .i1⟩
  | 13 => ⟨S_, .i32⟩
  | 14 => ⟨S4194304, .i32⟩
  | 15 => ⟨S4194304, .i32⟩
  | 16 => ⟨S4194304, .i32⟩
  | 17 => ⟨S_, .i32⟩
  | 18 => ⟨S4194304, .i32⟩
  | 19 => ⟨S4194304, .i1⟩
  | 20 => ⟨S_, .i32⟩
  | 21 => ⟨S4194304, .i32⟩
  | 22 => ⟨S4194304, .i32⟩
  | 23 => ⟨S4194304, .i32⟩
  | 24 => ⟨S4194304x1, .i32⟩
  | 25 => ⟨S4194304x1, .i32⟩
  | 26 => ⟨S4194304x2, .i32⟩
  | 27 => ⟨S8x4194304, .f32⟩
  | 28 => ⟨S4194304x8, .f32⟩
  | 29 => ⟨S4194304, .f32⟩
  | 30 => ⟨S4194304, .f32⟩
  | 31 => ⟨S4194304, .f32⟩
  | 32 => ⟨S4194304x1, .f32⟩
  | 33 => ⟨S4194304x8, .f32⟩
  | 34 => ⟨S4194304x8, .f32⟩
  | 35 => ⟨S4194304x8, .f32⟩
  | 36 => ⟨S_, .i32⟩
  | 37 => ⟨S4194304, .i32⟩
  | 38 => ⟨S4194304, .i1⟩
  | 39 => ⟨S_, .i32⟩
  | 40 => ⟨S4194304, .i32⟩
  | 41 => ⟨S4194304, .i32⟩
  | 42 => ⟨S4194304, .i32⟩
  | 43 => ⟨S_, .i32⟩
  | 44 => ⟨S4194304, .i32⟩
  | 45 => ⟨S4194304, .i1⟩
  | 46 => ⟨S_, .i32⟩
  | 47 => ⟨S4194304, .i32⟩
  | 48 => ⟨S4194304, .i32⟩
  | 49 => ⟨S4194304, .i32⟩
  | 50 => ⟨S4194304x1, .i32⟩
  | 51 => ⟨S4194304x1, .i32⟩
  | 52 => ⟨S4194304x2, .i32⟩
  | 53 => ⟨S8x4194304, .f32⟩
  | 54 => ⟨S4194304x8, .f32⟩
  | 55 => ⟨S4194304, .f32⟩
  | 56 => ⟨S4194304, .f32⟩
  | 57 => ⟨S4194304, .f32⟩
  | 58 => ⟨S4194304x1, .f32⟩
  | 59 => ⟨S4194304x8, .f32⟩
  | 60 => ⟨S4194304x8, .f32⟩
  | 61 => ⟨S4194304x8, .f32⟩
  | 62 => ⟨S_, .i32⟩
  | 63 => ⟨S4194304, .i32⟩
  | 64 => ⟨S4194304, .i1⟩
  | 65 => ⟨S_, .i32⟩
  | 66 => ⟨S4194304, .i32⟩
  | 67 => ⟨S4194304, .i32⟩
  | 68 => ⟨S4194304, .i32⟩
  | 69 => ⟨S_, .i32⟩
  | 70 => ⟨S4194304, .i32⟩
  | 71 => ⟨S4194304, .i1⟩
  | 72 => ⟨S_, .i32⟩
  | 73 => ⟨S4194304, .i32⟩
  | 74 => ⟨S4194304, .i32⟩
  | 75 => ⟨S4194304, .i32⟩
  | 76 => ⟨S4194304x1, .i32⟩
  | 77 => ⟨S4194304x1, .i32⟩
  | 78 => ⟨S4194304x2, .i32⟩
  | 79 => ⟨S8x4194304, .f32⟩
  | 80 => ⟨S4194304x8, .f32⟩
  | 81 => ⟨S4194304, .f32⟩
  | 82 => ⟨S4194304, .f32⟩
  | 83 => ⟨S4194304, .f32⟩
  | 84 => ⟨S4194304x1, .f32⟩
  | 85 => ⟨S4194304x8, .f32⟩
  | 86 => ⟨S4194304x8, .f32⟩
  | 87 => ⟨S4194304x8, .f32⟩
  | 88 => ⟨S4194304x11, .f32⟩
  | 89 => ⟨S11x16, .f32⟩
  | 90 => ⟨S4194304x16, .f32⟩
  | 91 => ⟨S1x16, .f32⟩
  | 92 => ⟨S4194304x16, .f32⟩
  | 93 => ⟨S4194304x16, .f32⟩
  | 94 => ⟨S_, .f32⟩
  | 95 => ⟨S4194304x16, .f32⟩
  | 96 => ⟨S4194304x16, .f32⟩
  | 97 => ⟨S16x16, .f32⟩
  | 98 => ⟨S4194304x16, .f32⟩
  | 99 => ⟨S1x16, .f32⟩
  | 100 => ⟨S4194304x16, .f32⟩
  | 101 => ⟨S4194304x16, .f32⟩
  | 102 => ⟨S_, .f32⟩
  | 103 => ⟨S4194304x16, .f32⟩
  | 104 => ⟨S4194304x16, .f32⟩
  | 105 => ⟨S16x3, .f32⟩
  | 106 => ⟨S4194304x3, .f32⟩
  | 107 => ⟨S1x3, .f32⟩
  | 108 => ⟨S4194304x3, .f32⟩
  | 109 => ⟨S4194304x3, .f32⟩
  | 110 => ⟨S4194304x3, .f32⟩
  | 111 => ⟨S4194304x3, .f32⟩
  | 112 => ⟨S_, .f32⟩
  | 113 => ⟨S4194304x3, .f32⟩
  | 114 => ⟨S4194304x3, .f32⟩
  | 115 => ⟨S_, .f32⟩
  | 116 => ⟨S4194304x3, .f32⟩
  | 117 => ⟨S4194304x3, .f32⟩
  | _ => ⟨S4194304x2, .f32⟩

abbrev hbmTy (i : Nat) : BufTy := match i / 128 with
  | 0 => hbmTy0_0 i
  | 1 => hbmTy0_1 i
  | _ => ⟨S4194304x2, .f32⟩

abbrev bufTy : (tb : Table) → Fin (tcTables nBuf tb) → BufTy
  | .hbm, ⟨i, _⟩ => hbmTy i
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_10 : Ref sig .tc := ⟨.hbm, 57, rfl⟩
abbrev main_v36 : Ref sig .tc := ⟨.hbm, 58, rfl⟩
abbrev main_v37 : Ref sig .tc := ⟨.hbm, 59, rfl⟩
abbrev main_c_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_c_13 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_14 : Ref sig .tc := ⟨.hbm, 73, rfl⟩
abbrev main_v48 : Ref sig .tc := ⟨.hbm, 74, rfl⟩
abbrev main_v49 : Ref sig .tc := ⟨.hbm, 75, rfl⟩
abbrev main_c_15 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_16 : Ref sig .tc := ⟨.hbm, 81, rfl⟩
abbrev main_c_17 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_v54 : Ref sig .tc := ⟨.hbm, 88, rfl⟩
abbrev main_c_18 : Ref sig .tc := ⟨.hbm, 89, rfl⟩
abbrev main_c_19 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v55 : Ref sig .tc := ⟨.hbm, 96, rfl⟩
abbrev main_c_20 : Ref sig .tc := ⟨.hbm, 97, rfl⟩
abbrev main_c_21 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v56 : Ref sig .tc := ⟨.hbm, 104, rfl⟩
abbrev main_c_22 : Ref sig .tc := ⟨.hbm, 105, rfl⟩
abbrev main_c_23 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v57 : Ref sig .tc := ⟨.hbm, 112, rfl⟩
abbrev main_c_24 : Ref sig .tc := ⟨.hbm, 113, rfl⟩
abbrev main_v58 : Ref sig .tc := ⟨.hbm, 114, rfl⟩
abbrev main_v59 : Ref sig .tc := ⟨.hbm, 115, rfl⟩
abbrev main_c_25 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_c_26 : Ref sig .tc := ⟨.hbm, 120, rfl⟩
abbrev main_v63 : Ref sig .tc := ⟨.hbm, 121, rfl⟩
abbrev main_v64 : Ref sig .tc := ⟨.hbm, 122, rfl⟩
abbrev main_c_27 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_c_28 : Ref sig .tc := ⟨.hbm, 138, rfl⟩
abbrev main_v79 : Ref sig .tc := ⟨.hbm, 139, rfl⟩
abbrev main_v80 : Ref sig .tc := ⟨.hbm, 140, rfl⟩
abbrev main_c_29 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_c_30 : Ref sig .tc := ⟨.hbm, 145, rfl⟩
abbrev main_v84 : Ref sig .tc := ⟨.hbm, 146, rfl⟩
abbrev main_v85 : Ref sig .tc := ⟨.hbm, 147, rfl⟩
abbrev main_c_31 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_c_32 : Ref sig .tc := ⟨.hbm, 164, rfl⟩
abbrev main_v101 : Ref sig .tc := ⟨.hbm, 165, rfl⟩
abbrev main_v102 : Ref sig .tc := ⟨.hbm, 166, rfl⟩
abbrev main_c_33 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_c_34 : Ref sig .tc := ⟨.hbm, 171, rfl⟩
abbrev main_v106 : Ref sig .tc := ⟨.hbm, 172, rfl⟩
abbrev main_v107 : Ref sig .tc := ⟨.hbm, 173, rfl⟩
abbrev main_c_35 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_c_36 : Ref sig .tc := ⟨.hbm, 190, rfl⟩
abbrev main_v123 : Ref sig .tc := ⟨.hbm, 191, rfl⟩
abbrev main_v124 : Ref sig .tc := ⟨.hbm, 192, rfl⟩
abbrev main_c_37 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_c_38 : Ref sig .tc := ⟨.hbm, 197, rfl⟩
abbrev main_v128 : Ref sig .tc := ⟨.hbm, 198, rfl⟩
abbrev main_v129 : Ref sig .tc := ⟨.hbm, 199, rfl⟩
abbrev main_c_39 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_call4_cst : Ref sig .tc := ⟨.hbm, 222, rfl⟩
abbrev main_call4_v0 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_call5_cst : Ref sig .tc := ⟨.hbm, 230, rfl⟩
abbrev main_call5_v0 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_cst_40 : Ref sig .tc := ⟨.hbm, 240, rfl⟩
abbrev main_v165 : Ref sig .tc := ⟨.hbm, 241, rfl⟩
abbrev main_v166 : Ref sig .tc := ⟨.hbm, 242, rfl⟩
abbrev main_cst_41 : Ref sig .tc := ⟨.hbm, 243, rfl⟩
abbrev main_v167 : Ref sig .tc := ⟨.hbm, 244, rfl⟩
abbrev main_v168 : Ref sig .tc := ⟨.hbm, 245, rfl⟩

abbrev nD : Nat := 1
abbrev τ : Topo := Topo.v7x

variable {F : FTy → Type} [FloatOps F]

class Facts₀ : Prop where
  slices_S4194304x2_S4194304x1_0_0 : S4194304x2.Slices ![0, 0] S4194304x1
  shapeCasts_S4194304x1_S4194304 : S4194304x1.ShapeCasts S4194304
  bcast_S_S4194304 : S_.BroadcastsInDim S4194304 (![] : Fin 0 → Fin S4194304.rank)
  slices_S4194304x2_S4194304x1_0_1 : S4194304x2.Slices ![0, 1] S4194304x1
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  transposes_S8x4194304_S4194304x8_1_0 : S8x4194304.Transposes [1, 0] S4194304x8
  bcast_S4194304x1_S4194304x8_0_1 : S4194304x1.BroadcastsInDim S4194304x8 (![0, 1] : Fin 2 → Fin S4194304x8.rank)
  concatenates_S4194304x8_S4194304x3_S4194304x11_d1 : Shape.Concatenates [S4194304x8, S4194304x3] S4194304x11 1
  transposes_S16x11_S11x16_1_0 : S16x11.Transposes [1, 0] S11x16
  bcast_S16_S1x16_1 : S16.BroadcastsInDim S1x16 (![1] : Fin 1 → Fin S1x16.rank)
  bcast_S1x16_S4194304x16_0_1 : S1x16.BroadcastsInDim S4194304x16 (![0, 1] : Fin 2 → Fin S4194304x16.rank)
  bcast_S_S4194304x16 : S_.BroadcastsInDim S4194304x16 (![] : Fin 0 → Fin S4194304x16.rank)
  transposes_S16x16_S16x16_1_0 : S16x16.Transposes [1, 0] S16x16
  transposes_S3x16_S16x3_1_0 : S3x16.Transposes [1, 0] S16x3
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  bcast_S_S4194304x3 : S_.BroadcastsInDim S4194304x3 (![] : Fin 0 → Fin S4194304x3.rank)
  gather_S8x2048x2048_S4194304x2_S8x4194304_0_12_n_n_12_1_811_wf : GatherDims.WF S8x2048x2048 S4194304x2 S8x4194304 [0] [1, 2] [] [1, 2] [] 1 ![8, 1, 1]
  dot_S4194304x11_S11x16_S4194304x16_1_0_0_1_n_n_wf : DotDims.WF S4194304x11 S11x16 S4194304x16 [1] [0] [0] [1] [] []
  dot_S4194304x16_S16x16_S4194304x16_1_0_0_1_n_n_wf : DotDims.WF S4194304x16 S16x16 S4194304x16 [1] [0] [0] [1] [] []
  dot_S4194304x16_S16x3_S4194304x3_1_0_0_1_n_n_wf : DotDims.WF S4194304x16 S16x3 S4194304x3 [1] [0] [0] [1] [] []

variable [Facts₀]

def gather_S8x2048x2048_S4194304x2_S8x4194304_0_12_n_n_12_1_811 : GatherDims S8x2048x2048 S4194304x2 S8x4194304 where
  offsetDims := [0]
  collapsedSliceDims := [1, 2]
  operandBatchingDims := []
  startIndicesBatchingDims := []
  startIndexMap := [1, 2]
  indexVectorDim := 1
  sliceSizes := ![8, 1, 1]
  wf := gather_S8x2048x2048_S4194304x2_S8x4194304_0_12_n_n_12_1_811_wf
def dot_S4194304x11_S11x16_S4194304x16_1_0_0_1_n_n : DotDims S4194304x11 S11x16 S4194304x16 where
  lhsContracting := [1]
  rhsContracting := [0]
  lhsNonContracting := [0]
  rhsNonContracting := [1]
  lhsBatch := []
  rhsBatch := []
  wf := dot_S4194304x11_S11x16_S4194304x16_1_0_0_1_n_n_wf
def dot_S4194304x16_S16x16_S4194304x16_1_0_0_1_n_n : DotDims S4194304x16 S16x16 S4194304x16 where
  lhsContracting := [1]
  rhsContracting := [0]
  lhsNonContracting := [0]
  rhsNonContracting := [1]
  lhsBatch := []
  rhsBatch := []
  wf := dot_S4194304x16_S16x16_S4194304x16_1_0_0_1_n_n_wf
def dot_S4194304x16_S16x3_S4194304x3_1_0_0_1_n_n : DotDims S4194304x16 S16x3 S4194304x3 where
  lhsContracting := [1]
  rhsContracting := [0]
  lhsNonContracting := [0]
  rhsNonContracting := [1]
  lhsBatch := []
  rhsBatch := []
  wf := dot_S4194304x16_S16x3_S4194304x3_1_0_0_1_n_n_wf

class Facts : Prop extends Facts₀ where

variable [Facts]
-- ==== Proof.RefRunHand.lean ====
/-
  The reference's @main, cut in front of its five concatenations. Its 237 host operations are one straight line; a
  buffer's contents after the line is the fold of the operations over the launch memory. The line is laid out as six
  pieces, each beginning at a concatenation (or at the start), and the memory after each piece is named. Each piece's
  results are then read off that piece alone over the memory before it — a concatenation's operands being buffers of
  that memory — and identified with the stage functions of the operations, down to the result; the arguments are not
  written by any operation.
-/
import proofs.«119979_j1047972020725_1_alg».proof.Proof.RunP
import proofs.«119979_j1047972020725_1_alg».proof.Proof.ReadP
import Idealize.ShloMosaic.Lib.StableHlo.Run

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

variable (m : (ℓ : Loc nD τ sig) → Buf (Elt F) ℓ)

/-- The fold over two lines laid end to end is the second's over the first's. -/
private theorem after_app (l₁ l₂ : List (HloOp τ sig (Elt F))) (W : Valuation τ sig (Elt F)) :
    after (l₁ ++ l₂) W = after l₂ (after l₁ W) := by
  induction l₁ generalizing W with
  | nil => rfl
  | cons op l ih => exact ih _

/-! ## The six pieces

The 237 operations, cut in front of each of the five concatenations (the index pairs of the four gathers, and the
taps' weighted sum joined with the view directions): a concatenation's operands are then buffers of the memory its piece
starts from. -/

abbrev C1 : List (HloOp τ sig (Elt F)) :=
  [ unary main_arg0 main_v0 ((extractStridedSlice S4194304x1 ![0, 0] · slices_S4194304x2_S4194304x1_0_0) : (⟨S4194304x2, .f32⟩ : BufTy).Contents (Elt F) → (⟨S4194304x1, .f32⟩ : BufTy).Contents (Elt F)),
    reshape main_v0 main_v1 rfl shapeCasts_S4194304x1_S4194304,
    nullary main_cst (constant S_ .f32 0x3F800000#32),
    unary main_cst main_v2 (broadcastInDim S4194304 ![] bcast_S_S4194304 : (⟨S_, .f32⟩ : BufTy).Contents (Elt F) → (⟨S4194304, .f32⟩ : BufTy).Contents (Elt F)),
    binary main_v1 main_v2 main_v3 (addf : (⟨S4194304, .f32⟩ : BufTy).Contents (Elt F) → (⟨S4194304, .f32⟩ : BufTy).Contents (Elt F) → (⟨S4194304, .f32⟩ : BufTy).Contents (Elt F)),
    nullary main_cst_0 (constant S_ .f32 0x3F000000#32),
    unary main_cst_0 main_v4 (broadcastInDim S4194304 ![] bcast_S_S4194304 : (⟨S_, .f32⟩ : BufTy).Contents (Elt F) → (⟨S4194304, .f32⟩ : BufTy).Contents (Elt F)),
    binary main_v3 main_v4 main_v5 (mulf : (⟨S4194304, .f32⟩ : BufTy).Contents (Elt F) → (⟨S4194304, .f32⟩ : BufTy).Contents (Elt F) → (⟨S4194304, .f32⟩ : BufTy).Contents (Elt F)),
    nullary main_cst_1 (constant S_ .f32 0x44FFE000#32),
    unary main_cst_1 main_v6 (broadcastInDim S4194304 ![] bcast_S_S4194304 : (⟨S_, .f32⟩ : BufTy).Contents (Elt F) → (⟨S4194304, .f32⟩ : BufTy).Contents (Elt F)),
    binary main_v5 main_v6 main_v7 (mulf : (⟨S4194304, .f32⟩ : BufTy).Contents (Elt F) → (⟨S4194304, .f32⟩ : BufTy).Contents (Elt F) → (⟨S4194304, .f32⟩ : BufTy).Contents (Elt F)),
    unary main_arg0 main_v8 ((extractStridedSlice S4194304x1 ![0, 1] · slices_S4194304x2_S4194304x1_0_1) : (⟨S4194304x2, .f32⟩ : BufTy).Contents (Elt F) → (⟨S4194304x1, .f32⟩ : BufTy).Contents (Elt F)),
    reshape main_v8 main_v9 rfl shapeCasts_S4194304x1_S4194304,
    nullary main_cst_2 (constant S_ .f32 0x3F800000#32),
    unary main_cst_2 main_v10 (broadcastInDim S4194304 ![] bcast_S_S4194304 : (⟨S_, .f32⟩ : BufTy).Contents (Elt F) → (⟨S4194304, .f32⟩ : BufTy).Contents (Elt F)),
    binary main_v9 main_v10 main_v11 (addf : (⟨S4194304, .f32⟩ : BufTy).Contents (Elt F) → (⟨S4194304, .f32⟩ : BufTy).Contents (Elt F) → (⟨S4194304, .f32⟩ : BufTy).Contents (Elt F)),
    nullary main_cst_3 (constant S_ .f32 0x3F000000#32),
    unary main_cst_3 main_v12 (broadcastInDim S4194304 ![] bcast_S_S4194304 : (⟨S_, .f32⟩ : BufTy).Contents (Elt F) → (⟨S4194304, .f32⟩ : BufTy).Contents (Elt F)),
    binary main_v11 main_v12 main_v13 (mulf : (⟨S4194304, .f32⟩ : BufTy).Contents (Elt F) → (⟨S4194304, .f32⟩ : BufTy).Contents (Elt F) → (⟨S4194304, .f32⟩ : BufTy).Contents (Elt F)),
    nullary main_cst_4 (constant S_ .f32 0x44FFE000#32),
    unary main_cst_4 main_v14 (broadcastInDim S4194304 ![] bcast_S_S4194304 : (⟨S_, .f32⟩ : BufTy).Contents (Elt F) → (⟨S4194304, .f32⟩ : BufTy).Contents (Elt F)),
    binary main_v13 main_v14 main_v15 (mulf : (⟨S4194304, .f32⟩ : BufTy).Contents (Elt F) → (⟨S4194304, .f32⟩ : BufTy).Contents (Elt F) → (⟨S4194304, .f32⟩ : BufTy).Contents (Elt F)),
    unary main_v7 main_v16 (Host.floor : (⟨S4194304, .f32⟩ : BufTy).Contents (Elt F) → (⟨S4194304, .f32⟩ : BufTy).Contents (Elt F)),
    unary main_v15 main_v17 (Host.floor : (⟨S4194304, .f32⟩ : BufTy).Contents (Elt F) → (⟨S4194304, .f32⟩ : BufTy).Contents (Elt F)),
    binary main_v7 main_v16 main_v18 (subf : (⟨S4194304, .f32⟩ : BufTy).Contents (Elt F) → (⟨S4194304, .f32⟩ : BufTy).Contents (Elt F) → (⟨S4194304, .f32⟩ : BufTy).Contents (Elt F)),
    binary main_v15 main_v17 main_v19 (subf : (⟨S4194304, .f32⟩ : BufTy).Contents (Elt F) → (⟨S4194304, .f32⟩ : BufTy).Contents (Elt F) → (⟨S4194304, .f32⟩ : BufTy).Contents (Elt F)),
    nullary main_cst_5 (constant S_ .f32 0x3F800000#32),
    unary main_cst_5 main_v20 (broadcastInDim S4194304 ![] bcast_S_S4194304 : (⟨S_, .f32⟩ : BufTy).Contents (Elt F) → (⟨S4194304, .f32⟩ : BufTy).Contents (Elt F)),
    binary main_v20 main_v18 main_v21 (subf : (⟨S4194304, .f32⟩ : BufTy).Contents (Elt F) → (⟨S4194304, .f32⟩ : BufTy).Contents (Elt F) → (⟨S4194304, .f32⟩ : BufTy).Contents (Elt F)),
    nullary main_cst_6 (constant S_ .f32 0x3F800000#32),
    unary main_cst_6 main_v22 (broadcastInDim S4194304 ![] bcast_S_S4194304 : (⟨S_, .f32⟩ : BufTy).Contents (Elt F) → (⟨S4194304, .f32⟩ : BufTy).Contents (Elt F)),
    binary main_v22 main_v19 main_v23 (subf : (⟨S4194304, .f32⟩ : BufTy).Contents (Elt F) → (⟨S4194304, .f32⟩ : BufTy).Contents (Elt F) → (⟨S4194304, .f32⟩ : BufTy).Contents (Elt F)),
    unary main_v16 main_v24 (fptosi 32 : (⟨S4194304, .f32⟩ : BufTy).Contents (Elt F) → (⟨S4194304, .i32⟩ : BufTy).Contents (Elt F)),
    unary main_v17 main_v25 (fptosi 32 : (⟨S4194304, .f32⟩ : BufTy).Contents (Elt F) → (⟨S4194304, .i32⟩ : BufTy).Contents (Elt F)),
    nullary main_c (constantI S_ 32 1#32),
    unary main_c main_v26 (broadcastInDim S4194304 ![] bcast_S_S4194304 : (⟨S_, .i32⟩ : BufTy).Contents (Elt F) → (⟨S4194304, .i32⟩ : BufTy).Contents (Elt F)),
    binary main_v24 main_v26 main_v27 (addi : (⟨S4194304, .i32⟩ : BufTy).Contents (Elt F) → (⟨S4194304, .i32⟩ : BufTy).Contents (Elt F) → (⟨S4194304, .i32⟩ : BufTy).Contents (Elt F)),
    nullary main_c_7 (constantI S_ 32 1#32),
    unary main_c_7 main_v28 (broadcastInDim S4194304 ![] bcast_S_S4194304 : (⟨S_, .i32⟩ : BufTy).Contents (Elt F) → (⟨S4194304, .i32⟩ : BufTy).Contents (Elt F)),
    binary main_v25 main_v28 main_v29 (addi : (⟨S4194304, .i32⟩ : BufTy).Contents (Elt F) → (⟨S4194304, .i32⟩ : BufTy).Contents (Elt F) → (⟨S4194304, .i32⟩ : BufTy).Contents (Elt F)),
    nullary main_c_8 (constantI S_ 32 0#32),
    unary main_c_8 main_v30 (broadcastInDim S4194304 ![] bcast_S_S4194304 : (⟨S_, .i32⟩ : BufTy).Contents (Elt F) → (⟨S4194304, .i32⟩ : BufTy).Contents (Elt F)),
    binary main_v24 main_v30 main_v31 (cmpi .sge : (⟨S4194304, .i32⟩ : BufTy).Contents (Elt F) → (⟨S4194304, .i32⟩ : BufTy).Contents (Elt F) → (⟨S4194304, .i1⟩ : BufTy).Contents (Elt F)),
    nullary main_c_9 (constantI S_ 32 2047#32),
    unary main_c_9 main_v32 (broadcastInDim S4194304 ![] bcast_S_S4194304 : (⟨S_, .i32⟩ : BufTy).Contents (Elt F) → (⟨S4194304, .i32⟩ : BufTy).Contents (Elt F)),
    binary main_v24 main_v32 main_v33 (cmpi .sle : (⟨S4194304, .i32⟩ : BufTy).Contents (Elt F) → (⟨S4194304, .i32⟩ : BufTy).Contents (Elt F) → (⟨S4194304, .i1⟩ : BufTy).Contents (Elt F)),
    binary main_v31 main_v33 main_v34 (andi : (⟨S4194304, .i1⟩ : BufTy).Contents (Elt F) → (⟨S4194304, .i1⟩ : BufTy).Contents (Elt F) → (⟨S4194304, .i1⟩ : BufTy).Contents (Elt F)),
    unary main_v34 main_v35 (uitofp .f32 : (⟨S4194304, .i1⟩ : BufTy).Contents (Elt F) → (⟨S4194304, .f32⟩ : BufTy).Contents (Elt F)),
    nullary main_c_10 (constantI S_ 32 0#32),
    unary main_c_10 main_v36 (broadcastInDim S4194304 ![] bcast_S_S4194304 : (⟨S_, .i32⟩ : BufTy).Contents (Elt F) → (⟨S4194304, .i32⟩ : BufTy).Contents (Elt F)),
    binary main_v27 main_v36 main_v37 (cmpi .sge : (⟨S4194304, .i32⟩ : BufTy).Contents (Elt F) → (⟨S4194304, .i32⟩ : BufTy).Contents (Elt F) → (⟨S4194304, .i1⟩ : BufTy).Contents (Elt F)),
    nullary main_c_11 (constantI S_ 32 2047#32),
    unary main_c_11 main_v38 (broadcastInDim S4194304 ![] bcast_S_S4194304 : (⟨S_, .i32⟩ : BufTy).Contents (Elt F) → (⟨S4194304, .i32⟩ : BufTy).Contents (Elt F)),
    binary main_v27 main_v38 main_v39 (cmpi .sle : (⟨S4194304, .i32⟩ : BufTy).Contents (Elt F) → (⟨S4194304, .i32⟩ : BufTy).Contents (Elt F) → (⟨S4194304, .i1⟩ : BufTy).Contents (Elt F)),
    binary main_v37 main_v39 main_v40 (andi : (⟨S4194304, .i1⟩ : BufTy).Contents (Elt F) → (⟨S4194304, .i1⟩ : BufTy).Contents (Elt F) → (⟨S4194304, .i1⟩ : BufTy).Contents (Elt F)),
    unary main_v40 main_v41 (uitofp .f32 : (⟨S4194304, .i1⟩ : BufTy).Contents (Elt F) → (⟨S4194304, .f32⟩ : BufTy).Contents (Elt F)),
    nullary main_c_12 (constantI S_ 32 0#32),
    unary main_c_12 main_v42 (broadcastInDim S4194304 ![] bcast_S_S4194304 : (⟨S_, .i32⟩ : BufTy).Contents (Elt F) → (⟨S4194304, .i32⟩ : BufTy).Contents (Elt F)),
    binary main_v25 main_v42 main_v43 (cmpi .sge : (⟨S4194304, .i32⟩ : BufTy).Contents (Elt F) → (⟨S4194304, .i32⟩ : BufTy).Contents (Elt F) → (⟨S4194304, .i1⟩ : BufTy).Contents (Elt F)),
    nullary main_c_13 (constantI S_ 32 2047#32),
    unary main_c_13 main_v44 (broadcastInDim S4194304 ![] bcast_S_S4194304 : (⟨S_, .i32⟩ : BufTy).Contents (Elt F) → (⟨S4194304, .i32⟩ : BufTy).Contents (Elt F)),
    binary main_v25 main_v44 main_v45 (cmpi .sle : (⟨S4194304, .i32⟩ : BufTy).Contents (Elt F) → (⟨S4194304, .i32⟩ : BufTy).Contents (Elt F) → (⟨S4194304, .i1⟩ : BufTy).Contents (Elt F)),
    binary main_v43 main_v45 main_v46 (andi : (⟨S4194304, .i1⟩ : BufTy).Contents (Elt F) → (⟨S4194304, .i1⟩ : BufTy).Contents (Elt F) → (⟨S4194304, .i1⟩ : BufTy).Contents (Elt F)),
    unary main_v46 main_v47 (uitofp .f32 : (⟨S4194304, .i1⟩ : BufTy).Contents (Elt F) → (⟨S4194304, .f32⟩ : BufTy).Contents (Elt F)),
    nullary main_c_14 (constantI S_ 32 0#32),
    unary main_c_14 main_v48 (broadcastInDim S4194304 ![] bcast_S_S4194304 : (⟨S_, .i32⟩ : BufTy).Contents (Elt F) → (⟨S4194304, .i32⟩ : BufTy).Contents (Elt F)),
    binary main_v29 main_v48 main_v49 (cmpi .sge : (⟨S4194304, .i32⟩ : BufTy).Contents (Elt F) → (⟨S4194304, .i32⟩ : BufTy).Contents (Elt F) → (⟨S4194304, .i1⟩ : BufTy).Contents (Elt F)),
    nullary main_c_15 (constantI S_ 32 2047#32),
    unary main_c_15 main_v50 (broadcastInDim S4194304 ![] bcast_S_S4194304 : (⟨S_, .i32⟩ : BufTy).Contents (Elt F) → (⟨S4194304, .i32⟩ : BufTy).Contents (Elt F)),
    binary main_v29 main_v50 main_v51 (cmpi .sle : (⟨S4194304, .i32⟩ : BufTy).Contents (Elt F) → (⟨S4194304, .i32⟩ : BufTy).Contents (Elt F) → (⟨S4194304, .i1⟩ : BufTy).Contents (Elt F)),
    binary main_v49 main_v51 main_v52 (andi : (⟨S4194304, .i1⟩ : BufTy).Contents (Elt F) → (⟨S4194304, .i1⟩ : BufTy).Contents (Elt F) → (⟨S4194304, .i1⟩ : BufTy).Contents (Elt F)),
    unary main_v52 main_v53 (uitofp .f32 : (⟨S4194304, .i1⟩ : BufTy).Contents (Elt F) → (⟨S4194304, .f32⟩ : BufTy).Contents (Elt F)),
    nullary main_c_16 (constantI S_ 32 0#32),
    nullary main_c_17 (constantI S_ 32 2047#32),
    TRef.unary (TRef.of (T := ⟨S_, .i32⟩) main_c_16) (TRef.of (T := ⟨S_, .i32⟩) main_call0_v0) id,
    TRef.unary (TRef.of (T := ⟨S_, .i32⟩) main_call0_v0) (TRef.of (T := ⟨S4194304, .i32⟩) main_call0_v1) (broadcastInDim S4194304 ![] bcast_S_S4194304),
    TRef.binary (TRef.of (T := ⟨S4194304, .i32⟩) main_call0_v1) (TRef.of (T := ⟨S4194304, .i32⟩) main_v24) (TRef.of (T := ⟨S4194304, .i32⟩) main_call0_v2) maxsi,
    TRef.unary (TRef.of (T := ⟨S_, .i32⟩) main_c_17) (TRef.of (T := ⟨S_, .i32⟩) main_call0_v3) id,
    TRef.unary (TRef.of (T := ⟨S_, .i32⟩) main_call0_v3) (TRef.of (T := ⟨S4194304, .i32⟩) main_call0_v4) (broadcastInDim S4194304 ![] bcast_S_S4194304),
    TRef.binary (TRef.of (T := ⟨S4194304, .i32⟩) main_call0_v4) (TRef.of (T := ⟨S4194304, .i32⟩) main_call0_v2) (TRef.of (T := ⟨S4194304, .i32⟩) main_v54) minsi,
    nullary main_c_18 (constantI S_ 32 0#32),
    nullary main_c_19 (constantI S_ 32 2047#32),
    TRef.unary (TRef.of (T := ⟨S_, .i32⟩) main_c_18) (TRef.of (T := ⟨S_, .i32⟩) main_call1_v0) id,
    TRef.unary (TRef.of (T := ⟨S_, .i32⟩) main_call1_v0) (TRef.of (T := ⟨S4194304, .i32⟩) main_call1_v1) (broadcastInDim S4194304 ![] bcast_S_S4194304),
    TRef.binary (TRef.of (T := ⟨S4194304, .i32⟩) main_call1_v1) (TRef.of (T := ⟨S4194304, .i32⟩) main_v27) (TRef.of (T := ⟨S4194304, .i32⟩) main_call1_v2) maxsi,
    TRef.unary (TRef.of (T := ⟨S_, .i32⟩) main_c_19) (TRef.of (T := ⟨S_, .i32⟩) main_call1_v3) id,
    TRef.unary (TRef.of (T := ⟨S_, .i32⟩) main_call1_v3) (TRef.of (T := ⟨S4194304, .i32⟩) main_call1_v4) (broadcastInDim S4194304 ![] bcast_S_S4194304),
    TRef.binary (TRef.of (T := ⟨S4194304, .i32⟩) main_call1_v4) (TRef.of (T := ⟨S4194304, .i32⟩) main_call1_v2) (TRef.of (T := ⟨S4194304, .i32⟩) main_v55) minsi,
    nullary main_c_20 (constantI S_ 32 0#32),
    nullary main_c_21 (constantI S_ 32 2047#32),
    TRef.unary (TRef.of (T := ⟨S_, .i32⟩) main_c_20) (TRef.of (T := ⟨S_, .i32⟩) main_call2_v0) id,
    TRef.unary (TRef.of (T := ⟨S_, .i32⟩) main_call2_v0) (TRef.of (T := ⟨S4194304, .i32⟩) main_call2_v1) (broadcastInDim S4194304 ![] bcast_S_S4194304),
    TRef.binary (TRef.of (T := ⟨S4194304, .i32⟩) main_call2_v1) (TRef.of (T := ⟨S4194304, .i32⟩) main_v25) (TRef.of (T := ⟨S4194304, .i32⟩) main_call2_v2) maxsi,
    TRef.unary (TRef.of (T := ⟨S_, .i32⟩) main_c_21) (TRef.of (T := ⟨S_, .i32⟩) main_call2_v3) id,
    TRef.unary (TRef.of (T := ⟨S_, .i32⟩) main_call2_v3) (TRef.of (T := ⟨S4194304, .i32⟩) main_call2_v4) (broadcastInDim S4194304 ![] bcast_S_S4194304),
    TRef.binary (TRef.of (T := ⟨S4194304, .i32⟩) main_call2_v4) (TRef.of (T := ⟨S4194304, .i32⟩) main_call2_v2) (TRef.of (T := ⟨S4194304, .i32⟩) main_v56) minsi,
    nullary main_c_22 (constantI S_ 32 0#32),
    nullary main_c_23 (constantI S_ 32 2047#32),
    TRef.unary (TRef.of (T := ⟨S_, .i32⟩) main_c_22) (TRef.of (T := ⟨S_, .i32⟩) main_call3_v0) id,
    TRef.unary (TRef.of (T := ⟨S_, .i32⟩) main_call3_v0) (TRef.of (T := ⟨S4194304, .i32⟩) main_call3_v1) (broadcastInDim S4194304 ![] bcast_S_S4194304),
    TRef.binary (TRef.of (T := ⟨S4194304, .i32⟩) main_call3_v1) (TRef.of (T := ⟨S4194304, .i32⟩) main_v29) (TRef.of (T := ⟨S4194304, .i32⟩) main_call3_v2) maxsi,
    TRef.unary (TRef.of (T := ⟨S_, .i32⟩) main_c_23) (TRef.of (T := ⟨S_, .i32⟩) main_call3_v3) id,
    TRef.unary (TRef.of (T := ⟨S_, .i32⟩) main_call3_v3) (TRef.of (T := ⟨S4194304, .i32⟩) main_call3_v4) (broadcastInDim S4194304 ![] bcast_S_S4194304),
    TRef.binary (TRef.of (T := ⟨S4194304, .i32⟩) main_call3_v4) (TRef.of (T := ⟨S4194304, .i32⟩) main_call3_v2) (TRef.of (T := ⟨S4194304, .i32⟩) main_v57) minsi,
    nullary main_c_24 (constantI S_ 32 0#32),
    unary main_c_24 main_v58 (broadcastInDim S4194304 ![] bcast_S_S4194304 : (⟨S_, .i32⟩ : BufTy).Contents (Elt F) → (⟨S4194304, .i32⟩ : BufTy).Contents (Elt F)),
    binary main_v56 main_v58 main_v59 (cmpi .slt : (⟨S4194304, .i32⟩ : BufTy).Contents (Elt F) → (⟨S4194304, .i32⟩ : BufTy).Contents (Elt F) → (⟨S4194304, .i1⟩ : BufTy).Contents (Elt F)),
    nullary main_c_25 (constantI S_ 32 2048#32),
    unary main_c_25 main_v60 (broadcastInDim S4194304 ![] bcast_S_S4194304 : (⟨S_, .i32⟩ : BufTy).Contents (Elt F) → (⟨S4194304, .i32⟩ : BufTy).Contents (Elt F)),
    binary main_v56 main_v60 main_v61 (addi : (⟨S4194304, .i32⟩ : BufTy).Contents (Elt F) → (⟨S4194304, .i32⟩ : BufTy).Contents (Elt F) → (⟨S4194304, .i32⟩ : BufTy).Contents (Elt F)),
    ternary main_v59 main_v61 main_v56 main_v62 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_26 (constantI S_ 32 0#32),
    unary main_c_26 main_v63 (broadcastInDim S4194304 ![] bcast_S_S4194304 : (⟨S_, .i32⟩ : BufTy).Contents (Elt F) → (⟨S4194304, .i32⟩ : BufTy).Contents (Elt F)),
    binary main_v54 main_v63 main_v64 (cmpi .slt : (⟨S4194304, .i32⟩ : BufTy).Contents (Elt F) → (⟨S4194304, .i32⟩ : BufTy).Contents (Elt F) → (⟨S4194304, .i1⟩ : BufTy).Contents (Elt F)),
    nullary main_c_27 (constantI S_ 32 2048#32),
    unary main_c_27 main_v65 (broadcastInDim S4194304 ![] bcast_S_S4194304 : (⟨S_, .i32⟩ : BufTy).Contents (Elt F) → (⟨S4194304, .i32⟩ : BufTy).Contents (Elt F)),
    binary main_v54 main_v65 main_v66 (addi : (⟨S4194304, .i32⟩ : BufTy).Contents (Elt F) → (⟨S4194304, .i32⟩ : BufTy).Contents (Elt F) → (⟨S4194304, .i32⟩ : BufTy).Contents (Elt F)),
    ternary main_v64 main_v66 main_v54 main_v67 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v62 main_v68 (broadcastInDim S4194304x1 ![0] bcast_S4194304_S4194304x1_0 : (⟨S4194304, .i32⟩ : BufTy).Contents (Elt F) → (⟨S4194304x1, .i32⟩ : BufTy).Contents (Elt F)),
    unary main_v67 main_v69 (broadcastInDim S4194304x1 ![0] bcast_S4194304_S4194304x1_0 : (⟨S4194304, .i32⟩ : BufTy).Contents (Elt F) → (⟨S4194304x1, .i32⟩ : BufTy).Contents (Elt F)) ]
abbrev C2 : List (HloOp τ sig (Elt F)) :=
  [ binary main_v68 main_v69 main_v70 ((fun a b => concatenate S4194304x2 1 [⟨S4194304x1, a⟩, ⟨S4194304x1, b⟩] concatenates_S4194304x1_S4194304x1_S4194304x2_d1) : (⟨S4194304x1, .i32⟩ : BufTy).Contents (Elt F) → (⟨S4194304x1, .i32⟩ : BufTy).Contents (Elt F) → (⟨S4194304x2, .i32⟩ : BufTy).Contents (Elt F)),
    binary main_arg2 main_v70 main_v71 ((fun x i => Host.gather gather_S8x2048x2048_S4194304x2_S8x4194304_0_12_n_n_12_1_811 x i) : (⟨S8x2048x2048, .f32⟩ : BufTy).Contents (Elt F) → (⟨S4194304x2, .i32⟩ : BufTy).Contents (Elt F) → (⟨S8x4194304, .f32⟩ : BufTy).Contents (Elt F)),
    unary main_v71 main_v72 ((transpose S4194304x8 [1, 0] · transposes_S8x4194304_S4194304x8_1_0) : (⟨S8x4194304, .f32⟩ : BufTy).Contents (Elt F) → (⟨S4194304x8, .f32⟩ : BufTy).Contents (Elt F)),
    binary main_v23 main_v21 main_v73 (mulf : (⟨S4194304, .f32⟩ : BufTy).Contents (Elt F) → (⟨S4194304, .f32⟩ : BufTy).Contents (Elt F) → (⟨S4194304, .f32⟩ : BufTy).Contents (Elt F)),
    binary main_v73 main_v47 main_v74 (mulf : (⟨S4194304, .f32⟩ : BufTy).Contents (Elt F) → (⟨S4194304, .f32⟩ : BufTy).Contents (Elt F) → (⟨S4194304, .f32⟩ : BufTy).Contents (Elt F)),
    binary main_v74 main_v35 main_v75 (mulf : (⟨S4194304, .f32⟩ : BufTy).Contents (Elt F) → (⟨S4194304, .f32⟩ : BufTy).Contents (Elt F) → (⟨S4194304, .f32⟩ : BufTy).Contents (Elt F)),
    unary main_v75 main_v76 (broadcastInDim S4194304x1 ![0] bcast_S4194304_S4194304x1_0 : (⟨S4194304, .f32⟩ : BufTy).Contents (Elt F) → (⟨S4194304x1, .f32⟩ : BufTy).Contents (Elt F)),
    unary main_v76 main_v77 (broadcastInDim S4194304x8 ![0, 1] bcast_S4194304x1_S4194304x8_0_1 : (⟨S4194304x1, .f32⟩ : BufTy).Contents (Elt F) → (⟨S4194304x8, .f32⟩ : BufTy).Contents (Elt F)),
    binary main_v72 main_v77 main_v78 (mulf : (⟨S4194304x8, .f32⟩ : BufTy).Contents (Elt F) → (⟨S4194304x8, .f32⟩ : BufTy).Contents (Elt F) → (⟨S4194304x8, .f32⟩ : BufTy).Contents (Elt F)),
    nullary main_c_28 (constantI S_ 32 0#32),
    unary main_c_28 main_v79 (broadcastInDim S4194304 ![] bcast_S_S4194304 : (⟨S_, .i32⟩ : BufTy).Contents (Elt F) → (⟨S4194304, .i32⟩ : BufTy).Contents (Elt F)),
    binary main_v56 main_v79 main_v80 (cmpi .slt : (⟨S4194304, .i32⟩ : BufTy).Contents (Elt F) → (⟨S4194304, .i32⟩ : BufTy).Contents (Elt F) → (⟨S4194304, .i1⟩ : BufTy).Contents (Elt F)),
    nullary main_c_29 (constantI S_ 32 2048#32),
    unary main_c_29 main_v81 (broadcastInDim S4194304 ![] bcast_S_S4194304 : (⟨S_, .i32⟩ : BufTy).Contents (Elt F) → (⟨S4194304, .i32⟩ : BufTy).Contents (Elt F)),
    binary main_v56 main_v81 main_v82 (addi : (⟨S4194304, .i32⟩ : BufTy).Contents (Elt F) → (⟨S4194304, .i32⟩ : BufTy).Contents (Elt F) → (⟨S4194304, .i32⟩ : BufTy).Contents (Elt F)),
    ternary main_v80 main_v82 main_v56 main_v83 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_30 (constantI S_ 32 0#32),
    unary main_c_30 main_v84 (broadcastInDim S4194304 ![] bcast_S_S4194304 : (⟨S_, .i32⟩ : BufTy).Contents (Elt F) → (⟨S4194304, .i32⟩ : BufTy).Contents (Elt F)),
    binary main_v55 main_v84 main_v85 (cmpi .slt : (⟨S4194304, .i32⟩ : BufTy).Contents (Elt F) → (⟨S4194304, .i32⟩ : BufTy).Contents (Elt F) → (⟨S4194304, .i1⟩ : BufTy).Contents (Elt F)),
    nullary main_c_31 (constantI S_ 32 2048#32),
    unary main_c_31 main_v86 (broadcastInDim S4194304 ![] bcast_S_S4194304 : (⟨S_, .i32⟩ : BufTy).Contents (Elt F) → (⟨S4194304, .i32⟩ : BufTy).Contents (Elt F)),
    binary main_v55 main_v86 main_v87 (addi : (⟨S4194304, .i32⟩ : BufTy).Contents (Elt F) → (⟨S4194304, .i32⟩ : BufTy).Contents (Elt F) → (⟨S4194304, .i32⟩ : BufTy).Contents (Elt F)),
    ternary main_v85 main_v87 main_v55 main_v88 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v83 main_v89 (broadcastInDim S4194304x1 ![0] bcast_S4194304_S4194304x1_0 : (⟨S4194304, .i32⟩ : BufTy).Contents (Elt F) → (⟨S4194304x1, .i32⟩ : BufTy).Contents (Elt F)),
    unary main_v88 main_v90 (broadcastInDim S4194304x1 ![0] bcast_S4194304_S4194304x1_0 : (⟨S4194304, .i32⟩ : BufTy).Contents (Elt F) → (⟨S4194304x1, .i32⟩ : BufTy).Contents (Elt F)) ]
abbrev C3 : List (HloOp τ sig (Elt F)) :=
  [ binary main_v89 main_v90 main_v91 ((fun a b => concatenate S4194304x2 1 [⟨S4194304x1, a⟩, ⟨S4194304x1, b⟩] concatenates_S4194304x1_S4194304x1_S4194304x2_d1) : (⟨S4194304x1, .i32⟩ : BufTy).Contents (Elt F) → (⟨S4194304x1, .i32⟩ : BufTy).Contents (Elt F) → (⟨S4194304x2, .i32⟩ : BufTy).Contents (Elt F)),
    binary main_arg2 main_v91 main_v92 ((fun x i => Host.gather gather_S8x2048x2048_S4194304x2_S8x4194304_0_12_n_n_12_1_811 x i) : (⟨S8x2048x2048, .f32⟩ : BufTy).Contents (Elt F) → (⟨S4194304x2, .i32⟩ : BufTy).Contents (Elt F) → (⟨S8x4194304, .f32⟩ : BufTy).Contents (Elt F)),
    unary main_v92 main_v93 ((transpose S4194304x8 [1, 0] · transposes_S8x4194304_S4194304x8_1_0) : (⟨S8x4194304, .f32⟩ : BufTy).Contents (Elt F) → (⟨S4194304x8, .f32⟩ : BufTy).Contents (Elt F)),
    binary main_v23 main_v18 main_v94 (mulf : (⟨S4194304, .f32⟩ : BufTy).Contents (Elt F) → (⟨S4194304, .f32⟩ : BufTy).Contents (Elt F) → (⟨S4194304, .f32⟩ : BufTy).Contents (Elt F)),
    binary main_v94 main_v47 main_v95 (mulf : (⟨S4194304, .f32⟩ : BufTy).Contents (Elt F) → (⟨S4194304, .f32⟩ : BufTy).Contents (Elt F) → (⟨S4194304, .f32⟩ : BufTy).Contents (Elt F)),
    binary main_v95 main_v41 main_v96 (mulf : (⟨S4194304, .f32⟩ : BufTy).Contents (Elt F) → (⟨S4194304, .f32⟩ : BufTy).Contents (Elt F) → (⟨S4194304, .f32⟩ : BufTy).Contents (Elt F)),
    unary main_v96 main_v97 (broadcastInDim S4194304x1 ![0] bcast_S4194304_S4194304x1_0 : (⟨S4194304, .f32⟩ : BufTy).Contents (Elt F) → (⟨S4194304x1, .f32⟩ : BufTy).Contents (Elt F)),
    unary main_v97 main_v98 (broadcastInDim S4194304x8 ![0, 1] bcast_S4194304x1_S4194304x8_0_1 : (⟨S4194304x1, .f32⟩ : BufTy).Contents (Elt F) → (⟨S4194304x8, .f32⟩ : BufTy).Contents (Elt F)),
    binary main_v93 main_v98 main_v99 (mulf : (⟨S4194304x8, .f32⟩ : BufTy).Contents (Elt F) → (⟨S4194304x8, .f32⟩ : BufTy).Contents (Elt F) → (⟨S4194304x8, .f32⟩ : BufTy).Contents (Elt F)),
    binary main_v78 main_v99 main_v100 (addf : (⟨S4194304x8, .f32⟩ : BufTy).Contents (Elt F) → (⟨S4194304x8, .f32⟩ : BufTy).Contents (Elt F) → (⟨S4194304x8, .f32⟩ : BufTy).Contents (Elt F)),
    nullary main_c_32 (constantI S_ 32 0#32),
    unary main_c_32 main_v101 (broadcastInDim S4194304 ![] bcast_S_S4194304 : (⟨S_, .i32⟩ : BufTy).Contents (Elt F) → (⟨S4194304, .i32⟩ : BufTy).Contents (Elt F)),
    binary main_v57 main_v101 main_v102 (cmpi .slt : (⟨S4194304, .i32⟩ : BufTy).Contents (Elt F) → (⟨S4194304, .i32⟩ : BufTy).Contents (Elt F) → (⟨S4194304, .i1⟩ : BufTy).Contents (Elt F)),
    nullary main_c_33 (constantI S_ 32 2048#32),
    unary main_c_33 main_v103 (broadcastInDim S4194304 ![] bcast_S_S4194304 : (⟨S_, .i32⟩ : BufTy).Contents (Elt F) → (⟨S4194304, .i32⟩ : BufTy).Contents (Elt F)),
    binary main_v57 main_v103 main_v104 (addi : (⟨S4194304, .i32⟩ : BufTy).Contents (Elt F) → (⟨S4194304, .i32⟩ : BufTy).Contents (Elt F) → (⟨S4194304, .i32⟩ : BufTy).Contents (Elt F)),
    ternary main_v102 main_v104 main_v57 main_v105 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_34 (constantI S_ 32 0#32),
    unary main_c_34 main_v106 (broadcastInDim S4194304 ![] bcast_S_S4194304 : (⟨S_, .i32⟩ : BufTy).Contents (Elt F) → (⟨S4194304, .i32⟩ : BufTy).Contents (Elt F)),
    binary main_v54 main_v106 main_v107 (cmpi .slt : (⟨S4194304, .i32⟩ : BufTy).Contents (Elt F) → (⟨S4194304, .i32⟩ : BufTy).Contents (Elt F) → (⟨S4194304, .i1⟩ : BufTy).Contents (Elt F)),
    nullary main_c_35 (constantI S_ 32 2048#32),
    unary main_c_35 main_v108 (broadcastInDim S4194304 ![] bcast_S_S4194304 : (⟨S_, .i32⟩ : BufTy).Contents (Elt F) → (⟨S4194304, .i32⟩ : BufTy).Contents (Elt F)),
    binary main_v54 main_v108 main_v109 (addi : (⟨S4194304, .i32⟩ : BufTy).Contents (Elt F) → (⟨S4194304, .i32⟩ : BufTy).Contents (Elt F) → (⟨S4194304, .i32⟩ : BufTy).Contents (Elt F)),
    ternary main_v107 main_v109 main_v54 main_v110 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v105 main_v111 (broadcastInDim S4194304x1 ![0] bcast_S4194304_S4194304x1_0 : (⟨S4194304, .i32⟩ : BufTy).Contents (Elt F) → (⟨S4194304x1, .i32⟩ : BufTy).Contents (Elt F)),
    unary main_v110 main_v112 (broadcastInDim S4194304x1 ![0] bcast_S4194304_S4194304x1_0 : (⟨S4194304, .i32⟩ : BufTy).Contents (Elt F) → (⟨S4194304x1, .i32⟩ : BufTy).Contents (Elt F)) ]
abbrev C4 : List (HloOp τ sig (Elt F)) :=
  [ binary main_v111 main_v112 main_v113 ((fun a b => concatenate S4194304x2 1 [⟨S4194304x1, a⟩, ⟨S4194304x1, b⟩] concatenates_S4194304x1_S4194304x1_S4194304x2_d1) : (⟨S4194304x1, .i32⟩ : BufTy).Contents (Elt F) → (⟨S4194304x1, .i32⟩ : BufTy).Contents (Elt F) → (⟨S4194304x2, .i32⟩ : BufTy).Contents (Elt F)),
    binary main_arg2 main_v113 main_v114 ((fun x i => Host.gather gather_S8x2048x2048_S4194304x2_S8x4194304_0_12_n_n_12_1_811 x i) : (⟨S8x2048x2048, .f32⟩ : BufTy).Contents (Elt F) → (⟨S4194304x2, .i32⟩ : BufTy).Contents (Elt F) → (⟨S8x4194304, .f32⟩ : BufTy).Contents (Elt F)),
    unary main_v114 main_v115 ((transpose S4194304x8 [1, 0] · transposes_S8x4194304_S4194304x8_1_0) : (⟨S8x4194304, .f32⟩ : BufTy).Contents (Elt F) → (⟨S4194304x8, .f32⟩ : BufTy).Contents (Elt F)),
    binary main_v19 main_v21 main_v116 (mulf : (⟨S4194304, .f32⟩ : BufTy).Contents (Elt F) → (⟨S4194304, .f32⟩ : BufTy).Contents (Elt F) → (⟨S4194304, .f32⟩ : BufTy).Contents (Elt F)),
    binary main_v116 main_v53 main_v117 (mulf : (⟨S4194304, .f32⟩ : BufTy).Contents (Elt F) → (⟨S4194304, .f32⟩ : BufTy).Contents (Elt F) → (⟨S4194304, .f32⟩ : BufTy).Contents (Elt F)),
    binary main_v117 main_v35 main_v118 (mulf : (⟨S4194304, .f32⟩ : BufTy).Contents (Elt F) → (⟨S4194304, .f32⟩ : BufTy).Contents (Elt F) → (⟨S4194304, .f32⟩ : BufTy).Contents (Elt F)),
    unary main_v118 main_v119 (broadcastInDim S4194304x1 ![0] bcast_S4194304_S4194304x1_0 : (⟨S4194304, .f32⟩ : BufTy).Contents (Elt F) → (⟨S4194304x1, .f32⟩ : BufTy).Contents (Elt F)),
    unary main_v119 main_v120 (broadcastInDim S4194304x8 ![0, 1] bcast_S4194304x1_S4194304x8_0_1 : (⟨S4194304x1, .f32⟩ : BufTy).Contents (Elt F) → (⟨S4194304x8, .f32⟩ : BufTy).Contents (Elt F)),
    binary main_v115 main_v120 main_v121 (mulf : (⟨S4194304x8, .f32⟩ : BufTy).Contents (Elt F) → (⟨S4194304x8, .f32⟩ : BufTy).Contents (Elt F) → (⟨S4194304x8, .f32⟩ : BufTy).Contents (Elt F)),
    binary main_v100 main_v121 main_v122 (addf : (⟨S4194304x8, .f32⟩ : BufTy).Contents (Elt F) → (⟨S4194304x8, .f32⟩ : BufTy).Contents (Elt F) → (⟨S4194304x8, .f32⟩ : BufTy).Contents (Elt F)),
    nullary main_c_36 (constantI S_ 32 0#32),
    unary main_c_36 main_v123 (broadcastInDim S4194304 ![] bcast_S_S4194304 : (⟨S_, .i32⟩ : BufTy).Contents (Elt F) → (⟨S4194304, .i32⟩ : BufTy).Contents (Elt F)),
    binary main_v57 main_v123 main_v124 (cmpi .slt : (⟨S4194304, .i32⟩ : BufTy).Contents (Elt F) → (⟨S4194304, .i32⟩ : BufTy).Contents (Elt F) → (⟨S4194304, .i1⟩ : BufTy).Contents (Elt F)),
    nullary main_c_37 (constantI S_ 32 2048#32),
    unary main_c_37 main_v125 (broadcastInDim S4194304 ![] bcast_S_S4194304 : (⟨S_, .i32⟩ : BufTy).Contents (Elt F) → (⟨S4194304, .i32⟩ : BufTy).Contents (Elt F)),
    binary main_v57 main_v125 main_v126 (addi : (⟨S4194304, .i32⟩ : BufTy).Contents (Elt F) → (⟨S4194304, .i32⟩ : BufTy).Contents (Elt F) → (⟨S4194304, .i32⟩ : BufTy).Contents (Elt F)),
    ternary main_v124 main_v126 main_v57 main_v127 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_38 (constantI S_ 32 0#32),
    unary main_c_38 main_v128 (broadcastInDim S4194304 ![] bcast_S_S4194304 : (⟨S_, .i32⟩ : BufTy).Contents (Elt F) → (⟨S4194304, .i32⟩ : BufTy).Contents (Elt F)),
    binary main_v55 main_v128 main_v129 (cmpi .slt : (⟨S4194304, .i32⟩ : BufTy).Contents (Elt F) → (⟨S4194304, .i32⟩ : BufTy).Contents (Elt F) → (⟨S4194304, .i1⟩ : BufTy).Contents (Elt F)),
    nullary main_c_39 (constantI S_ 32 2048#32),
    unary main_c_39 main_v130 (broadcastInDim S4194304 ![] bcast_S_S4194304 : (⟨S_, .i32⟩ : BufTy).Contents (Elt F) → (⟨S4194304, .i32⟩ : BufTy).Contents (Elt F)),
    binary main_v55 main_v130 main_v131 (addi : (⟨S4194304, .i32⟩ : BufTy).Contents (Elt F) → (⟨S4194304, .i32⟩ : BufTy).Contents (Elt F) → (⟨S4194304, .i32⟩ : BufTy).Contents (Elt F)),
    ternary main_v129 main_v131 main_v55 main_v132 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v127 main_v133 (broadcastInDim S4194304x1 ![0] bcast_S4194304_S4194304x1_0 : (⟨S4194304, .i32⟩ : BufTy).Contents (Elt F) → (⟨S4194304x1, .i32⟩ : BufTy).Contents (Elt F)),
    unary main_v132 main_v134 (broadcastInDim S4194304x1 ![0] bcast_S4194304_S4194304x1_0 : (⟨S4194304, .i32⟩ : BufTy).Contents (Elt F) → (⟨S4194304x1, .i32⟩ : BufTy).Contents (Elt F)) ]
abbrev C5 : List (HloOp τ sig (Elt F)) :=
  [ binary main_v133 main_v134 main_v135 ((fun a b => concatenate S4194304x2 1 [⟨S4194304x1, a⟩, ⟨S4194304x1, b⟩] concatenates_S4194304x1_S4194304x1_S4194304x2_d1) : (⟨S4194304x1, .i32⟩ : BufTy).Contents (Elt F) → (⟨S4194304x1, .i32⟩ : BufTy).Contents (Elt F) → (⟨S4194304x2, .i32⟩ : BufTy).Contents (Elt F)),
    binary main_arg2 main_v135 main_v136 ((fun x i => Host.gather gather_S8x2048x2048_S4194304x2_S8x4194304_0_12_n_n_12_1_811 x i) : (⟨S8x2048x2048, .f32⟩ : BufTy).Contents (Elt F) → (⟨S4194304x2, .i32⟩ : BufTy).Contents (Elt F) → (⟨S8x4194304, .f32⟩ : BufTy).Contents (Elt F)),
    unary main_v136 main_v137 ((transpose S4194304x8 [1, 0] · transposes_S8x4194304_S4194304x8_1_0) : (⟨S8x4194304, .f32⟩ : BufTy).Contents (Elt F) → (⟨S4194304x8, .f32⟩ : BufTy).Contents (Elt F)),
    binary main_v19 main_v18 main_v138 (mulf : (⟨S4194304, .f32⟩ : BufTy).Contents (Elt F) → (⟨S4194304, .f32⟩ : BufTy).Contents (Elt F) → (⟨S4194304, .f32⟩ : BufTy).Contents (Elt F)),
    binary main_v138 main_v53 main_v139 (mulf : (⟨S4194304, .f32⟩ : BufTy).Contents (Elt F) → (⟨S4194304, .f32⟩ : BufTy).Contents (Elt F) → (⟨S4194304, .f32⟩ : BufTy).Contents (Elt F)),
    binary main_v139 main_v41 main_v140 (mulf : (⟨S4194304, .f32⟩ : BufTy).Contents (Elt F) → (⟨S4194304, .f32⟩ : BufTy).Contents (Elt F) → (⟨S4194304, .f32⟩ : BufTy).Contents (Elt F)),
    unary main_v140 main_v141 (broadcastInDim S4194304x1 ![0] bcast_S4194304_S4194304x1_0 : (⟨S4194304, .f32⟩ : BufTy).Contents (Elt F) → (⟨S4194304x1, .f32⟩ : BufTy).Contents (Elt F)),
    unary main_v141 main_v142 (broadcastInDim S4194304x8 ![0, 1] bcast_S4194304x1_S4194304x8_0_1 : (⟨S4194304x1, .f32⟩ : BufTy).Contents (Elt F) → (⟨S4194304x8, .f32⟩ : BufTy).Contents (Elt F)),
    binary main_v137 main_v142 main_v143 (mulf : (⟨S4194304x8, .f32⟩ : BufTy).Contents (Elt F) → (⟨S4194304x8, .f32⟩ : BufTy).Contents (Elt F) → (⟨S4194304x8, .f32⟩ : BufTy).Contents (Elt F)),
    binary main_v122 main_v143 main_v144 (addf : (⟨S4194304x8, .f32⟩ : BufTy).Contents (Elt F) → (⟨S4194304x8, .f32⟩ : BufTy).Contents (Elt F) → (⟨S4194304x8, .f32⟩ : BufTy).Contents (Elt F)) ]
abbrev C6 : List (HloOp τ sig (Elt F)) :=
  [ binary main_v144 main_arg1 main_v145 ((fun a b => concatenate S4194304x11 1 [⟨S4194304x8, a⟩, ⟨S4194304x3, b⟩] concatenates_S4194304x8_S4194304x3_S4194304x11_d1) : (⟨S4194304x8, .f32⟩ : BufTy).Contents (Elt F) → (⟨S4194304x3, .f32⟩ : BufTy).Contents (Elt F) → (⟨S4194304x11, .f32⟩ : BufTy).Contents (Elt F)),
    unary main_arg3 main_v146 ((transpose S11x16 [1, 0] · transposes_S16x11_S11x16_1_0) : (⟨S16x11, .f32⟩ : BufTy).Contents (Elt F) → (⟨S11x16, .f32⟩ : BufTy).Contents (Elt F)),
    binary main_v145 main_v146 main_v147 ((fun l r => Host.dotGeneral dot_S4194304x11_S11x16_S4194304x16_1_0_0_1_n_n none l r) : (⟨S4194304x11, .f32⟩ : BufTy).Contents (Elt F) → (⟨S11x16, .f32⟩ : BufTy).Contents (Elt F) → (⟨S4194304x16, .f32⟩ : BufTy).Contents (Elt F)),
    unary main_arg4 main_v148 (broadcastInDim S1x16 ![1] bcast_S16_S1x16_1 : (⟨S16, .f32⟩ : BufTy).Contents (Elt F) → (⟨S1x16, .f32⟩ : BufTy).Contents (Elt F)),
    unary main_v148 main_v149 (broadcastInDim S4194304x16 ![0, 1] bcast_S1x16_S4194304x16_0_1 : (⟨S1x16, .f32⟩ : BufTy).Contents (Elt F) → (⟨S4194304x16, .f32⟩ : BufTy).Contents (Elt F)),
    binary main_v147 main_v149 main_v150 (addf : (⟨S4194304x16, .f32⟩ : BufTy).Contents (Elt F) → (⟨S4194304x16, .f32⟩ : BufTy).Contents (Elt F) → (⟨S4194304x16, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4194304x16, .f32⟩) main_call4_v0) (broadcastInDim S4194304x16 ![] bcast_S_S4194304x16),
    TRef.binary (TRef.of (T := ⟨S4194304x16, .f32⟩) main_v150) (TRef.of (T := ⟨S4194304x16, .f32⟩) main_call4_v0) (TRef.of (T := ⟨S4194304x16, .f32⟩) main_v151) maximumf,
    unary main_arg5 main_v152 ((transpose S16x16 [1, 0] · transposes_S16x16_S16x16_1_0) : (⟨S16x16, .f32⟩ : BufTy).Contents (Elt F) → (⟨S16x16, .f32⟩ : BufTy).Contents (Elt F)),
    binary main_v151 main_v152 main_v153 ((fun l r => Host.dotGeneral dot_S4194304x16_S16x16_S4194304x16_1_0_0_1_n_n none l r) : (⟨S4194304x16, .f32⟩ : BufTy).Contents (Elt F) → (⟨S16x16, .f32⟩ : BufTy).Contents (Elt F) → (⟨S4194304x16, .f32⟩ : BufTy).Contents (Elt F)),
    unary main_arg6 main_v154 (broadcastInDim S1x16 ![1] bcast_S16_S1x16_1 : (⟨S16, .f32⟩ : BufTy).Contents (Elt F) → (⟨S1x16, .f32⟩ : BufTy).Contents (Elt F)),
    unary main_v154 main_v155 (broadcastInDim S4194304x16 ![0, 1] bcast_S1x16_S4194304x16_0_1 : (⟨S1x16, .f32⟩ : BufTy).Contents (Elt F) → (⟨S4194304x16, .f32⟩ : BufTy).Contents (Elt F)),
    binary main_v153 main_v155 main_v156 (addf : (⟨S4194304x16, .f32⟩ : BufTy).Contents (Elt F) → (⟨S4194304x16, .f32⟩ : BufTy).Contents (Elt F) → (⟨S4194304x16, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4194304x16, .f32⟩) main_call5_v0) (broadcastInDim S4194304x16 ![] bcast_S_S4194304x16),
    TRef.binary (TRef.of (T := ⟨S4194304x16, .f32⟩) main_v156) (TRef.of (T := ⟨S4194304x16, .f32⟩) main_call5_v0) (TRef.of (T := ⟨S4194304x16, .f32⟩) main_v157) maximumf,
    unary main_arg7 main_v158 ((transpose S16x3 [1, 0] · transposes_S3x16_S16x3_1_0) : (⟨S3x16, .f32⟩ : BufTy).Contents (Elt F) → (⟨S16x3, .f32⟩ : BufTy).Contents (Elt F)),
    binary main_v157 main_v158 main_v159 ((fun l r => Host.dotGeneral dot_S4194304x16_S16x3_S4194304x3_1_0_0_1_n_n none l r) : (⟨S4194304x16, .f32⟩ : BufTy).Contents (Elt F) → (⟨S16x3, .f32⟩ : BufTy).Contents (Elt F) → (⟨S4194304x3, .f32⟩ : BufTy).Contents (Elt F)),
    unary main_arg8 main_v160 (broadcastInDim S1x3 ![1] bcast_S3_S1x3_1 : (⟨S3, .f32⟩ : BufTy).Contents (Elt F) → (⟨S1x3, .f32⟩ : BufTy).Contents (Elt F)),
    unary main_v160 main_v161 (broadcastInDim S4194304x3 ![0, 1] bcast_S1x3_S4194304x3_0_1 : (⟨S1x3, .f32⟩ : BufTy).Contents (Elt F) → (⟨S4194304x3, .f32⟩ : BufTy).Contents (Elt F)),
    binary main_v159 main_v161 main_v162 (addf : (⟨S4194304x3, .f32⟩ : BufTy).Contents (Elt F) → (⟨S4194304x3, .f32⟩ : BufTy).Contents (Elt F) → (⟨S4194304x3, .f32⟩ : BufTy).Contents (Elt F)),
    unary main_v162 main_v163 (Host.negf : (⟨S4194304x3, .f32⟩ : BufTy).Contents (Elt F) → (⟨S4194304x3, .f32⟩ : BufTy).Contents (Elt F)),
    unary main_v163 main_v164 (Host.exp : (⟨S4194304x3, .f32⟩ : BufTy).Contents (Elt F) → (⟨S4194304x3, .f32⟩ : BufTy).Contents (Elt F)),
    nullary main_cst_40 (constant S_ .f32 0x3F800000#32),
    unary main_cst_40 main_v165 (broadcastInDim S4194304x3 ![] bcast_S_S4194304x3 : (⟨S_, .f32⟩ : BufTy).Contents (Elt F) → (⟨S4194304x3, .f32⟩ : BufTy).Contents (Elt F)),
    binary main_v165 main_v164 main_v166 (addf : (⟨S4194304x3, .f32⟩ : BufTy).Contents (Elt F) → (⟨S4194304x3, .f32⟩ : BufTy).Contents (Elt F) → (⟨S4194304x3, .f32⟩ : BufTy).Contents (Elt F)),
    nullary main_cst_41 (constant S_ .f32 0x3F800000#32),
    unary main_cst_41 main_v167 (broadcastInDim S4194304x3 ![] bcast_S_S4194304x3 : (⟨S_, .f32⟩ : BufTy).Contents (Elt F) → (⟨S4194304x3, .f32⟩ : BufTy).Contents (Elt F)),
    binary main_v167 main_v166 main_v168 (Host.divf : (⟨S4194304x3, .f32⟩ : BufTy).Contents (Elt F) → (⟨S4194304x3, .f32⟩ : BufTy).Contents (Elt F) → (⟨S4194304x3, .f32⟩ : BufTy).Contents (Elt F)) ]

/-- The pieces laid end to end are the program's operations. -/
theorem ops_eq : (ops : List (HloOp τ sig (Elt F))) = C1 ++ (C2 ++ (C3 ++ (C4 ++ (C5 ++ C6)))) := rfl

/-! ## The memory after each piece -/

/-- Core `c`'s launch memory as a valuation of its buffers. -/
def B0 (c : Dev nD) : Valuation τ sig (Elt F) := fun b => m (c, b)
/-- After the first piece: the scaled coordinates, their floors, fractions and masks, the four clipped integer
    coordinates, and the first tap's wrapped index columns. -/
def B1 (c : Dev nD) : Valuation τ sig (Elt F) := after C1 (B0 m c)
/-- After the second: the first tap weighted, and the second tap's index columns. -/
def B2 (c : Dev nD) : Valuation τ sig (Elt F) := after C2 (B1 m c)
/-- After the third: two taps summed, and the third tap's index columns. -/
def B3 (c : Dev nD) : Valuation τ sig (Elt F) := after C3 (B2 m c)
/-- After the fourth: three taps summed, and the fourth tap's index columns. -/
def B4 (c : Dev nD) : Valuation τ sig (Elt F) := after C4 (B3 m c)
/-- After the fifth: the four taps' weighted sum. -/
def B5 (c : Dev nD) : Valuation τ sig (Elt F) := after C5 (B4 m c)

/-! ## Each piece's results, over the memory before it

The two index columns a piece hands to the next one's concatenation hold no concatenation themselves: they are read
off all the pieces so far at once. A running sum of weighted taps is read off its own piece over the memory before
it, where the columns and the previous sum are already known; what is left then (the texture, the fractions and
masks) is read off the earlier pieces. -/

set_option maxHeartbeats 4000000 in
theorem B1_v68 (c : Dev nD) : B1 m c (Proc.devRef .tc main_v68) = Cert.ReferenceIdeal.Read.val_main_v68 (F := F) (m ((c.tc : Thread nD τ).loc main_arg0)) := by
  unfold B1 B0
  simp only [C1]
  after_results_simp <;> rfl
set_option maxHeartbeats 4000000 in
theorem B1_v69 (c : Dev nD) : B1 m c (Proc.devRef .tc main_v69) = Cert.ReferenceIdeal.Read.val_main_v69 (F := F) (m ((c.tc : Thread nD τ).loc main_arg0)) := by
  unfold B1 B0
  simp only [C1]
  after_results_simp <;> rfl
set_option maxHeartbeats 4000000 in
theorem B2_v78 (c : Dev nD) : B2 m c (Proc.devRef .tc main_v78) = Cert.ReferenceIdeal.Read.val_main_v78 (F := F) (m ((c.tc : Thread nD τ).loc main_arg0)) (m ((c.tc : Thread nD τ).loc main_arg2)) := by
  unfold B2
  simp only [C2]
  after_results_simp
  rw [B1_v68, B1_v69]
  unfold B1 B0
  simp only [C1]
  after_results_simp <;> rfl
set_option maxHeartbeats 4000000 in
theorem B2_v89 (c : Dev nD) : B2 m c (Proc.devRef .tc main_v89) = Cert.ReferenceIdeal.Read.val_main_v89 (F := F) (m ((c.tc : Thread nD τ).loc main_arg0)) := by
  unfold B2 B1 B0
  simp only [C2, C1]
  after_results_simp <;> rfl
set_option maxHeartbeats 4000000 in
theorem B2_v90 (c : Dev nD) : B2 m c (Proc.devRef .tc main_v90) = Cert.ReferenceIdeal.Read.val_main_v90 (F := F) (m ((c.tc : Thread nD τ).loc main_arg0)) := by
  unfold B2 B1 B0
  simp only [C2, C1]
  after_results_simp <;> rfl
set_option maxHeartbeats 4000000 in
theorem B3_v100 (c : Dev nD) : B3 m c (Proc.devRef .tc main_v100) = Cert.ReferenceIdeal.Read.val_main_v100 (F := F) (m ((c.tc : Thread nD τ).loc main_arg0)) (m ((c.tc : Thread nD τ).loc main_arg2)) := by
  unfold B3
  simp only [C3]
  after_results_simp
  rw [B2_v89, B2_v90, B2_v78]
  unfold B2 B1 B0
  simp only [C2, C1]
  after_results_simp <;> rfl
set_option maxHeartbeats 4000000 in
theorem B3_v111 (c : Dev nD) : B3 m c (Proc.devRef .tc main_v111) = Cert.ReferenceIdeal.Read.val_main_v111 (F := F) (m ((c.tc : Thread nD τ).loc main_arg0)) := by
  unfold B3 B2 B1 B0
  simp only [C3, C2, C1]
  after_results_simp <;> rfl
set_option maxHeartbeats 4000000 in
theorem B3_v112 (c : Dev nD) : B3 m c (Proc.devRef .tc main_v112) = Cert.ReferenceIdeal.Read.val_main_v112 (F := F) (m ((c.tc : Thread nD τ).loc main_arg0)) := by
  unfold B3 B2 B1 B0
  simp only [C3, C2, C1]
  after_results_simp <;> rfl
set_option maxHeartbeats 4000000 in
theorem B4_v122 (c : Dev nD) : B4 m c (Proc.devRef .tc main_v122) = Cert.ReferenceIdeal.Read.val_main_v122 (F := F) (m ((c.tc : Thread nD τ).loc main_arg0)) (m ((c.tc : Thread nD τ).loc main_arg2)) := by
  unfold B4
  simp only [C4]
  after_results_simp
  rw [B3_v111, B3_v112, B3_v100]
  unfold B3 B2 B1 B0
  simp only [C3, C2, C1]
  after_results_simp <;> rfl
set_option maxHeartbeats 4000000 in
theorem B4_v133 (c : Dev nD) : B4 m c (Proc.devRef .tc main_v133) = Cert.ReferenceIdeal.Read.val_main_v133 (F := F) (m ((c.tc : Thread nD τ).loc main_arg0)) := by
  unfold B4 B3 B2 B1 B0
  simp only [C4, C3, C2, C1]
  after_results_simp <;> rfl
set_option maxHeartbeats 4000000 in
theorem B4_v134 (c : Dev nD) : B4 m c (Proc.devRef .tc main_v134) = Cert.ReferenceIdeal.Read.val_main_v134 (F := F) (m ((c.tc : Thread nD τ).loc main_arg0)) := by
  unfold B4 B3 B2 B1 B0
  simp only [C4, C3, C2, C1]
  after_results_simp <;> rfl
set_option maxHeartbeats 4000000 in
theorem B5_v144 (c : Dev nD) : B5 m c (Proc.devRef .tc main_v144) = Cert.ReferenceIdeal.Read.val_main_v144 (F := F) (m ((c.tc : Thread nD τ).loc main_arg0)) (m ((c.tc : Thread nD τ).loc main_arg2)) := by
  unfold B5
  simp only [C5]
  after_results_simp
  rw [B4_v133, B4_v134, B4_v122]
  unfold B4 B3 B2 B1 B0
  simp only [C4, C3, C2, C1]
  after_results_simp <;> rfl
set_option maxHeartbeats 4000000 in
theorem B5_arg1 (c : Dev nD) : B5 m c (Proc.devRef .tc main_arg1) = (m ((c.tc : Thread nD τ).loc main_arg1)) := by
  unfold B5 B4 B3 B2 B1 B0
  simp only [C5, C4, C3, C2, C1]
  after_results_simp <;> rfl

set_option maxHeartbeats 4000000 in
/-- The result buffer after all the operations is the last stage: the three-layer perceptron of the weighted taps
    joined with the view directions. -/
theorem run_v168 (c : Dev nD) : after ops (fun b => m (c, b)) (Proc.devRef .tc main_v168)
    = Cert.ReferenceIdeal.Read.val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_eq]
  simp only [after_app]
  show after C6 (B5 m c) _ = _
  simp only [C6]
  after_results_simp
  rw [B5_v144, B5_arg1]
  unfold B5 B4 B3 B2 B1 B0
  simp only [C5, C4, C3, C2, C1]
  after_results_simp <;> rfl

set_option maxRecDepth 8192 in
set_option maxHeartbeats 94800000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168) = Cert.ReferenceIdeal.Read.val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v168).trans (run_v168 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefRun

end
-- ==== Proof.FrameK.lean ====
/-
  The frame of `Kernel`, written against the pipeline library's launch theorem for one region on a static grid.
  @main is nine stretches of host operations (the bilinear taps: four gathers of the texture at clipped integer
  coordinates; the four tap weights stacked into one [B, 4] array by a four-piece concatenate; the two halves of W1
  and the biases as rows) followed by ONE region over 256 row tiles of 16384 rows. The region's body loads every
  input block whole, and stores ONE value — the three-layer perceptron of the weighted taps and the view directions —
  over its whole output block. So: the arrays as the region finds them are the fold of the host operations over the
  launch memory (`V`); no host operation writes an argument (`V_main_argK`); each input window's staging buffer holds
  its block of `V` at every point (`before_w`); the body leaves the output buffer at `outBlock` of the thirteen input
  blocks (`sound_kernel`); and the launch theorem then gives the run, with every array of the pipeline at what the
  proof data says and every other buffer as the region found it (`run_main`), of which the frame is a reading.
  Everything is stated at any float family `F`.
-/
import proofs.«119979_j1047972020725_1_alg».proof.Proof.Gen.Kernel.Launch
import proofs.«119979_j1047972020725_1_alg».proof.Proof.Gen.Kernel.Skeleton
import proofs.«119979_j1047972020725_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the nine stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
set_option maxHeartbeats 4000000 in
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 8000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or carried over
    (its block index has then not moved), for any proof data over `V` whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or carried over
    (its block index has then not moved), for any proof data over `V` whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or carried over
    (its block index has then not moved), for any proof data over `V` whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or carried over
    (its block index has then not moved), for any proof data over `V` whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or carried over
    (its block index has then not moved), for any proof data over `V` whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or carried over
    (its block index has then not moved), for any proof data over `V` whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or carried over
    (its block index has then not moved), for any proof data over `V` whose body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or carried over
    (its block index has then not moved), for any proof data over `V` whose body leaves the block in place. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or carried over
    (its block index has then not moved), for any proof data over `V` whose body leaves the block in place. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or carried over
    (its block index has then not moved), for any proof data over `V` whose body leaves the block in place. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or carried over
    (its block index has then not moved), for any proof data over `V` whose body leaves the block in place. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or carried over
    (its block index has then not moved), for any proof data over `V` whose body leaves the block in place. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or carried over
    (its block index has then not moved), for any proof data over `V` whose body leaves the block in place. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- A run to the launch theorem's post, read at the nine argument arrays: an argument a window stages is that
    window's array, which an input window never writes back; one no window stages is a buffer the region leaves
    alone; either way it is as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).1 5).trans (((dats 0 c).arrAt_in 5 rfl _).trans ((hA c 5).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 9).trans (((dats 0 c).arrAt_in 9 rfl _).trans ((hA c 9).trans (V_main_arg5 m c))),
      ((h c).2 main_arg6 (Pipeline.mem_restRefs_of main_arg6 (by decide) (by decide))).trans (V_main_arg6 m c),
      ((h c).1 11).trans (((dats 0 c).arrAt_in 11 rfl _).trans ((hA c 11).trans (V_main_arg7 m c))),
      ((h c).2 main_arg8 (Pipeline.mem_restRefs_of main_arg8 (by decide) (by decide))).trans (V_main_arg8 m c)⟩) h

/-! ## What the body leaves in the output window's buffer -/

abbrev r16384x8 : Rect S16384x8 := Rect.unit (s := S16384x8) ![0, 0] S16384x8.size inb_S16384x8_S16384x8_0_0
abbrev r16384x4 : Rect S16384x4 := Rect.unit (s := S16384x4) ![0, 0] S16384x4.size inb_S16384x4_S16384x4_0_0
abbrev r16384x3 : Rect S16384x3 := Rect.unit (s := S16384x3) ![0, 0] S16384x3.size inb_S16384x3_S16384x3_0_0
abbrev r16x8 : Rect S16x8 := Rect.unit (s := S16x8) ![0, 0] S16x8.size inb_S16x8_S16x8_0_0
abbrev r16x3 : Rect S16x3 := Rect.unit (s := S16x3) ![0, 0] S16x3.size inb_S16x3_S16x3_0_0
abbrev r1x16 : Rect S1x16 := Rect.unit (s := S1x16) ![0, 0] S1x16.size inb_S1x16_S1x16_0_0
abbrev r16x16 : Rect S16x16 := Rect.unit (s := S16x16) ![0, 0] S16x16.size inb_S16x16_S16x16_0_0
abbrev r3x16 : Rect S3x16 := Rect.unit (s := S3x16) ![0, 0] S3x16.size inb_S3x16_S3x16_0_0
abbrev r1x3 : Rect S1x3 := Rect.unit (s := S1x3) ![0, 0] S1x3.size inb_S1x3_S1x3_0_0

/-- The value the body stores, from the thirteen input blocks: the tile's weighted taps (four tap blocks against the
    four columns of the weight block), the view directions, the two halves of the first layer's matrix, the second and
    third layers' matrices, and the three bias rows. -/
def tileValue (x0 x1 x2 x3 : Vec F S16384x8 .f32) (x4 : Vec F S16384x4 .f32) (x5 : Vec F S16384x3 .f32) (x6 : Vec F S16x8 .f32)
    (x7 : Vec F S16x3 .f32) (x8 : Vec F S1x16 .f32) (x9 : Vec F S16x16 .f32) (x10 : Vec F S1x16 .f32) (x11 : Vec F S3x16 .f32)
    (x12 : Vec F S1x3 .f32) : FVec F S16384x3 .f32 :=
  k0_pay1 (k0_pay2 (View.ld x4 r16384x4) (View.ld x0 r16384x8) (View.ld x1 r16384x8) (View.ld x2 r16384x8) (View.ld x3 r16384x8))
    (k0_pay3 (View.ld x5 r16384x3)) (k0_pay4 (View.ld x7 r16x3)) (k0_pay5 (View.ld x9 r16x16)) (k0_pay6 (View.ld x11 r3x16))
    (k0_pay7 (View.ld x6 r16x8)) (View.ld x8 r1x16) (View.ld x10 r1x16) (View.ld x12 r1x3)

/-- The output window's staging buffer after the body: its one store, over the whole block. -/
def outBlock (x0 x1 x2 x3 : Vec F S16384x8 .f32) (x4 : Vec F S16384x4 .f32) (x5 : Vec F S16384x3 .f32) (x6 : Vec F S16x8 .f32)
    (x7 : Vec F S16x3 .f32) (x8 : Vec F S1x16 .f32) (x9 : Vec F S16x16 .f32) (x10 : Vec F S1x16 .f32) (x11 : Vec F S3x16 .f32)
    (x12 : Vec F S1x3 .f32) : Vec F S16384x3 .f32 :=
  View.canon [⟨r16384x3, tileValue x0 x1 x2 x3 x4 x5 x6 x7 x8 x9 x10 x11 x12⟩]

/-- That one store covers the buffer. -/
theorem cover_out (p0 : Vec F S16384x3 .f32) (y : S16384x3.Idx) :
    ∃ pc ∈ ([⟨r16384x3, p0⟩] : List (View.Piece (Elt F) S16384x3 .f32)), y ∈ pc.1.set :=
  View.cover_of_tiled [⟨r16384x3, p0⟩] S16384x3.size (by rfl) y

/-! ## The body's triple -/

set_option maxHeartbeats 4000000 in
/-- The body, on whole staging memrefs holding `x0 … x12` and an output memref holding anything, runs to a state with
    the inputs as they were and the output at `outBlock` of them. -/
theorem sound_kernel (c : Dev nD) (E : Set ℕ) (i : grid0.Coords)
    (arg1 : Memref sig .tc .vmem S16384x8 .f32) (harg1 : arg1.IsWhole) (arg2 : Memref sig .tc .vmem S16384x8 .f32) (harg2 : arg2.IsWhole) (arg3 : Memref sig .tc .vmem S16384x8 .f32) (harg3 : arg3.IsWhole) (arg4 : Memref sig .tc .vmem S16384x8 .f32) (harg4 : arg4.IsWhole) (arg5 : Memref sig .tc .vmem S16384x4 .f32) (harg5 : arg5.IsWhole) (arg6 : Memref sig .tc .vmem S16384x3 .f32) (harg6 : arg6.IsWhole) (arg7 : Memref sig .tc .vmem S16x8 .f32) (harg7 : arg7.IsWhole) (arg8 : Memref sig .tc .vmem S16x3 .f32) (harg8 : arg8.IsWhole) (arg9 : Memref sig .tc .vmem S1x16 .f32) (harg9 : arg9.IsWhole) (arg10 : Memref sig .tc .vmem S16x16 .f32) (harg10 : arg10.IsWhole) (arg11 : Memref sig .tc .vmem S1x16 .f32) (harg11 : arg11.IsWhole) (arg12 : Memref sig .tc .vmem S3x16 .f32) (harg12 : arg12.IsWhole) (arg13 : Memref sig .tc .vmem S1x3 .f32) (harg13 : arg13.IsWhole) (arg14 : Memref sig .tc .vmem S16384x3 .f32) (harg14 : arg14.IsWhole)
    (x0 : Vec F S16384x8 .f32) (x1 : Vec F S16384x8 .f32) (x2 : Vec F S16384x8 .f32) (x3 : Vec F S16384x8 .f32) (x4 : Vec F S16384x4 .f32) (x5 : Vec F S16384x3 .f32) (x6 : Vec F S16x8 .f32) (x7 : Vec F S16x3 .f32) (x8 : Vec F S1x16 .f32) (x9 : Vec F S16x16 .f32) (x10 : Vec F S1x16 .f32) (x11 : Vec F S3x16 .f32) (x12 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outBlock x0 x1 x2 x3 x4 x5 x6 x7 x8 x9 x10 x11 x12)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover_out _)

/-! ## The pipeline's proof data -/

/-- The arrays as the region finds them; after the body at point `t` each input's buffer at its block and the output's
    at `outBlock` of the input blocks; the invariant the plain one (the scoped rest and the generator register,
    untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ending at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its nine arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The same run with the result array named: after it, the region's output array is what the proof data computes
    from the 256 written-back blocks (`Dat.arrAt`), and the nine arguments are as launched. -/
theorem run_blocks : θ_run defs (onTc (τ := τ) (main (F := F))) ⟨m, fun _ => 0, ρ⟩ (fun r => ∀ c : Dev nD,
      r.2.mem ((c.tc : Thread nD τ).loc main_v140) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 13, ((h c).2 main_arg0 (Pipeline.mem_restRefs_of main_arg0 (by decide) (by decide))).trans (V_main_arg0 m c),
      ((h c).1 5).trans (((dats m 0 c).arrAt_in 5 rfl _).trans ((A_eq m c 5).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 9).trans (((dats m 0 c).arrAt_in 9 rfl _).trans ((A_eq m c 9).trans (V_main_arg5 m c))),
      ((h c).2 main_arg6 (Pipeline.mem_restRefs_of main_arg6 (by decide) (by decide))).trans (V_main_arg6 m c),
      ((h c).1 11).trans (((dats m 0 c).arrAt_in 11 rfl _).trans ((A_eq m c 11).trans (V_main_arg7 m c))),
      ((h c).2 main_arg8 (Pipeline.mem_restRefs_of main_arg8 (by decide) (by decide))).trans (V_main_arg8 m c)⟩) (run_main m ρ)

end Cert.Kernel.Hand

end
-- ==== Proof.FrameKI.lean ====
/-
  The frame of `KernelIdeal`, written against the pipeline library's launch theorem for one region on a static grid.
  @main is nine stretches of host operations (the bilinear taps: four gathers of the texture at clipped integer
  coordinates; the four tap weights stacked into one [B, 4] array by a four-piece concatenate; the two halves of W1
  and the biases as rows) followed by ONE region over 256 row tiles of 16384 rows. The region's body loads every
  input block whole, and stores ONE value — the three-layer perceptron of the weighted taps and the view directions —
  over its whole output block. So: the arrays as the region finds them are the fold of the host operations over the
  launch memory (`V`); no host operation writes an argument (`V_main_argK`); each input window's staging buffer holds
  its block of `V` at every point (`before_w`); the body leaves the output buffer at `outBlock` of the thirteen input
  blocks (`sound_kernel`); and the launch theorem then gives the run, with every array of the pipeline at what the
  proof data says and every other buffer as the region found it (`run_main`), of which the frame is a reading.
  Everything is stated at any float family `F`.
-/
import proofs.«119979_j1047972020725_1_alg».proof.Proof.Gen.KernelIdeal.Launch
import proofs.«119979_j1047972020725_1_alg».proof.Proof.Gen.KernelIdeal.Skeleton
import proofs.«119979_j1047972020725_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the nine stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
set_option maxHeartbeats 4000000 in
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 8000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or carried over
    (its block index has then not moved), for any proof data over `V` whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or carried over
    (its block index has then not moved), for any proof data over `V` whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or carried over
    (its block index has then not moved), for any proof data over `V` whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or carried over
    (its block index has then not moved), for any proof data over `V` whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or carried over
    (its block index has then not moved), for any proof data over `V` whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or carried over
    (its block index has then not moved), for any proof data over `V` whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or carried over
    (its block index has then not moved), for any proof data over `V` whose body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or carried over
    (its block index has then not moved), for any proof data over `V` whose body leaves the block in place. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or carried over
    (its block index has then not moved), for any proof data over `V` whose body leaves the block in place. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or carried over
    (its block index has then not moved), for any proof data over `V` whose body leaves the block in place. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or carried over
    (its block index has then not moved), for any proof data over `V` whose body leaves the block in place. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or carried over
    (its block index has then not moved), for any proof data over `V` whose body leaves the block in place. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or carried over
    (its block index has then not moved), for any proof data over `V` whose body leaves the block in place. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- A run to the launch theorem's post, read at the nine argument arrays: an argument a window stages is that
    window's array, which an input window never writes back; one no window stages is a buffer the region leaves
    alone; either way it is as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).1 5).trans (((dats 0 c).arrAt_in 5 rfl _).trans ((hA c 5).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 9).trans (((dats 0 c).arrAt_in 9 rfl _).trans ((hA c 9).trans (V_main_arg5 m c))),
      ((h c).2 main_arg6 (Pipeline.mem_restRefs_of main_arg6 (by decide) (by decide))).trans (V_main_arg6 m c),
      ((h c).1 11).trans (((dats 0 c).arrAt_in 11 rfl _).trans ((hA c 11).trans (V_main_arg7 m c))),
      ((h c).2 main_arg8 (Pipeline.mem_restRefs_of main_arg8 (by decide) (by decide))).trans (V_main_arg8 m c)⟩) h

/-! ## What the body leaves in the output window's buffer -/

abbrev r16384x8 : Rect S16384x8 := Rect.unit (s := S16384x8) ![0, 0] S16384x8.size inb_S16384x8_S16384x8_0_0
abbrev r16384x4 : Rect S16384x4 := Rect.unit (s := S16384x4) ![0, 0] S16384x4.size inb_S16384x4_S16384x4_0_0
abbrev r16384x3 : Rect S16384x3 := Rect.unit (s := S16384x3) ![0, 0] S16384x3.size inb_S16384x3_S16384x3_0_0
abbrev r16x8 : Rect S16x8 := Rect.unit (s := S16x8) ![0, 0] S16x8.size inb_S16x8_S16x8_0_0
abbrev r16x3 : Rect S16x3 := Rect.unit (s := S16x3) ![0, 0] S16x3.size inb_S16x3_S16x3_0_0
abbrev r1x16 : Rect S1x16 := Rect.unit (s := S1x16) ![0, 0] S1x16.size inb_S1x16_S1x16_0_0
abbrev r16x16 : Rect S16x16 := Rect.unit (s := S16x16) ![0, 0] S16x16.size inb_S16x16_S16x16_0_0
abbrev r3x16 : Rect S3x16 := Rect.unit (s := S3x16) ![0, 0] S3x16.size inb_S3x16_S3x16_0_0
abbrev r1x3 : Rect S1x3 := Rect.unit (s := S1x3) ![0, 0] S1x3.size inb_S1x3_S1x3_0_0

/-- The value the body stores, from the thirteen input blocks: the tile's weighted taps (four tap blocks against the
    four columns of the weight block), the view directions, the two halves of the first layer's matrix, the second and
    third layers' matrices, and the three bias rows. -/
def tileValue (x0 x1 x2 x3 : Vec F S16384x8 .f32) (x4 : Vec F S16384x4 .f32) (x5 : Vec F S16384x3 .f32) (x6 : Vec F S16x8 .f32)
    (x7 : Vec F S16x3 .f32) (x8 : Vec F S1x16 .f32) (x9 : Vec F S16x16 .f32) (x10 : Vec F S1x16 .f32) (x11 : Vec F S3x16 .f32)
    (x12 : Vec F S1x3 .f32) : FVec F S16384x3 .f32 :=
  k0_pay1 (k0_pay2 (View.ld x4 r16384x4) (View.ld x0 r16384x8) (View.ld x1 r16384x8) (View.ld x2 r16384x8) (View.ld x3 r16384x8))
    (k0_pay3 (View.ld x5 r16384x3)) (k0_pay4 (View.ld x7 r16x3)) (k0_pay5 (View.ld x9 r16x16)) (k0_pay6 (View.ld x11 r3x16))
    (k0_pay7 (View.ld x6 r16x8)) (View.ld x8 r1x16) (View.ld x10 r1x16) (View.ld x12 r1x3)

/-- The output window's staging buffer after the body: its one store, over the whole block. -/
def outBlock (x0 x1 x2 x3 : Vec F S16384x8 .f32) (x4 : Vec F S16384x4 .f32) (x5 : Vec F S16384x3 .f32) (x6 : Vec F S16x8 .f32)
    (x7 : Vec F S16x3 .f32) (x8 : Vec F S1x16 .f32) (x9 : Vec F S16x16 .f32) (x10 : Vec F S1x16 .f32) (x11 : Vec F S3x16 .f32)
    (x12 : Vec F S1x3 .f32) : Vec F S16384x3 .f32 :=
  View.canon [⟨r16384x3, tileValue x0 x1 x2 x3 x4 x5 x6 x7 x8 x9 x10 x11 x12⟩]

/-- That one store covers the buffer. -/
theorem cover_out (p0 : Vec F S16384x3 .f32) (y : S16384x3.Idx) :
    ∃ pc ∈ ([⟨r16384x3, p0⟩] : List (View.Piece (Elt F) S16384x3 .f32)), y ∈ pc.1.set :=
  View.cover_of_tiled [⟨r16384x3, p0⟩] S16384x3.size (by rfl) y

/-! ## The body's triple -/

set_option maxHeartbeats 4000000 in
/-- The body, on whole staging memrefs holding `x0 … x12` and an output memref holding anything, runs to a state with
    the inputs as they were and the output at `outBlock` of them. -/
theorem sound_kernel (c : Dev nD) (E : Set ℕ) (i : grid0.Coords)
    (arg1 : Memref sig .tc .vmem S16384x8 .f32) (harg1 : arg1.IsWhole) (arg2 : Memref sig .tc .vmem S16384x8 .f32) (harg2 : arg2.IsWhole) (arg3 : Memref sig .tc .vmem S16384x8 .f32) (harg3 : arg3.IsWhole) (arg4 : Memref sig .tc .vmem S16384x8 .f32) (harg4 : arg4.IsWhole) (arg5 : Memref sig .tc .vmem S16384x4 .f32) (harg5 : arg5.IsWhole) (arg6 : Memref sig .tc .vmem S16384x3 .f32) (harg6 : arg6.IsWhole) (arg7 : Memref sig .tc .vmem S16x8 .f32) (harg7 : arg7.IsWhole) (arg8 : Memref sig .tc .vmem S16x3 .f32) (harg8 : arg8.IsWhole) (arg9 : Memref sig .tc .vmem S1x16 .f32) (harg9 : arg9.IsWhole) (arg10 : Memref sig .tc .vmem S16x16 .f32) (harg10 : arg10.IsWhole) (arg11 : Memref sig .tc .vmem S1x16 .f32) (harg11 : arg11.IsWhole) (arg12 : Memref sig .tc .vmem S3x16 .f32) (harg12 : arg12.IsWhole) (arg13 : Memref sig .tc .vmem S1x3 .f32) (harg13 : arg13.IsWhole) (arg14 : Memref sig .tc .vmem S16384x3 .f32) (harg14 : arg14.IsWhole)
    (x0 : Vec F S16384x8 .f32) (x1 : Vec F S16384x8 .f32) (x2 : Vec F S16384x8 .f32) (x3 : Vec F S16384x8 .f32) (x4 : Vec F S16384x4 .f32) (x5 : Vec F S16384x3 .f32) (x6 : Vec F S16x8 .f32) (x7 : Vec F S16x3 .f32) (x8 : Vec F S1x16 .f32) (x9 : Vec F S16x16 .f32) (x10 : Vec F S1x16 .f32) (x11 : Vec F S3x16 .f32) (x12 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outBlock x0 x1 x2 x3 x4 x5 x6 x7 x8 x9 x10 x11 x12)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover_out _)

/-! ## The pipeline's proof data -/

/-- The arrays as the region finds them; after the body at point `t` each input's buffer at its block and the output's
    at `outBlock` of the input blocks; the invariant the plain one (the scoped rest and the generator register,
    untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ending at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its nine arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The same run with the result array named: after it, the region's output array is what the proof data computes
    from the 256 written-back blocks (`Dat.arrAt`), and the nine arguments are as launched. -/
theorem run_blocks : θ_run defs (onTc (τ := τ) (main (F := F))) ⟨m, fun _ => 0, ρ⟩ (fun r => ∀ c : Dev nD,
      r.2.mem ((c.tc : Thread nD τ).loc main_v140) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 13, ((h c).2 main_arg0 (Pipeline.mem_restRefs_of main_arg0 (by decide) (by decide))).trans (V_main_arg0 m c),
      ((h c).1 5).trans (((dats m 0 c).arrAt_in 5 rfl _).trans ((A_eq m c 5).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 9).trans (((dats m 0 c).arrAt_in 9 rfl _).trans ((A_eq m c 9).trans (V_main_arg5 m c))),
      ((h c).2 main_arg6 (Pipeline.mem_restRefs_of main_arg6 (by decide) (by decide))).trans (V_main_arg6 m c),
      ((h c).1 11).trans (((dats m 0 c).arrAt_in 11 rfl _).trans ((A_eq m c 11).trans (V_main_arg7 m c))),
      ((h c).2 main_arg8 (Pipeline.mem_restRefs_of main_arg8 (by decide) (by decide))).trans (V_main_arg8 m c)⟩) (run_main m ρ)

end Cert.KernelIdeal.Hand

end
-- ==== Proof.Spec.lean ====
/-
  The function both programs compute, one output row at a time, on the extended reals.
  For a sample point with bilinear taps a00, a01, a10, a11 (eight channels each) and tap weights w00 … w11 the sampled
  feature is  f k = a00 k · w00 + a01 k · w01 + a10 k · w10 + a11 k · w11  (summed left to right). With the view
  direction v (three numbers) the first layer is  h1 i = max (Σ_k f k · A i k + Σ_k v k · B i k + b1 i) 0,  A and B the
  first eight and the last three columns of the 16 × 11 matrix; the second  h2 i = max (Σ_k h1 k · W2 i k + b2 i) 0;
  the output  logistic (Σ_k h2 k · W3 j k + b3 j).  The zero of the two rectifiers is kept as the f32 word 0, the same
  word in both programs, so it is never evaluated.
  The one law between the two programs' arrangements: a sum over eleven columns of a row that is eight numbers followed
  by three is the sum over the eight plus the sum over the three (`sum_eleven`): a regrouping of a finite sum in a
  commutative monoid, which holds on the extended reals with no finiteness assumption.
-/
import Idealize.ShloMosaic.PureOps.Ideal
import Idealize.ShloMosaic.Lib.ValueIdx
import Mathlib.Algebra.BigOperators.Fin

noncomputable section

open scoped BigOperators

namespace Cert.Mlp

open Idealize.ShloMosaic

/-- The zero the rectifiers compare against: the f32 word 0. -/
def z0 : EReal := Ideal.ofBits .f32 0x00000000#32

/-- The bilinear sample's channel `k`: four taps against their weights, summed left to right. -/
def feat (a00 a01 a10 a11 : Fin 8 → EReal) (w00 w01 w10 w11 : EReal) (k : Fin 8) : EReal :=
  a00 k * w00 + a01 k * w01 + a10 k * w10 + a11 k * w11

/-- First layer, the 11 columns split as 8 + 3. -/
def hid1 (f : Fin 8 → EReal) (v : Fin 3 → EReal) (A : Fin 16 → Fin 8 → EReal) (B : Fin 16 → Fin 3 → EReal)
    (b1 : Fin 16 → EReal) (i : Fin 16) : EReal :=
  max (((∑ k : Fin 8, f k * A i k) + ∑ k : Fin 3, v k * B i k) + b1 i) z0

/-- Second layer. -/
def hid2 (h : Fin 16 → EReal) (W2 : Fin 16 → Fin 16 → EReal) (b2 : Fin 16 → EReal) (i : Fin 16) : EReal :=
  max ((∑ k : Fin 16, h k * W2 i k) + b2 i) z0

/-- Output layer. -/
def outp (h : Fin 16 → EReal) (W3 : Fin 3 → Fin 16 → EReal) (b3 : Fin 3 → EReal) (j : Fin 3) : EReal :=
  Ideal.logistic ((∑ k : Fin 16, h k * W3 j k) + b3 j)

/-- One row of the result. -/
def rowOut (a00 a01 a10 a11 : Fin 8 → EReal) (w00 w01 w10 w11 : EReal) (v : Fin 3 → EReal)
    (A : Fin 16 → Fin 8 → EReal) (B : Fin 16 → Fin 3 → EReal) (b1 : Fin 16 → EReal)
    (W2 : Fin 16 → Fin 16 → EReal) (b2 : Fin 16 → EReal) (W3 : Fin 3 → Fin 16 → EReal) (b3 : Fin 3 → EReal)
    (j : Fin 3) : EReal :=
  outp (hid2 (hid1 (feat a00 a01 a10 a11 w00 w01 w10 w11) v A B b1) W2 b2) W3 b3 j

/-- A sum over eleven is the sum over the first eight plus the sum over the last three. -/
theorem sum_eleven (g : Fin 11 → EReal) :
    (∑ q : Fin 11, g q) = (∑ k : Fin 8, g (Fin.castAdd 3 k)) + ∑ k : Fin 3, g (Fin.natAdd 8 k) :=
  Fin.sum_univ_add (a := 8) (b := 3) g

end Cert.Mlp

end
-- ==== Proof.TileValue.lean ====
/-
  The value the region's body stores, read at one element. Row `p` of the tile, output channel `j`: the body's term
  — four tap blocks each against one column of the weight block, the bf16 casts (identities on the extended reals),
  two matrix products into zero accumulators for the two halves of the first layer, the rectifiers, two more matrix
  products, the logistic — is the perceptron's row function `Cert.Mlp.rowOut` of row `p` of the tap, weight and
  view-direction blocks and of the whole matrix and bias blocks.
-/
import proofs.«119979_j1047972020725_1_alg».proof.Proof.FrameKI
import proofs.«119979_j1047972020725_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Hand Idealize.ShloMosaic Idealize.ShloMosaic.ValueIdx

/-- The offsets of a whole rectangle are zero on both axes. -/
private theorem off_zero : (![0, 0] : Fin 2 → Nat) = fun _ => 0 := funext fun a => by fin_cases a <;> rfl

/-- One column broadcast over many: an `[a, 1]` array broadcast to `[a, b]` reads, at `(p, c)`, the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `c` of the weight block, spread over the eight lanes: at `(p, k)` it is the weight block at `(p, c)`. -/
private theorem col_apply (o : Nat) (c : Fin 4) (hc : c.val = o) (w : (⟨2, ![16384, 4]⟩ : Shape).Idx → EReal)
    (hs : (⟨2, ![16384, 4]⟩ : Shape).Slices ![0, o] ⟨2, ![16384, 1]⟩)
    (hb : (⟨2, ![16384, 1]⟩ : Shape).Broadcasts ⟨2, ![16384, 8]⟩) (p : Fin 16384) (k : Fin 8) :
    broadcastTo ⟨2, ![16384, 8]⟩ (extractStridedSlice ⟨2, ![16384, 1]⟩ ![0, o] w hs) hb (ix2 p k) = w (ix2 p c) := by
  rw [broadcastTo_a1_ab_apply]
  exact slice2_axis1_apply o w hs p (0 : Fin 1) c (by rw [hc]; rfl)

/-- The weighted taps at row `p`, lane `k`: four products summed left to right (the narrowing to bf16 is the identity). -/
private theorem feat_at (x4 : Vec Ideal S16384x4 .f32) (x0 x1 x2 x3 : Vec Ideal S16384x8 .f32) (p : Fin 16384) (k : Fin 8) :
    k0_pay2 (F := Ideal) x4 x0 x1 x2 x3 (ix2 p k) = Cert.Mlp.feat (fun k => x0 (ix2 p k)) (fun k => x1 (ix2 p k))
      (fun k => x2 (ix2 p k)) (fun k => x3 (ix2 p k))
      (x4 (ix2 p (0 : Fin 4))) (x4 (ix2 p (1 : Fin 4))) (x4 (ix2 p (2 : Fin 4))) (x4 (ix2 p (3 : Fin 4))) k := by
  unfold k0_pay2
  simp only [shapeCast_self, truncf_apply, addf_apply, mulf_apply]
  rw [col_apply 0 0 rfl, col_apply 1 1 rfl, col_apply 2 2 rfl, col_apply 3 3 rfl]
  rfl

/-- The view directions, narrowed: the block itself. -/
private theorem dir_at (x5 : Vec Ideal S16384x3 .f32) (p : Fin 16384) (k : Fin 3) :
    k0_pay3 (F := Ideal) x5 (ix2 p k) = x5 (ix2 p k) := rfl

/-- The last three columns of the first layer's matrix, narrowed: the block itself. -/
private theorem w1b_at (x7 : Vec Ideal S16x3 .f32) (i : Fin 16) (k : Fin 3) :
    k0_pay4 (F := Ideal) x7 (ix2 i k) = x7 (ix2 i k) := by
  unfold k0_pay4
  simp only [shapeCast_self, truncf_apply]

/-- The second layer's matrix, narrowed: the block itself. -/
private theorem w2_at (x9 : Vec Ideal S16x16 .f32) (i k : Fin 16) :
    k0_pay5 (F := Ideal) x9 (ix2 i k) = x9 (ix2 i k) := rfl

/-- The output layer's matrix, narrowed: the block itself. -/
private theorem w3_at (x11 : Vec Ideal S3x16 .f32) (j : Fin 3) (k : Fin 16) :
    k0_pay6 (F := Ideal) x11 (ix2 j k) = x11 (ix2 j k) := rfl

/-- The first eight columns of the first layer's matrix, narrowed and transposed: at `(k, i)` the block at `(i, k)`. -/
private theorem w1a_at (x6 : Vec Ideal S16x8 .f32) (k : Fin 8) (i : Fin 16) :
    k0_pay7 (F := Ideal) x6 (ix2 k i) = x6 (ix2 i k) := by
  unfold k0_pay7
  simp only [shapeCast_self]
  rw [transpose_ix2_apply]
  rfl

/-- The logistic of a vector at an index is the logistic of the element. -/
private theorem logistic_apply {s : Shape} {φ : FTy} (x : FVec Ideal s φ) (i : s.Idx) :
    logistic x i = Ideal.logistic (x i) := rfl

/-! ## The four matrix products read at an index

Each contracts the left operand's axis 1 with the right operand's axis 0 and has no batch axis: at output index
`(p, i)` and contraction position `k` the left operand is read at `(p, k)` and the right one at `(k, i)`. Into the
zero accumulator the product is the plain sum over `k`. -/

/-! ### Taps × first layer's first eight columns: `[16384, 8] · [8, 16]` -/

private theorem lhs_a_0 (i : S16384x16.Idx) (q : dot_S16384x8_S8x16_S16384x16_1_0_0_1_n_n.contr.Idx) :
    (dot_S16384x8_S8x16_S16384x16_1_0_0_1_n_n.lhsIdx i q 0).val = (i 0).val := by
  unfold DotDims.lhsIdx
  rw [dif_neg (show ¬(0 : Fin S16384x8.rank) ∈ dot_S16384x8_S8x16_S16384x16_1_0_0_1_n_n.lhsBatch by decide), dif_pos (show (0 : Fin S16384x8.rank) ∈ dot_S16384x8_S8x16_S16384x16_1_0_0_1_n_n.lhsNonContracting by decide)]
  rfl
private theorem lhs_a_1 (i : S16384x16.Idx) (q : dot_S16384x8_S8x16_S16384x16_1_0_0_1_n_n.contr.Idx) :
    (dot_S16384x8_S8x16_S16384x16_1_0_0_1_n_n.lhsIdx i q 1).val = (q ⟨0, by decide⟩).val :=
  dot_S16384x8_S8x16_S16384x16_1_0_0_1_n_n.lhsIdx_val_of_single rfl i q
private theorem rhs_a_0 (i : S16384x16.Idx) (q : dot_S16384x8_S8x16_S16384x16_1_0_0_1_n_n.contr.Idx) :
    (dot_S16384x8_S8x16_S16384x16_1_0_0_1_n_n.rhsIdx i q 0).val = (q ⟨0, by decide⟩).val :=
  dot_S16384x8_S8x16_S16384x16_1_0_0_1_n_n.rhsIdx_val_of_single rfl i q
private theorem rhs_a_1 (i : S16384x16.Idx) (q : dot_S16384x8_S8x16_S16384x16_1_0_0_1_n_n.contr.Idx) :
    (dot_S16384x8_S8x16_S16384x16_1_0_0_1_n_n.rhsIdx i q 1).val = (i 1).val := by
  unfold DotDims.rhsIdx
  rw [dif_neg (show ¬(1 : Fin S8x16.rank) ∈ dot_S16384x8_S8x16_S16384x16_1_0_0_1_n_n.rhsBatch by decide), dif_pos (show (1 : Fin S8x16.rank) ∈ dot_S16384x8_S8x16_S16384x16_1_0_0_1_n_n.rhsNonContracting by decide)]
  rfl

private theorem mm_a_apply (A : FVec Ideal S16384x8 .bf16) (B : FVec Ideal S8x16 .bf16) (p : Fin 16384) (i : Fin 16) :
    matmul dot_S16384x8_S8x16_S16384x16_1_0_0_1_n_n none A B (constant (F := Ideal) S16384x16 .f32 0x00000000#32) (ix2 p i)
      = ∑ k : Fin 8, A (ix2 p k) * B (ix2 k i) := by
  simp only [matmul]
  rw [Ideal.matmul_constant_zero_apply, ← Equiv.sum_comp (contrEquiv1 dot_S16384x8_S8x16_S16384x16_1_0_0_1_n_n 8 rfl rfl).symm]
  refine Finset.sum_congr rfl fun k _ => ?_
  have hk := contrEquiv1_symm_val dot_S16384x8_S8x16_S16384x16_1_0_0_1_n_n 8 rfl rfl k
  have el : dot_S16384x8_S8x16_S16384x16_1_0_0_1_n_n.lhsIdx (ix2 p i) ((contrEquiv1 dot_S16384x8_S8x16_S16384x16_1_0_0_1_n_n 8 rfl rfl).symm k) = ix2 p k := funext fun a => Fin.ext (by
    match a with
    | ⟨0, _⟩ => exact lhs_a_0 _ _
    | ⟨1, _⟩ => exact (lhs_a_1 _ _).trans hk)
  have er : dot_S16384x8_S8x16_S16384x16_1_0_0_1_n_n.rhsIdx (ix2 p i) ((contrEquiv1 dot_S16384x8_S8x16_S16384x16_1_0_0_1_n_n 8 rfl rfl).symm k) = ix2 k i := funext fun a => Fin.ext (by
    match a with
    | ⟨0, _⟩ => exact (rhs_a_0 _ _).trans hk
    | ⟨1, _⟩ => exact rhs_a_1 _ _)
  rw [el, er]

/-! ### View directions × first layer's last three columns: `[16384, 3] · [3, 16]` -/

private theorem lhs_b_0 (i : S16384x16.Idx) (q : dot_S16384x3_S3x16_S16384x16_1_0_0_1_n_n.contr.Idx) :
    (dot_S16384x3_S3x16_S16384x16_1_0_0_1_n_n.lhsIdx i q 0).val = (i 0).val := by
  unfold DotDims.lhsIdx
  rw [dif_neg (show ¬(0 : Fin S16384x3.rank) ∈ dot_S16384x3_S3x16_S16384x16_1_0_0_1_n_n.lhsBatch by decide), dif_pos (show (0 : Fin S16384x3.rank) ∈ dot_S16384x3_S3x16_S16384x16_1_0_0_1_n_n.lhsNonContracting by decide)]
  rfl
private theorem lhs_b_1 (i : S16384x16.Idx) (q : dot_S16384x3_S3x16_S16384x16_1_0_0_1_n_n.contr.Idx) :
    (dot_S16384x3_S3x16_S16384x16_1_0_0_1_n_n.lhsIdx i q 1).val = (q ⟨0, by decide⟩).val :=
  dot_S16384x3_S3x16_S16384x16_1_0_0_1_n_n.lhsIdx_val_of_single rfl i q
private theorem rhs_b_0 (i : S16384x16.Idx) (q : dot_S16384x3_S3x16_S16384x16_1_0_0_1_n_n.contr.Idx) :
    (dot_S16384x3_S3x16_S16384x16_1_0_0_1_n_n.rhsIdx i q 0).val = (q ⟨0, by decide⟩).val :=
  dot_S16384x3_S3x16_S16384x16_1_0_0_1_n_n.rhsIdx_val_of_single rfl i q
private theorem rhs_b_1 (i : S16384x16.Idx) (q : dot_S16384x3_S3x16_S16384x16_1_0_0_1_n_n.contr.Idx) :
    (dot_S16384x3_S3x16_S16384x16_1_0_0_1_n_n.rhsIdx i q 1).val = (i 1).val := by
  unfold DotDims.rhsIdx
  rw [dif_neg (show ¬(1 : Fin S3x16.rank) ∈ dot_S16384x3_S3x16_S16384x16_1_0_0_1_n_n.rhsBatch by decide), dif_pos (show (1 : Fin S3x16.rank) ∈ dot_S16384x3_S3x16_S16384x16_1_0_0_1_n_n.rhsNonContracting by decide)]
  rfl

private theorem mm_b_apply (A : FVec Ideal S16384x3 .bf16) (B : FVec Ideal S3x16 .bf16) (p : Fin 16384) (i : Fin 16) :
    matmul dot_S16384x3_S3x16_S16384x16_1_0_0_1_n_n none A B (constant (F := Ideal) S16384x16 .f32 0x00000000#32) (ix2 p i)
      = ∑ k : Fin 3, A (ix2 p k) * B (ix2 k i) := by
  simp only [matmul]
  rw [Ideal.matmul_constant_zero_apply, ← Equiv.sum_comp (contrEquiv1 dot_S16384x3_S3x16_S16384x16_1_0_0_1_n_n 3 rfl rfl).symm]
  refine Finset.sum_congr rfl fun k _ => ?_
  have hk := contrEquiv1_symm_val dot_S16384x3_S3x16_S16384x16_1_0_0_1_n_n 3 rfl rfl k
  have el : dot_S16384x3_S3x16_S16384x16_1_0_0_1_n_n.lhsIdx (ix2 p i) ((contrEquiv1 dot_S16384x3_S3x16_S16384x16_1_0_0_1_n_n 3 rfl rfl).symm k) = ix2 p k := funext fun a => Fin.ext (by
    match a with
    | ⟨0, _⟩ => exact lhs_b_0 _ _
    | ⟨1, _⟩ => exact (lhs_b_1 _ _).trans hk)
  have er : dot_S16384x3_S3x16_S16384x16_1_0_0_1_n_n.rhsIdx (ix2 p i) ((contrEquiv1 dot_S16384x3_S3x16_S16384x16_1_0_0_1_n_n 3 rfl rfl).symm k) = ix2 k i := funext fun a => Fin.ext (by
    match a with
    | ⟨0, _⟩ => exact (rhs_b_0 _ _).trans hk
    | ⟨1, _⟩ => exact rhs_b_1 _ _)
  rw [el, er]

/-! ### First hidden layer × second layer's matrix: `[16384, 16] · [16, 16]` -/

private theorem lhs_c_0 (i : S16384x16.Idx) (q : dot_S16384x16_S16x16_S16384x16_1_0_0_1_n_n.contr.Idx) :
    (dot_S16384x16_S16x16_S16384x16_1_0_0_1_n_n.lhsIdx i q 0).val = (i 0).val := by
  unfold DotDims.lhsIdx
  rw [dif_neg (show ¬(0 : Fin S16384x16.rank) ∈ dot_S16384x16_S16x16_S16384x16_1_0_0_1_n_n.lhsBatch by decide), dif_pos (show (0 : Fin S16384x16.rank) ∈ dot_S16384x16_S16x16_S16384x16_1_0_0_1_n_n.lhsNonContracting by decide)]
  rfl
private theorem lhs_c_1 (i : S16384x16.Idx) (q : dot_S16384x16_S16x16_S16384x16_1_0_0_1_n_n.contr.Idx) :
    (dot_S16384x16_S16x16_S16384x16_1_0_0_1_n_n.lhsIdx i q 1).val = (q ⟨0, by decide⟩).val :=
  dot_S16384x16_S16x16_S16384x16_1_0_0_1_n_n.lhsIdx_val_of_single rfl i q
private theorem rhs_c_0 (i : S16384x16.Idx) (q : dot_S16384x16_S16x16_S16384x16_1_0_0_1_n_n.contr.Idx) :
    (dot_S16384x16_S16x16_S16384x16_1_0_0_1_n_n.rhsIdx i q 0).val = (q ⟨0, by decide⟩).val :=
  dot_S16384x16_S16x16_S16384x16_1_0_0_1_n_n.rhsIdx_val_of_single rfl i q
private theorem rhs_c_1 (i : S16384x16.Idx) (q : dot_S16384x16_S16x16_S16384x16_1_0_0_1_n_n.contr.Idx) :
    (dot_S16384x16_S16x16_S16384x16_1_0_0_1_n_n.rhsIdx i q 1).val = (i 1).val := by
  unfold DotDims.rhsIdx
  rw [dif_neg (show ¬(1 : Fin S16x16.rank) ∈ dot_S16384x16_S16x16_S16384x16_1_0_0_1_n_n.rhsBatch by decide), dif_pos (show (1 : Fin S16x16.rank) ∈ dot_S16384x16_S16x16_S16384x16_1_0_0_1_n_n.rhsNonContracting by decide)]
  rfl

private theorem mm_c_apply (A : FVec Ideal S16384x16 .bf16) (B : FVec Ideal S16x16 .bf16) (p : Fin 16384) (i : Fin 16) :
    matmul dot_S16384x16_S16x16_S16384x16_1_0_0_1_n_n none A B (constant (F := Ideal) S16384x16 .f32 0x00000000#32) (ix2 p i)
      = ∑ k : Fin 16, A (ix2 p k) * B (ix2 k i) := by
  simp only [matmul]
  rw [Ideal.matmul_constant_zero_apply, ← Equiv.sum_comp (contrEquiv1 dot_S16384x16_S16x16_S16384x16_1_0_0_1_n_n 16 rfl rfl).symm]
  refine Finset.sum_congr rfl fun k _ => ?_
  have hk := contrEquiv1_symm_val dot_S16384x16_S16x16_S16384x16_1_0_0_1_n_n 16 rfl rfl k
  have el : dot_S16384x16_S16x16_S16384x16_1_0_0_1_n_n.lhsIdx (ix2 p i) ((contrEquiv1 dot_S16384x16_S16x16_S16384x16_1_0_0_1_n_n 16 rfl rfl).symm k) = ix2 p k := funext fun a => Fin.ext (by
    match a with
    | ⟨0, _⟩ => exact lhs_c_0 _ _
    | ⟨1, _⟩ => exact (lhs_c_1 _ _).trans hk)
  have er : dot_S16384x16_S16x16_S16384x16_1_0_0_1_n_n.rhsIdx (ix2 p i) ((contrEquiv1 dot_S16384x16_S16x16_S16384x16_1_0_0_1_n_n 16 rfl rfl).symm k) = ix2 k i := funext fun a => Fin.ext (by
    match a with
    | ⟨0, _⟩ => exact (rhs_c_0 _ _).trans hk
    | ⟨1, _⟩ => exact rhs_c_1 _ _)
  rw [el, er]

/-! ### Second hidden layer × output layer's matrix: `[16384, 16] · [16, 3]` -/

private theorem lhs_d_0 (i : S16384x3.Idx) (q : dot_S16384x16_S16x3_S16384x3_1_0_0_1_n_n.contr.Idx) :
    (dot_S16384x16_S16x3_S16384x3_1_0_0_1_n_n.lhsIdx i q 0).val = (i 0).val := by
  unfold DotDims.lhsIdx
  rw [dif_neg (show ¬(0 : Fin S16384x16.rank) ∈ dot_S16384x16_S16x3_S16384x3_1_0_0_1_n_n.lhsBatch by decide), dif_pos (show (0 : Fin S16384x16.rank) ∈ dot_S16384x16_S16x3_S16384x3_1_0_0_1_n_n.lhsNonContracting by decide)]
  rfl
private theorem lhs_d_1 (i : S16384x3.Idx) (q : dot_S16384x16_S16x3_S16384x3_1_0_0_1_n_n.contr.Idx) :
    (dot_S16384x16_S16x3_S16384x3_1_0_0_1_n_n.lhsIdx i q 1).val = (q ⟨0, by decide⟩).val :=
  dot_S16384x16_S16x3_S16384x3_1_0_0_1_n_n.lhsIdx_val_of_single rfl i q
private theorem rhs_d_0 (i : S16384x3.Idx) (q : dot_S16384x16_S16x3_S16384x3_1_0_0_1_n_n.contr.Idx) :
    (dot_S16384x16_S16x3_S16384x3_1_0_0_1_n_n.rhsIdx i q 0).val = (q ⟨0, by decide⟩).val :=
  dot_S16384x16_S16x3_S16384x3_1_0_0_1_n_n.rhsIdx_val_of_single rfl i q
private theorem rhs_d_1 (i : S16384x3.Idx) (q : dot_S16384x16_S16x3_S16384x3_1_0_0_1_n_n.contr.Idx) :
    (dot_S16384x16_S16x3_S16384x3_1_0_0_1_n_n.rhsIdx i q 1).val = (i 1).val := by
  unfold DotDims.rhsIdx
  rw [dif_neg (show ¬(1 : Fin S16x3.rank) ∈ dot_S16384x16_S16x3_S16384x3_1_0_0_1_n_n.rhsBatch by decide), dif_pos (show (1 : Fin S16x3.rank) ∈ dot_S16384x16_S16x3_S16384x3_1_0_0_1_n_n.rhsNonContracting by decide)]
  rfl

private theorem mm_d_apply (A : FVec Ideal S16384x16 .bf16) (B : FVec Ideal S16x3 .bf16) (p : Fin 16384) (j : Fin 3) :
    matmul dot_S16384x16_S16x3_S16384x3_1_0_0_1_n_n none A B (constant (F := Ideal) S16384x3 .f32 0x00000000#32) (ix2 p j)
      = ∑ k : Fin 16, A (ix2 p k) * B (ix2 k j) := by
  simp only [matmul]
  rw [Ideal.matmul_constant_zero_apply, ← Equiv.sum_comp (contrEquiv1 dot_S16384x16_S16x3_S16384x3_1_0_0_1_n_n 16 rfl rfl).symm]
  refine Finset.sum_congr rfl fun k _ => ?_
  have hk := contrEquiv1_symm_val dot_S16384x16_S16x3_S16384x3_1_0_0_1_n_n 16 rfl rfl k
  have el : dot_S16384x16_S16x3_S16384x3_1_0_0_1_n_n.lhsIdx (ix2 p j) ((contrEquiv1 dot_S16384x16_S16x3_S16384x3_1_0_0_1_n_n 16 rfl rfl).symm k) = ix2 p k := funext fun a => Fin.ext (by
    match a with
    | ⟨0, _⟩ => exact lhs_d_0 _ _
    | ⟨1, _⟩ => exact (lhs_d_1 _ _).trans hk)
  have er : dot_S16384x16_S16x3_S16384x3_1_0_0_1_n_n.rhsIdx (ix2 p j) ((contrEquiv1 dot_S16384x16_S16x3_S16384x3_1_0_0_1_n_n 16 rfl rfl).symm k) = ix2 k j := funext fun a => Fin.ext (by
    match a with
    | ⟨0, _⟩ => exact (rhs_d_0 _ _).trans hk
    | ⟨1, _⟩ => exact rhs_d_1 _ _)
  rw [el, er]

/-! ## A transposed matrix as a function of the index -/

/-- A matrix transposed is, as a function of the index `y`, the operand at `(y 1, y 0)`. -/
private theorem transpose_ix2_eq {α : Type} {a b : ℕ} (x : (⟨2, ![a, b]⟩ : Shape).Idx → α)
    (h : (⟨2, ![a, b]⟩ : Shape).Transposes [1, 0] ⟨2, ![b, a]⟩) :
    transpose ⟨2, ![b, a]⟩ [1, 0] x h
      = fun y => x (ix2 (⟨(y 1).val, idx2_lt1 y⟩ : Fin a) (⟨(y 0).val, idx2_lt0 y⟩ : Fin b)) := by
  funext y
  obtain ⟨j, i, rfl⟩ : ∃ (j : Fin b) (i : Fin a), y = ix2 j i := ⟨y 0, y 1, eq_ix2 y⟩
  exact transpose_ix2_apply x h j i

/-! ## The three layers at one element -/

/-- The body's last value at row `p`, channel `j`, from the operands of its matrix products: three layers, each a
    matrix product into a zero accumulator plus a bias row broadcast over the rows, the first two followed by the
    rectifier against the f32 word 0, the last by the logistic. -/
private theorem layers_at (v26 : FVec Ideal S16384x8 .bf16) (v27 : FVec Ideal S16384x3 .bf16) (v33 : FVec Ideal S16x3 .bf16)
    (v35 : FVec Ideal S16x16 .bf16) (v37 : FVec Ideal S3x16 .bf16) (v38 : FVec Ideal S8x16 .bf16)
    (v43 : Vec Ideal S1x16 .f32) (v52 : Vec Ideal S1x16 .f32) (v61 : Vec Ideal S1x3 .f32) (p : Fin 16384) (j : Fin 3) :
    k0_pay1 (F := Ideal) v26 v27 v33 v35 v37 v38 v43 v52 v61 (ix2 p j)
      = Cert.Mlp.outp (Cert.Mlp.hid2 (Cert.Mlp.hid1 (fun k => v26 (ix2 p k)) (fun k => v27 (ix2 p k))
          (fun i k => v38 (ix2 k i)) (fun i k => v33 (ix2 i k)) (fun i => v43 (ix2 (0 : Fin 1) i)))
          (fun i k => v35 (ix2 i k)) (fun i => v52 (ix2 (0 : Fin 1) i)))
          (fun i k => v37 (ix2 i k)) (fun i => v61 (ix2 (0 : Fin 1) i)) j := by
  unfold k0_pay1 Cert.Mlp.outp Cert.Mlp.hid2 Cert.Mlp.hid1 Cert.Mlp.z0
  rw [transpose_ix2_eq v33, transpose_ix2_eq v35, transpose_ix2_eq v37]
  simp only [shapeCast_self, logistic_apply, addf_apply, maximumf_apply, truncf_apply, broadcast_apply,
    broadcastTo_1b_ab_apply, mm_a_apply, mm_b_apply, mm_c_apply, mm_d_apply, Ideal.ofBits_def]

/-- The value the body stores at row `p`, channel `j` of the tile. -/
theorem tileValue_at (x0 x1 x2 x3 : Vec Ideal S16384x8 .f32) (x4 : Vec Ideal S16384x4 .f32) (x5 : Vec Ideal S16384x3 .f32)
    (x6 : Vec Ideal S16x8 .f32) (x7 : Vec Ideal S16x3 .f32) (x8 : Vec Ideal S1x16 .f32) (x9 : Vec Ideal S16x16 .f32)
    (x10 : Vec Ideal S1x16 .f32) (x11 : Vec Ideal S3x16 .f32) (x12 : Vec Ideal S1x3 .f32) (p : Fin 16384) (j : Fin 3) :
    tileValue x0 x1 x2 x3 x4 x5 x6 x7 x8 x9 x10 x11 x12 (ix2 p j) = Cert.Mlp.rowOut
      (fun k => x0 (ix2 p k)) (fun k => x1 (ix2 p k)) (fun k => x2 (ix2 p k)) (fun k => x3 (ix2 p k))
      (x4 (ix2 p (0 : Fin 4))) (x4 (ix2 p (1 : Fin 4))) (x4 (ix2 p (2 : Fin 4))) (x4 (ix2 p (3 : Fin 4)))
      (fun k => x5 (ix2 p k)) (fun i k => x6 (ix2 i k)) (fun i k => x7 (ix2 i k)) (fun i => x8 (ix2 (0 : Fin 1) i))
      (fun i k => x9 (ix2 i k)) (fun i => x10 (ix2 (0 : Fin 1) i)) (fun i k => x11 (ix2 i k)) (fun i => x12 (ix2 (0 : Fin 1) i)) j := by
  unfold tileValue Cert.Mlp.rowOut
  simp only [View.ld_unit_zero (S := S16384x8) off_zero, View.ld_unit_zero (S := S16384x4) off_zero,
    View.ld_unit_zero (S := S16384x3) off_zero, View.ld_unit_zero (S := S16x8) off_zero,
    View.ld_unit_zero (S := S16x3) off_zero, View.ld_unit_zero (S := S1x16) off_zero,
    View.ld_unit_zero (S := S16x16) off_zero, View.ld_unit_zero (S := S3x16) off_zero,
    View.ld_unit_zero (S := S1x3) off_zero]
  rw [layers_at]
  simp only [feat_at, dir_at, w1b_at, w2_at, w3_at, w1a_at]

end Cert.KernelIdeal.Val

end
-- ==== Proof.KIValue.lean ====
/-
  The region's output array after the run, element by element. Point `t` of the 256-point grid writes back rows
  16384·t … 16384·t + 16383 of the [4194304, 3] result, every input row window moves with it, and the matrix and bias
  windows stay on their one block; so row `r` of the result is the perceptron's row function of row `r` of the four
  tap arrays, the weight array and the view directions, and of the matrices and biases, all as the region finds them.
-/
import proofs.«119979_j1047972020725_1_alg».proof.Proof.FrameKI
import proofs.«119979_j1047972020725_1_alg».proof.Proof.Spec
import proofs.«119979_j1047972020725_1_alg».proof.Proof.TileValue
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The zero offsets of a whole-block rectangle, as a constant function. -/
private theorem zeroOffsets : (![0, 0] : Fin 2 → Nat) = fun _ => 0 := funext fun a => by
  match a with
  | ⟨0, _⟩ => rfl
  | ⟨1, _⟩ => rfl

/-- The index maps of the row windows, decided over the 256 points: the output and the six row inputs are at block
    `(t, 0)` at point `t`. -/
private theorem blockIndex : ∀ t : Fin cfg0.N,
    win0_13.index t (0 : Fin 2) = t.val ∧ win0_13.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The index maps of the matrix and bias windows, decided over the 256 points: each stays at block `(0, 0)`. -/
private theorem fixedIndex : ∀ t : Fin cfg0.N,
    win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Window 0's block at point `t`, row `p`, is row `16384·t + p` of its array. -/
private theorem tap00_at (c : Dev nD) (t : Fin cfg0.N) (p : Fin 16384) (r : Fin 4194304) (hr : r.val = t.val * 16384 + p.val) (k : Fin 8) :
    (iblk m c 0 t : Vec Ideal S16384x8 .f32) (ix2 p k) = V m c main_v72 (ix2 r k) := by
  obtain ⟨-, -, e0, e1, -⟩ := blockIndex t
  unfold iblk
  rw [View.read_apply]
  show V m c main_v72 _ = V m c main_v72 _
  congr 1
  funext a
  apply Fin.ext
  match a with
  | ⟨0, _⟩ => show win0_0.index t (0 : Fin 2) * 16384 + 1 * p.val = r.val; omega
  | ⟨1, _⟩ => show win0_0.index t (1 : Fin 2) * 8 + 1 * k.val = k.val; omega

/-- Window 1's block at point `t`, row `p`, is row `16384·t + p` of its array. -/
private theorem tap01_at (c : Dev nD) (t : Fin cfg0.N) (p : Fin 16384) (r : Fin 4194304) (hr : r.val = t.val * 16384 + p.val) (k : Fin 8) :
    (iblk m c 1 t : Vec Ideal S16384x8 .f32) (ix2 p k) = V m c main_v87 (ix2 r k) := by
  obtain ⟨-, -, -, -, e0, e1, -⟩ := blockIndex t
  unfold iblk
  rw [View.read_apply]
  show V m c main_v87 _ = V m c main_v87 _
  congr 1
  funext a
  apply Fin.ext
  match a with
  | ⟨0, _⟩ => show win0_1.index t (0 : Fin 2) * 16384 + 1 * p.val = r.val; omega
  | ⟨1, _⟩ => show win0_1.index t (1 : Fin 2) * 8 + 1 * k.val = k.val; omega

/-- Window 2's block at point `t`, row `p`, is row `16384·t + p` of its array. -/
private theorem tap10_at (c : Dev nD) (t : Fin cfg0.N) (p : Fin 16384) (r : Fin 4194304) (hr : r.val = t.val * 16384 + p.val) (k : Fin 8) :
    (iblk m c 2 t : Vec Ideal S16384x8 .f32) (ix2 p k) = V m c main_v102 (ix2 r k) := by
  obtain ⟨-, -, -, -, -, -, e0, e1, -⟩ := blockIndex t
  unfold iblk
  rw [View.read_apply]
  show V m c main_v102 _ = V m c main_v102 _
  congr 1
  funext a
  apply Fin.ext
  match a with
  | ⟨0, _⟩ => show win0_2.index t (0 : Fin 2) * 16384 + 1 * p.val = r.val; omega
  | ⟨1, _⟩ => show win0_2.index t (1 : Fin 2) * 8 + 1 * k.val = k.val; omega

/-- Window 3's block at point `t`, row `p`, is row `16384·t + p` of its array. -/
private theorem tap11_at (c : Dev nD) (t : Fin cfg0.N) (p : Fin 16384) (r : Fin 4194304) (hr : r.val = t.val * 16384 + p.val) (k : Fin 8) :
    (iblk m c 3 t : Vec Ideal S16384x8 .f32) (ix2 p k) = V m c main_v117 (ix2 r k) := by
  obtain ⟨-, -, -, -, -, -, -, -, e0, e1, -⟩ := blockIndex t
  unfold iblk
  rw [View.read_apply]
  show V m c main_v117 _ = V m c main_v117 _
  congr 1
  funext a
  apply Fin.ext
  match a with
  | ⟨0, _⟩ => show win0_3.index t (0 : Fin 2) * 16384 + 1 * p.val = r.val; omega
  | ⟨1, _⟩ => show win0_3.index t (1 : Fin 2) * 8 + 1 * k.val = k.val; omega

/-- Window 4's block at point `t`, row `p`, is row `16384·t + p` of its array. -/
private theorem weights_at (c : Dev nD) (t : Fin cfg0.N) (p : Fin 16384) (r : Fin 4194304) (hr : r.val = t.val * 16384 + p.val) (k : Fin 4) :
    (iblk m c 4 t : Vec Ideal S16384x4 .f32) (ix2 p k) = V m c main_v134 (ix2 r k) := by
  obtain ⟨-, -, -, -, -, -, -, -, -, -, e0, e1, -⟩ := blockIndex t
  unfold iblk
  rw [View.read_apply]
  show V m c main_v134 _ = V m c main_v134 _
  congr 1
  funext a
  apply Fin.ext
  match a with
  | ⟨0, _⟩ => show win0_4.index t (0 : Fin 2) * 16384 + 1 * p.val = r.val; omega
  | ⟨1, _⟩ => show win0_4.index t (1 : Fin 2) * 4 + 1 * k.val = k.val; omega

/-- Window 5's block at point `t`, row `p`, is row `16384·t + p` of its array. -/
private theorem dirs_at (c : Dev nD) (t : Fin cfg0.N) (p : Fin 16384) (r : Fin 4194304) (hr : r.val = t.val * 16384 + p.val) (k : Fin 3) :
    (iblk m c 5 t : Vec Ideal S16384x3 .f32) (ix2 p k) = V m c main_arg1 (ix2 r k) := by
  obtain ⟨-, -, -, -, -, -, -, -, -, -, -, -, e0, e1⟩ := blockIndex t
  unfold iblk
  rw [View.read_apply]
  show V m c main_arg1 _ = V m c main_arg1 _
  congr 1
  funext a
  apply Fin.ext
  match a with
  | ⟨0, _⟩ => show win0_5.index t (0 : Fin 2) * 16384 + 1 * p.val = r.val; omega
  | ⟨1, _⟩ => show win0_5.index t (1 : Fin 2) * 3 + 1 * k.val = k.val; omega

/-- Window 6 stays on its one block, the whole of its array. -/
private theorem w1feat_at (c : Dev nD) (t : Fin cfg0.N) (i : Fin 16) (k : Fin 8) :
    (iblk m c 6 t : Vec Ideal S16x8 .f32) (ix2 i k) = V m c main_v135 (ix2 i k) := by
  obtain ⟨e0, e1, -⟩ := fixedIndex t
  unfold iblk
  rw [View.read_apply]
  show V m c main_v135 _ = V m c main_v135 _
  congr 1
  funext a
  apply Fin.ext
  match a with
  | ⟨0, _⟩ => show win0_6.index t (0 : Fin 2) * 16 + 1 * i.val = i.val; omega
  | ⟨1, _⟩ => show win0_6.index t (1 : Fin 2) * 8 + 1 * k.val = k.val; omega

/-- Window 7 stays on its one block, the whole of its array. -/
private theorem w1dir_at (c : Dev nD) (t : Fin cfg0.N) (i : Fin 16) (k : Fin 3) :
    (iblk m c 7 t : Vec Ideal S16x3 .f32) (ix2 i k) = V m c main_v136 (ix2 i k) := by
  obtain ⟨-, -, e0, e1, -⟩ := fixedIndex t
  unfold iblk
  rw [View.read_apply]
  show V m c main_v136 _ = V m c main_v136 _
  congr 1
  funext a
  apply Fin.ext
  match a with
  | ⟨0, _⟩ => show win0_7.index t (0 : Fin 2) * 16 + 1 * i.val = i.val; omega
  | ⟨1, _⟩ => show win0_7.index t (1 : Fin 2) * 3 + 1 * k.val = k.val; omega

/-- Window 8 stays on its one block, the whole of its array. -/
private theorem b1_at (c : Dev nD) (t : Fin cfg0.N) (i : Fin 1) (k : Fin 16) :
    (iblk m c 8 t : Vec Ideal S1x16 .f32) (ix2 i k) = V m c main_v137 (ix2 i k) := by
  obtain ⟨-, -, -, -, e0, e1, -⟩ := fixedIndex t
  unfold iblk
  rw [View.read_apply]
  show V m c main_v137 _ = V m c main_v137 _
  congr 1
  funext a
  apply Fin.ext
  match a with
  | ⟨0, _⟩ => show win0_8.index t (0 : Fin 2) * 1 + 1 * i.val = i.val; omega
  | ⟨1, _⟩ => show win0_8.index t (1 : Fin 2) * 16 + 1 * k.val = k.val; omega

/-- Window 9 stays on its one block, the whole of its array. -/
private theorem w2_at (c : Dev nD) (t : Fin cfg0.N) (i : Fin 16) (k : Fin 16) :
    (iblk m c 9 t : Vec Ideal S16x16 .f32) (ix2 i k) = V m c main_arg5 (ix2 i k) := by
  obtain ⟨-, -, -, -, -, -, e0, e1, -⟩ := fixedIndex t
  unfold iblk
  rw [View.read_apply]
  show V m c main_arg5 _ = V m c main_arg5 _
  congr 1
  funext a
  apply Fin.ext
  match a with
  | ⟨0, _⟩ => show win0_9.index t (0 : Fin 2) * 16 + 1 * i.val = i.val; omega
  | ⟨1, _⟩ => show win0_9.index t (1 : Fin 2) * 16 + 1 * k.val = k.val; omega

/-- Window 10 stays on its one block, the whole of its array. -/
private theorem b2_at (c : Dev nD) (t : Fin cfg0.N) (i : Fin 1) (k : Fin 16) :
    (iblk m c 10 t : Vec Ideal S1x16 .f32) (ix2 i k) = V m c main_v138 (ix2 i k) := by
  obtain ⟨-, -, -, -, -, -, -, -, e0, e1, -⟩ := fixedIndex t
  unfold iblk
  rw [View.read_apply]
  show V m c main_v138 _ = V m c main_v138 _
  congr 1
  funext a
  apply Fin.ext
  match a with
  | ⟨0, _⟩ => show win0_10.index t (0 : Fin 2) * 1 + 1 * i.val = i.val; omega
  | ⟨1, _⟩ => show win0_10.index t (1 : Fin 2) * 16 + 1 * k.val = k.val; omega

/-- Window 11 stays on its one block, the whole of its array. -/
private theorem w3_at (c : Dev nD) (t : Fin cfg0.N) (i : Fin 3) (k : Fin 16) :
    (iblk m c 11 t : Vec Ideal S3x16 .f32) (ix2 i k) = V m c main_arg7 (ix2 i k) := by
  obtain ⟨-, -, -, -, -, -, -, -, -, -, e0, e1, -⟩ := fixedIndex t
  unfold iblk
  rw [View.read_apply]
  show V m c main_arg7 _ = V m c main_arg7 _
  congr 1
  funext a
  apply Fin.ext
  match a with
  | ⟨0, _⟩ => show win0_11.index t (0 : Fin 2) * 3 + 1 * i.val = i.val; omega
  | ⟨1, _⟩ => show win0_11.index t (1 : Fin 2) * 16 + 1 * k.val = k.val; omega

/-- Window 12 stays on its one block, the whole of its array. -/
private theorem b3_at (c : Dev nD) (t : Fin cfg0.N) (i : Fin 1) (k : Fin 3) :
    (iblk m c 12 t : Vec Ideal S1x3 .f32) (ix2 i k) = V m c main_v139 (ix2 i k) := by
  obtain ⟨-, -, -, -, -, -, -, -, -, -, -, -, e0, e1⟩ := fixedIndex t
  unfold iblk
  rw [View.read_apply]
  show V m c main_v139 _ = V m c main_v139 _
  congr 1
  funext a
  apply Fin.ext
  match a with
  | ⟨0, _⟩ => show win0_12.index t (0 : Fin 2) * 1 + 1 * i.val = i.val; omega
  | ⟨1, _⟩ => show win0_12.index t (1 : Fin 2) * 3 + 1 * k.val = k.val; omega

/-- An index of the result array is in point `t`'s block iff each coordinate is in the block's range on its axis. -/
private theorem mem_outBlock (t : Fin cfg0.N) (i : S4194304x3.Idx) :
    i ∈ ((cfg0.win 13).blk t).view.set ↔ ∀ a : Fin 2, win0_13.index t a * S16384x3.size a ≤ (i a).val ∧ (i a).val < win0_13.index t a * S16384x3.size a + S16384x3.size a := by
  show i ∈ ((View.whole main_v140).slice (win0_13.rect t)).set ↔ _
  rw [View.set_slice_whole, Rect.mem_set_unit]
  exact Iff.rfl

/-- Every index of the result array is in some point's block: row `r` in that of point `r / 16384`, since
    256 · 16384 = 4194304 and the three channels are one block. -/
private theorem rows_covered (i : S4194304x3.Idx) :
    ∃ t : Fin cfg0.N, (cfg0.win 13).flush t = true ∧ i ∈ ((cfg0.win 13).blk t).view.set := by
  have hi0 : (i 0).val < 4194304 := (i 0).isLt
  have hi1 : (i 1).val < 3 := (i 1).isLt
  have hN : cfg0.N = 256 := rfl
  have ht : (i 0).val / 16384 < cfg0.N := by rw [hN]; omega
  obtain ⟨e0, e1, -⟩ := blockIndex ⟨(i 0).val / 16384, ht⟩
  refine ⟨⟨(i 0).val / 16384, ht⟩, flush0_13 _, ?_⟩
  rw [mem_outBlock]
  intro a
  match a with
  | ⟨0, _⟩ =>
    show win0_13.index ⟨(i 0).val / 16384, ht⟩ (0 : Fin 2) * 16384 ≤ (i 0).val ∧ (i 0).val < win0_13.index ⟨(i 0).val / 16384, ht⟩ (0 : Fin 2) * 16384 + 16384
    rw [e0]; show (i 0).val / 16384 * 16384 ≤ (i 0).val ∧ (i 0).val < (i 0).val / 16384 * 16384 + 16384; omega
  | ⟨1, _⟩ =>
    show win0_13.index ⟨(i 0).val / 16384, ht⟩ (1 : Fin 2) * 3 ≤ (i 1).val ∧ (i 1).val < win0_13.index ⟨(i 0).val / 16384, ht⟩ (1 : Fin 2) * 3 + 3
    rw [e1]; omega

/-- Row `r`, channel `j` of the perceptron applied to the arrays as the region finds them. -/
private def rowAt (c : Dev nD) (r : Fin 4194304) (j : Fin 3) : EReal :=
  Cert.Mlp.rowOut
    (fun k => V m c main_v72 (ix2 r k)) (fun k => V m c main_v87 (ix2 r k)) (fun k => V m c main_v102 (ix2 r k)) (fun k => V m c main_v117 (ix2 r k))
    (V m c main_v134 (ix2 r (0 : Fin 4))) (V m c main_v134 (ix2 r (1 : Fin 4))) (V m c main_v134 (ix2 r (2 : Fin 4))) (V m c main_v134 (ix2 r (3 : Fin 4)))
    (fun k => V m c main_arg1 (ix2 r k))
    (fun i k => V m c main_v135 (ix2 i k)) (fun i k => V m c main_v136 (ix2 i k)) (fun i => V m c main_v137 (ix2 (0 : Fin 1) i))
    (fun i k => V m c main_arg5 (ix2 i k)) (fun i => V m c main_v138 (ix2 (0 : Fin 1) i))
    (fun i k => V m c main_arg7 (ix2 i k)) (fun i => V m c main_v139 (ix2 (0 : Fin 1) i)) j

/-- The whole result array: every row the perceptron of the same row of the inputs. -/
private abbrev wholeOut (c : Dev nD) : S4194304x3.Idx → Elt Ideal .f32 := fun i => rowAt m c (i 0) (i 1)

/-- What the body stores at row `p` of point `t`'s tile is the perceptron of row `16384·t + p` of the arrays. -/
private theorem tile_at (c : Dev nD) (t : Fin cfg0.N) (p : Fin 16384) (r : Fin 4194304) (hr : r.val = t.val * 16384 + p.val) (j : Fin 3) :
    tileValue (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p j) = rowAt m c r j := by
  rw [tileValue_at]
  unfold rowAt
  simp only [tap00_at m c t p r hr, tap01_at m c t p r hr, tap10_at m c t p r hr, tap11_at m c t p r hr, weights_at m c t p r hr, dirs_at m c t p r hr,
    w1feat_at m c t, w1dir_at m c t, b1_at m c t, w2_at m c t, b2_at m c t, w3_at m c t, b3_at m c t]

/-- The whole result array at row `r`, channel `j`. -/
private theorem wholeOut_at (c : Dev nD) (r : Fin 4194304) (j : Fin 3) : wholeOut m c (ix2 r j) = rowAt m c r j := rfl

/-- Row `p` of point `t`'s block of the result array is row `16384·t + p` of the array. -/
private theorem out_emb (t : Fin cfg0.N) (p : Fin 16384) (r : Fin 4194304) (hr : r.val = t.val * 16384 + p.val) (j : Fin 3) :
    ((cfg0.win 13).blk t).view.emb (ix2 p j) = (ix2 r j : S4194304x3.Idx) := by
  obtain ⟨e0, e1, -⟩ := blockIndex t
  funext a
  apply Fin.ext
  match a with
  | ⟨0, _⟩ => show win0_13.index t (0 : Fin 2) * 16384 + 1 * p.val = r.val; omega
  | ⟨1, _⟩ => show win0_13.index t (1 : Fin 2) * 3 + 1 * j.val = j.val; omega

/-- What the body stores at row `p`, channel `j` of point `t`'s tile is the whole result array under that element. -/
private theorem stored_at (c : Dev nD) (t : Fin cfg0.N) (p : Fin 16384) (j : Fin 3) :
    tileValue (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p j) = wholeOut m c (((cfg0.win 13).blk t).view.emb (ix2 p j)) := by
  have ht : t.val < 256 := t.isLt
  have hrow : t.val * 16384 + p.val < 4194304 := by omega
  obtain ⟨r, hr⟩ : ∃ r : Fin 4194304, r.val = t.val * 16384 + p.val := ⟨⟨_, hrow⟩, rfl⟩
  rw [out_emb t p r hr j, wholeOut_at]
  exact tile_at m c t p r hr j

set_option maxHeartbeats 400000 in
/-- What point `t` writes back is its block of the whole result array. -/
private theorem flushed_out (c : Dev nD) (t : Fin cfg0.N) :
    (dats m 0 c).flushed 13 t = ((cfg0.win 13).blk t).view.read (Elt Ideal) (wholeOut m c) := by
  show (cfg0.win 13).cut (grid0.coords t) ((dats m 0 c).after 13 t) = _
  rw [after_13]
  unfold outBlock
  rw [View.canon_unit_zero zeroOffsets]
  funext y
  obtain ⟨p, j, rfl⟩ : ∃ (p : Fin 16384) (j : Fin 3), y = ix2 p j := ⟨y 0, y 1, eq_ix2 y⟩
  rw [View.read_apply]
  exact stored_at m c t p j

/-- THE RESULT ARRAY after the run: its 256 written-back blocks tile it, each the perceptron of its own rows. -/
theorem final (c : Dev nD) (r : Fin 4194304) (j : Fin 3) :
    (dats m 0 c).arrAt 13 cfg0.N (ix2 r j) = Cert.Mlp.rowOut
      (fun k => V m c main_v72 (ix2 r k)) (fun k => V m c main_v87 (ix2 r k)) (fun k => V m c main_v102 (ix2 r k)) (fun k => V m c main_v117 (ix2 r k))
      (V m c main_v134 (ix2 r (0 : Fin 4))) (V m c main_v134 (ix2 r (1 : Fin 4))) (V m c main_v134 (ix2 r (2 : Fin 4))) (V m c main_v134 (ix2 r (3 : Fin 4)))
      (fun k => V m c main_arg1 (ix2 r k))
      (fun i k => V m c main_v135 (ix2 i k)) (fun i k => V m c main_v136 (ix2 i k)) (fun i => V m c main_v137 (ix2 (0 : Fin 1) i))
      (fun i k => V m c main_arg5 (ix2 i k)) (fun i => V m c main_v138 (ix2 (0 : Fin 1) i))
      (fun i k => V m c main_arg7 (ix2 i k)) (fun i => V m c main_v139 (ix2 (0 : Fin 1) i)) j := by
  have h : (dats m 0 c).arrAt 13 cfg0.N = wholeOut m c :=
    (dats m 0 c).arrAt_eq_of_cover 13 (wholeOut m c) (fun t _ => flushed_out m c t) rows_covered
  rw [h, wholeOut_at]
  unfold rowAt
  rfl

end Cert.KernelIdeal.Val

end
-- ==== Proof.BridgeBase.lean ====
/-
  The kernel program's host prefix, stretch by stretch. The region's arrays are the launch memory folded through nine
  stretches of host operations; naming the memory after each stretch lets a buffer be read off the ONE stretch that
  writes it, over the memory before that stretch: `V m c b` is the ninth stretch's fold over `M8`, `M8` the eighth's
  over `M7`, and so on down to the launch memory. A buffer a stretch does not write passes through it unchanged.
-/
import proofs.«119979_j1047972020725_1_alg».proof.Proof.FrameKI
import Idealize.ShloMosaic.Lib.StableHlo.Run

set_option maxRecDepth 16384

noncomputable section

namespace Cert.KernelIdeal.Bridge

open Cert.KernelIdeal Cert.KernelIdeal.Gen Cert.KernelIdeal.Hand Idealize.ShloMosaic Idealize.ShloMosaic.TcCoe Idealize.SL.Sem

variable {F : FTy → Type} [FloatOps F]
variable (m : (ℓ : Loc nD τ sig) → Buf (Elt F) ℓ)

/-- Core `c`'s launch memory as a valuation of its buffers. -/
def M0 (c : Dev nD) : Valuation τ sig (Elt F) := fun b => m (c, b)
/-- The memory after the first stretch (the coordinates, their floors, fractions and masks, the first clip's bounds). -/
def M1 (c : Dev nD) : Valuation τ sig (Elt F) := StableHlo.after hostOps0 (M0 m c)
def M2 (c : Dev nD) : Valuation τ sig (Elt F) := StableHlo.after hostOps0_1 (M1 m c)
def M3 (c : Dev nD) : Valuation τ sig (Elt F) := StableHlo.after hostOps0_2 (M2 m c)
def M4 (c : Dev nD) : Valuation τ sig (Elt F) := StableHlo.after hostOps0_3 (M3 m c)
def M5 (c : Dev nD) : Valuation τ sig (Elt F) := StableHlo.after hostOps0_4 (M4 m c)
def M6 (c : Dev nD) : Valuation τ sig (Elt F) := StableHlo.after hostOps0_5 (M5 m c)
def M7 (c : Dev nD) : Valuation τ sig (Elt F) := StableHlo.after hostOps0_6 (M6 m c)
/-- The memory after the eighth stretch: the four clipped integer coordinates are in it. -/
def M8 (c : Dev nD) : Valuation τ sig (Elt F) := StableHlo.after hostOps0_7 (M7 m c)

/-- The region's arrays are the ninth stretch (gathers, weights, slices, reshapes) folded over `M8`. -/
theorem V_eq (c : Dev nD) (b : Ref sig .tc) : V m c b = StableHlo.after hostOps0_8 (M8 m c) (Proc.devRef .tc b) := by
  show StableHlo.after (List.flatten [hostOps0, hostOps0_1, hostOps0_2, hostOps0_3, hostOps0_4, hostOps0_5, hostOps0_6, hostOps0_7, hostOps0_8]) (fun b => m (c, b)) (Proc.devRef .tc b) = _
  simp only [List.flatten_cons, List.flatten_nil, List.append_nil, StableHlo.after_append]
  rfl

end Cert.KernelIdeal.Bridge

end
-- ==== Proof.Bridge.lean ====
/-
  The arrays the region is handed, as functions of the arguments. Before the region @main computes the four bilinear
  taps (gathers of the texture at the clipped integer corners of each sample point), the four tap weights (products of
  the fractional parts and the in-range masks) stacked as the columns of one array, the two column ranges of the
  first layer's matrix, and the three biases as one-row arrays. The reference computes the same taps and weights by
  the same operations; its stage functions name them, and each of the kernel program's arrays is that stage (or that
  piece of an argument), read at an index where the array is a re-layout.
-/
import proofs.«119979_j1047972020725_1_alg».proof.Proof.FrameKI
import proofs.«119979_j1047972020725_1_alg».proof.Proof.BridgeBase
import proofs.«119979_j1047972020725_1_alg».proof.Proof.ReadP
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Cert.KernelIdeal.Hand Idealize.ShloMosaic Idealize.ShloMosaic.TcCoe Idealize.SL.Sem Idealize.ShloMosaic.ValueIdx

variable {F : FTy → Type} [FloatOps F]
variable (m : (ℓ : Loc nD τ sig) → Buf (Elt F) ℓ)

/-! ## A two-piece concatenation depends on its pieces only through their values -/

private theorem concat2_congr {α : Type} {t s₁ s₂ : Shape} (a : Fin t.rank) (h : Shape.Concatenates [s₁, s₂] t a)
    {x x' : s₁.Idx → α} {y y' : s₂.Idx → α} (hx : x = x') (hy : y = y') :
    concatenate t a [⟨s₁, x⟩, ⟨s₂, y⟩] h = concatenate t a [⟨s₁, x'⟩, ⟨s₂, y'⟩] h := by
  subst hx; subst hy; rfl

/-! ## What the last stretch finds: the texture as launched, and the four clipped integer coordinates

Each clipped coordinate is written by one call of the clip function over the floor (or the floor plus one) of a scaled
sample coordinate; the stretches after it leave it alone. The reference computes them by the same operations. -/

set_option maxHeartbeats 4000000 in
private theorem M8_arg2 (c : Dev nD) : M8 m c (Proc.devRef .tc main_arg2) = (m ((c.tc : Thread nD τ).loc main_arg2)) := by
  unfold M8 M7 M6 M5 M4 M3 M2 M1 M0
  simp only [hostOps0, hostOps0_1, hostOps0_2, hostOps0_3, hostOps0_4, hostOps0_5, hostOps0_6, hostOps0_7]
  after_results_simp <;> rfl
set_option maxHeartbeats 4000000 in
private theorem M8_v54 (c : Dev nD) : M8 m c (Proc.devRef .tc main_v54) = Cert.ReferenceIdeal.Read.val_main_v54 (F := F) (m ((c.tc : Thread nD τ).loc main_arg0)) := by
  unfold M8 M7 M6 M5 M4 M3 M2 M1 M0
  simp only [hostOps0, hostOps0_1, hostOps0_2, hostOps0_3, hostOps0_4, hostOps0_5, hostOps0_6, hostOps0_7]
  after_results_simp <;> rfl
set_option maxHeartbeats 4000000 in
private theorem M8_v55 (c : Dev nD) : M8 m c (Proc.devRef .tc main_v55) = Cert.ReferenceIdeal.Read.val_main_v55 (F := F) (m ((c.tc : Thread nD τ).loc main_arg0)) := by
  unfold M8 M7 M6 M5 M4 M3 M2 M1 M0
  simp only [hostOps0, hostOps0_1, hostOps0_2, hostOps0_3, hostOps0_4, hostOps0_5, hostOps0_6, hostOps0_7]
  after_results_simp <;> rfl
set_option maxHeartbeats 4000000 in
private theorem M8_v56 (c : Dev nD) : M8 m c (Proc.devRef .tc main_v56) = Cert.ReferenceIdeal.Read.val_main_v56 (F := F) (m ((c.tc : Thread nD τ).loc main_arg0)) := by
  unfold M8 M7 M6 M5 M4 M3 M2 M1 M0
  simp only [hostOps0, hostOps0_1, hostOps0_2, hostOps0_3, hostOps0_4, hostOps0_5, hostOps0_6, hostOps0_7]
  after_results_simp <;> rfl
set_option maxHeartbeats 4000000 in
private theorem M8_v57 (c : Dev nD) : M8 m c (Proc.devRef .tc main_v57) = Cert.ReferenceIdeal.Read.val_main_v57 (F := F) (m ((c.tc : Thread nD τ).loc main_arg0)) := by
  unfold M8 M7 M6 M5 M4 M3 M2 M1 M0
  simp only [hostOps0, hostOps0_1, hostOps0_2, hostOps0_3, hostOps0_4, hostOps0_5, hostOps0_6, hostOps0_7]
  after_results_simp <;> rfl

/-! ## The four taps

A tap is the texture gathered at a pair of wrapped clipped coordinates, transposed to sample-major. The pair is a
two-piece concatenation: the outer operations are read off the last stretch, then each piece is. -/

set_option maxHeartbeats 4000000 in
theorem tap00 (c : Dev nD) : V m c main_v72 = Cert.ReferenceIdeal.Read.val_main_v72 (F := F) (m ((c.tc : Thread nD τ).loc main_arg0)) (m ((c.tc : Thread nD τ).loc main_arg2)) := by
  refine (V_eq m c main_v72).trans ?_
  simp only [hostOps0_8]
  after_results_simp
  rw [M8_arg2]
  refine (congrArg (fun z => transpose S4194304x8 [1, 0] (Host.gather gather_S8x2048x2048_S4194304x2_S8x4194304_0_12_n_n_12_1_811 (m ((c.tc : Thread nD τ).loc main_arg2)) z) transposes_S8x4194304_S4194304x8_1_0)
    (concat2_congr 1 concatenates_S4194304x1_S4194304x1_S4194304x2_d1
      (x' := Cert.ReferenceIdeal.Read.val_main_v68 (F := F) (m ((c.tc : Thread nD τ).loc main_arg0))) (y' := Cert.ReferenceIdeal.Read.val_main_v69 (F := F) (m ((c.tc : Thread nD τ).loc main_arg0))) ?_ ?_)).trans rfl
  · after_results_simp
    rw [M8_v56]
    rfl
  · after_results_simp
    rw [M8_v54]
    rfl
set_option maxHeartbeats 4000000 in
theorem tap01 (c : Dev nD) : V m c main_v87 = Cert.ReferenceIdeal.Read.val_main_v93 (F := F) (m ((c.tc : Thread nD τ).loc main_arg0)) (m ((c.tc : Thread nD τ).loc main_arg2)) := by
  refine (V_eq m c main_v87).trans ?_
  simp only [hostOps0_8]
  after_results_simp
  rw [M8_arg2]
  refine (congrArg (fun z => transpose S4194304x8 [1, 0] (Host.gather gather_S8x2048x2048_S4194304x2_S8x4194304_0_12_n_n_12_1_811 (m ((c.tc : Thread nD τ).loc main_arg2)) z) transposes_S8x4194304_S4194304x8_1_0)
    (concat2_congr 1 concatenates_S4194304x1_S4194304x1_S4194304x2_d1
      (x' := Cert.ReferenceIdeal.Read.val_main_v89 (F := F) (m ((c.tc : Thread nD τ).loc main_arg0))) (y' := Cert.ReferenceIdeal.Read.val_main_v90 (F := F) (m ((c.tc : Thread nD τ).loc main_arg0))) ?_ ?_)).trans rfl
  · after_results_simp
    rw [M8_v56]
    rfl
  · after_results_simp
    rw [M8_v55]
    rfl
set_option maxHeartbeats 4000000 in
theorem tap10 (c : Dev nD) : V m c main_v102 = Cert.ReferenceIdeal.Read.val_main_v115 (F := F) (m ((c.tc : Thread nD τ).loc main_arg0)) (m ((c.tc : Thread nD τ).loc main_arg2)) := by
  refine (V_eq m c main_v102).trans ?_
  simp only [hostOps0_8]
  after_results_simp
  rw [M8_arg2]
  refine (congrArg (fun z => transpose S4194304x8 [1, 0] (Host.gather gather_S8x2048x2048_S4194304x2_S8x4194304_0_12_n_n_12_1_811 (m ((c.tc : Thread nD τ).loc main_arg2)) z) transposes_S8x4194304_S4194304x8_1_0)
    (concat2_congr 1 concatenates_S4194304x1_S4194304x1_S4194304x2_d1
      (x' := Cert.ReferenceIdeal.Read.val_main_v111 (F := F) (m ((c.tc : Thread nD τ).loc main_arg0))) (y' := Cert.ReferenceIdeal.Read.val_main_v112 (F := F) (m ((c.tc : Thread nD τ).loc main_arg0))) ?_ ?_)).trans rfl
  · after_results_simp
    rw [M8_v57]
    rfl
  · after_results_simp
    rw [M8_v54]
    rfl
set_option maxHeartbeats 4000000 in
theorem tap11 (c : Dev nD) : V m c main_v117 = Cert.ReferenceIdeal.Read.val_main_v137 (F := F) (m ((c.tc : Thread nD τ).loc main_arg0)) (m ((c.tc : Thread nD τ).loc main_arg2)) := by
  refine (V_eq m c main_v117).trans ?_
  simp only [hostOps0_8]
  after_results_simp
  rw [M8_arg2]
  refine (congrArg (fun z => transpose S4194304x8 [1, 0] (Host.gather gather_S8x2048x2048_S4194304x2_S8x4194304_0_12_n_n_12_1_811 (m ((c.tc : Thread nD τ).loc main_arg2)) z) transposes_S8x4194304_S4194304x8_1_0)
    (concat2_congr 1 concatenates_S4194304x1_S4194304x1_S4194304x2_d1
      (x' := Cert.ReferenceIdeal.Read.val_main_v133 (F := F) (m ((c.tc : Thread nD τ).loc main_arg0))) (y' := Cert.ReferenceIdeal.Read.val_main_v134 (F := F) (m ((c.tc : Thread nD τ).loc main_arg0))) ?_ ?_)).trans rfl
  · after_results_simp
    rw [M8_v57]
    rfl
  · after_results_simp
    rw [M8_v55]
    rfl

end Cert.KernelIdeal.Bridge

end
-- ==== Proof.BridgeRest.lean ====
/-
  The smaller arrays the region is handed, as pieces of the arguments and of the reference's weight stages: the four tap
  weights are the columns of the stacked [B, 4] array; the two halves of the first layer's matrix are its first eight
  and last three columns; each bias is its vector laid out as one row.
-/
import proofs.«119979_j1047972020725_1_alg».proof.Proof.FrameKI
import proofs.«119979_j1047972020725_1_alg».proof.Proof.BridgeBase
import proofs.«119979_j1047972020725_1_alg».proof.Proof.ReadP
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Cert.KernelIdeal.Hand Idealize.ShloMosaic Idealize.ShloMosaic.TcCoe Idealize.SL.Sem Idealize.ShloMosaic.ValueIdx

variable {F : FTy → Type} [FloatOps F]
variable (m : (ℓ : Loc nD τ sig) → Buf (Elt F) ℓ)

/-! ## A concatenation of four named pieces, and the four weight vectors stacked as columns -/

/-- A four-piece concatenation depends on its pieces only through their values. -/
private theorem concat4_congr {α : Type} {t s₁ s₂ s₃ s₄ : Shape} (a : Fin t.rank) {x x' : s₁.Idx → α} {y y' : s₂.Idx → α}
    {z z' : s₃.Idx → α} {w w' : s₄.Idx → α} (h : Shape.Concatenates [s₁, s₂, s₃, s₄] t a)
    (hx : x = x') (hy : y = y') (hz : z = z') (hw : w = w') :
    concatenate t a [⟨s₁, x⟩, ⟨s₂, y⟩, ⟨s₃, z⟩, ⟨s₄, w⟩] h = concatenate t a [⟨s₁, x'⟩, ⟨s₂, y'⟩, ⟨s₃, z'⟩, ⟨s₄, w'⟩] h := by
  subst hx; subst hy; subst hz; subst hw; rfl

/-- A vector broadcast to one column reads, at row `r`, the vector at `r`. -/
private theorem col_apply {α : Type} (w : S4194304.Idx → α) (r : Fin 4194304) (u : Fin 1) :
    broadcastInDim S4194304x1 ![0] bcast_S4194304_S4194304x1_0 w (ix2 r u) = w (ix1 r) :=
  broadcastInDim_apply _ _ w _ (ix1 r) (fun a => by match a with | ⟨0, _⟩ => rfl)

section Columns
variable {α : Type} (w0 w1 w2 w3 : S4194304.Idx → α) (r : Fin 4194304)

/-- The stack of the four one-column arrays. -/
private abbrev stack4 : S4194304x4.Idx → α :=
  concatenate S4194304x4 1
    [⟨S4194304x1, broadcastInDim S4194304x1 ![0] bcast_S4194304_S4194304x1_0 w0⟩,
     ⟨S4194304x1, broadcastInDim S4194304x1 ![0] bcast_S4194304_S4194304x1_0 w1⟩,
     ⟨S4194304x1, broadcastInDim S4194304x1 ![0] bcast_S4194304_S4194304x1_0 w2⟩,
     ⟨S4194304x1, broadcastInDim S4194304x1 ![0] bcast_S4194304_S4194304x1_0 w3⟩]
    concatenates_S4194304x1_S4194304x1_S4194304x1_S4194304x1_S4194304x4_d1

private theorem stack4_col0 : stack4 w0 w1 w2 w3 (ix2 r (0 : Fin 4)) = w0 (ix1 r) :=
  (concatenate_apply_piece (1 : Fin S4194304x4.rank) _ _ (ix2 r (0 : Fin 4)) 0 (by show (0 : ℕ) < 4; omega) S4194304x1 _ rfl rfl 0 rfl (ix2 r (0 : Fin 1))
    (fun b hb => by match b with | ⟨0, _⟩ => rfl | ⟨1, _⟩ => exact absurd rfl hb) rfl).trans (col_apply w0 r 0)
private theorem stack4_col1 : stack4 w0 w1 w2 w3 (ix2 r (1 : Fin 4)) = w1 (ix1 r) :=
  (concatenate_apply_piece (1 : Fin S4194304x4.rank) _ _ (ix2 r (1 : Fin 4)) 1 (by show (1 : ℕ) < 4; omega) S4194304x1 _ rfl rfl 1 rfl (ix2 r (0 : Fin 1))
    (fun b hb => by match b with | ⟨0, _⟩ => rfl | ⟨1, _⟩ => exact absurd rfl hb) rfl).trans (col_apply w1 r 0)
private theorem stack4_col2 : stack4 w0 w1 w2 w3 (ix2 r (2 : Fin 4)) = w2 (ix1 r) :=
  (concatenate_apply_piece (1 : Fin S4194304x4.rank) _ _ (ix2 r (2 : Fin 4)) 2 (by show (2 : ℕ) < 4; omega) S4194304x1 _ rfl rfl 2 rfl (ix2 r (0 : Fin 1))
    (fun b hb => by match b with | ⟨0, _⟩ => rfl | ⟨1, _⟩ => exact absurd rfl hb) rfl).trans (col_apply w2 r 0)
private theorem stack4_col3 : stack4 w0 w1 w2 w3 (ix2 r (3 : Fin 4)) = w3 (ix1 r) :=
  (concatenate_apply_piece (1 : Fin S4194304x4.rank) _ _ (ix2 r (3 : Fin 4)) 3 (by show (3 : ℕ) < 4; omega) S4194304x1 _ rfl rfl 3 rfl (ix2 r (0 : Fin 1))
    (fun b hb => by match b with | ⟨0, _⟩ => rfl | ⟨1, _⟩ => exact absurd rfl hb) rfl).trans (col_apply w3 r 0)

end Columns

/-! ## The two halves of the first layer's matrix and the three bias rows

Each is written by ONE host operation, a slice or a reshape of an argument no host operation writes: unfolding the
fold of the host operations at its buffer leaves that operation applied to the launch contents of the argument. -/

open Idealize.ShloMosaic.StableHlo in
set_option maxHeartbeats 8000000 in
/-- The first eight columns of the first layer's matrix, as an array: the slice `[0:16, 0:8]` of argument 3. -/
private theorem v135_eq (c : Dev nD) :
    V m c main_v135 = extractStridedSlice S16x8 ![0, 0] (m ((c.tc : Thread nD τ).loc main_arg3)) slices_S16x11_S16x8_0_0 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

open Idealize.ShloMosaic.StableHlo in
set_option maxHeartbeats 8000000 in
/-- Its last three columns: the slice `[0:16, 8:11]` of argument 3. -/
private theorem v136_eq (c : Dev nD) :
    V m c main_v136 = extractStridedSlice S16x3 ![0, 8] (m ((c.tc : Thread nD τ).loc main_arg3)) slices_S16x11_S16x3_0_8 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

open Idealize.ShloMosaic.StableHlo in
set_option maxHeartbeats 8000000 in
/-- The first bias as one row: argument 4 reshaped `[16] → [1, 16]`. -/
private theorem v137_eq (c : Dev nD) :
    V m c main_v137 = shapeCast S1x16 (m ((c.tc : Thread nD τ).loc main_arg4)) shapeCasts_S16_S1x16 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

open Idealize.ShloMosaic.StableHlo in
set_option maxHeartbeats 8000000 in
/-- The second bias as one row: argument 6 reshaped `[16] → [1, 16]`. -/
private theorem v138_eq (c : Dev nD) :
    V m c main_v138 = shapeCast S1x16 (m ((c.tc : Thread nD τ).loc main_arg6)) shapeCasts_S16_S1x16 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

open Idealize.ShloMosaic.StableHlo in
set_option maxHeartbeats 8000000 in
/-- The third bias as one row: argument 8 reshaped `[3] → [1, 3]`. -/
private theorem v139_eq (c : Dev nD) :
    V m c main_v139 = shapeCast S1x3 (m ((c.tc : Thread nD τ).loc main_arg8)) shapeCasts_S3_S1x3 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-! ## The four tap weights

Each weight vector is a product of three factors the FIRST stretch of host operations computes from the sample
coordinates (argument 0) by the same operations, in the same order, as the reference: unfolding the fold at its buffer
gives the reference's stage of that weight, term for term. The region is handed the four of them stacked as the columns
of one array. -/

open Idealize.ShloMosaic.StableHlo in
set_option maxHeartbeats 8000000 in
/-- Weight of tap (0, 0): the reference's stage 75. -/
private theorem v120_eq (c : Dev nD) :
    V m c main_v120 = Cert.ReferenceIdeal.Read.val_main_v75 (F := F) (m ((c.tc : Thread nD τ).loc main_arg0)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

open Idealize.ShloMosaic.StableHlo in
set_option maxHeartbeats 8000000 in
/-- Weight of tap (0, 1): the reference's stage 96. -/
private theorem v123_eq (c : Dev nD) :
    V m c main_v123 = Cert.ReferenceIdeal.Read.val_main_v96 (F := F) (m ((c.tc : Thread nD τ).loc main_arg0)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

open Idealize.ShloMosaic.StableHlo in
set_option maxHeartbeats 8000000 in
/-- Weight of tap (1, 0): the reference's stage 118. -/
private theorem v126_eq (c : Dev nD) :
    V m c main_v126 = Cert.ReferenceIdeal.Read.val_main_v118 (F := F) (m ((c.tc : Thread nD τ).loc main_arg0)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

open Idealize.ShloMosaic.StableHlo in
set_option maxHeartbeats 8000000 in
/-- Weight of tap (1, 1): the reference's stage 140. -/
private theorem v129_eq (c : Dev nD) :
    V m c main_v129 = Cert.ReferenceIdeal.Read.val_main_v140 (F := F) (m ((c.tc : Thread nD τ).loc main_arg0)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

open Idealize.ShloMosaic.StableHlo in
set_option maxHeartbeats 8000000 in
/-- The stacked weights, as an array: the four weight vectors, each as one column, joined along the columns. -/
private theorem v134_eq (c : Dev nD) :
    V m c main_v134 = stack4 (V m c main_v120) (V m c main_v123) (V m c main_v126) (V m c main_v129) := by
  dsimp only [V, stack4]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  refine concat4_congr _ _ ?_ ?_ ?_ ?_ <;> (after_results_simp <;> rfl)

theorem w00 (c : Dev nD) (r : Fin 4194304) : V m c main_v134 (ix2 r (0 : Fin 4)) = Cert.ReferenceIdeal.Read.val_main_v75 (F := F) (m ((c.tc : Thread nD τ).loc main_arg0)) (ix1 r) := by
  rw [v134_eq, stack4_col0, v120_eq]
theorem w01 (c : Dev nD) (r : Fin 4194304) : V m c main_v134 (ix2 r (1 : Fin 4)) = Cert.ReferenceIdeal.Read.val_main_v96 (F := F) (m ((c.tc : Thread nD τ).loc main_arg0)) (ix1 r) := by
  rw [v134_eq, stack4_col1, v123_eq]
theorem w10 (c : Dev nD) (r : Fin 4194304) : V m c main_v134 (ix2 r (2 : Fin 4)) = Cert.ReferenceIdeal.Read.val_main_v118 (F := F) (m ((c.tc : Thread nD τ).loc main_arg0)) (ix1 r) := by
  rw [v134_eq, stack4_col2, v126_eq]
theorem w11 (c : Dev nD) (r : Fin 4194304) : V m c main_v134 (ix2 r (3 : Fin 4)) = Cert.ReferenceIdeal.Read.val_main_v140 (F := F) (m ((c.tc : Thread nD τ).loc main_arg0)) (ix1 r) := by
  rw [v134_eq, stack4_col3, v129_eq]
theorem W1a (c : Dev nD) (i : Fin 16) (k : Fin 8) : V m c main_v135 (ix2 i k) = (m ((c.tc : Thread nD τ).loc main_arg3)) (ix2 i (Fin.castAdd 3 k)) := by
  rw [v135_eq]
  exact slice2_axis1_apply 0 _ _ i k (Fin.castAdd 3 k) (by simp)
theorem W1b (c : Dev nD) (i : Fin 16) (k : Fin 3) : V m c main_v136 (ix2 i k) = (m ((c.tc : Thread nD τ).loc main_arg3)) (ix2 i (Fin.natAdd 8 k)) := by
  rw [v136_eq]
  exact slice2_axis1_apply 8 _ _ i k (Fin.natAdd 8 k) (by simp)
theorem b1 (c : Dev nD) (i : Fin 16) : V m c main_v137 (ix2 (0 : Fin 1) i) = (m ((c.tc : Thread nD τ).loc main_arg4)) (ix1 i) := by
  rw [v137_eq]
  exact shapeCast_a_1a_apply _ _ (0 : Fin 1) i
theorem b2 (c : Dev nD) (i : Fin 16) : V m c main_v138 (ix2 (0 : Fin 1) i) = (m ((c.tc : Thread nD τ).loc main_arg6)) (ix1 i) := by
  rw [v138_eq]
  exact shapeCast_a_1a_apply _ _ (0 : Fin 1) i
theorem b3 (c : Dev nD) (i : Fin 3) : V m c main_v139 (ix2 (0 : Fin 1) i) = (m ((c.tc : Thread nD τ).loc main_arg8)) (ix1 i) := by
  rw [v139_eq]
  exact shapeCast_a_1a_apply _ _ (0 : Fin 1) i

end Cert.KernelIdeal.Bridge

end
-- ==== Proof.RefValue.lean ====
/-
  The reference's result, element by element. Its last stage, read back through the stages before it down to the four
  taps and the four tap weights: row `r`, channel `j` is  1 / (1 + exp (−(Σ_k h2 k · W3 j k + b3 j))),  which is the
  logistic of that sum; h2 and h1 are the rectified layers; the first layer contracts the eleven columns of the row
  "sampled feature followed by view direction" against row `i` of the 16 × 11 matrix, which is the sum over the first
  eight columns plus the sum over the last three (`Cert.Mlp.sum_eleven`). So it is `Cert.Mlp.rowOut` of the reference's
  tap and weight stages at row `r`.
-/
import proofs.«119979_j1047972020725_1_alg».proof.Proof.ReadP
import proofs.«119979_j1047972020725_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- The f32 word of 1.0 denotes 1. -/
private theorem one_word : Ideal.ofBits .f32 0x3F800000#32 = 1 :=
  IdealRules.sign_bit.ideal_onePat .f32

/-- One over one plus the exponential of the negation is the logistic function; the two ones are the f32 word of 1.0. -/
private theorem tail_eq (s : EReal) :
    Ideal.div (Ideal.ofBits .f32 0x3F800000#32) (Ideal.ofBits .f32 0x3F800000#32 + Ideal.exp (-s)) = Ideal.logistic s := by
  rw [one_word]
  rfl

/-! A tap weight, a vector over the rows, is spread along the eight channels: at row `r`, any channel, it is the
    weight of row `r`. -/
private theorem w77_at (x0 : (⟨S4194304x2, .f32⟩ : BufTy).Contents (Elt Ideal)) (r : Fin 4194304) (k : Fin 8) :
    val_main_v77 (F := Ideal) x0 (ix2 r k) = val_main_v75 (F := Ideal) x0 (ix1 r) := by
  rw [val_main_v77_apply, val_main_v76_apply]
  exact congrArg (val_main_v75 (F := Ideal) x0) (funext fun a => Fin.ext (by match a with | ⟨0, _⟩ => rfl))

private theorem w98_at (x0 : (⟨S4194304x2, .f32⟩ : BufTy).Contents (Elt Ideal)) (r : Fin 4194304) (k : Fin 8) :
    val_main_v98 (F := Ideal) x0 (ix2 r k) = val_main_v96 (F := Ideal) x0 (ix1 r) := by
  rw [val_main_v98_apply, val_main_v97_apply]
  exact congrArg (val_main_v96 (F := Ideal) x0) (funext fun a => Fin.ext (by match a with | ⟨0, _⟩ => rfl))

private theorem w120_at (x0 : (⟨S4194304x2, .f32⟩ : BufTy).Contents (Elt Ideal)) (r : Fin 4194304) (k : Fin 8) :
    val_main_v120 (F := Ideal) x0 (ix2 r k) = val_main_v118 (F := Ideal) x0 (ix1 r) := by
  rw [val_main_v120_apply, val_main_v119_apply]
  exact congrArg (val_main_v118 (F := Ideal) x0) (funext fun a => Fin.ext (by match a with | ⟨0, _⟩ => rfl))

private theorem w142_at (x0 : (⟨S4194304x2, .f32⟩ : BufTy).Contents (Elt Ideal)) (r : Fin 4194304) (k : Fin 8) :
    val_main_v142 (F := Ideal) x0 (ix2 r k) = val_main_v140 (F := Ideal) x0 (ix1 r) := by
  rw [val_main_v142_apply, val_main_v141_apply]
  exact congrArg (val_main_v140 (F := Ideal) x0) (funext fun a => Fin.ext (by match a with | ⟨0, _⟩ => rfl))

/-- The sampled feature at row `r`, channel `k`: the four taps against their weights, summed left to right. -/
private theorem feat_at (x0 : (⟨S4194304x2, .f32⟩ : BufTy).Contents (Elt Ideal)) (x2 : (⟨S8x2048x2048, .f32⟩ : BufTy).Contents (Elt Ideal)) (r : Fin 4194304) (k : Fin 8) :
    val_main_v144 (F := Ideal) x0 x2 (ix2 r k) = Cert.Mlp.feat
      (fun k => val_main_v72 (F := Ideal) x0 x2 (ix2 r k)) (fun k => val_main_v93 (F := Ideal) x0 x2 (ix2 r k))
      (fun k => val_main_v115 (F := Ideal) x0 x2 (ix2 r k)) (fun k => val_main_v137 (F := Ideal) x0 x2 (ix2 r k))
      (val_main_v75 (F := Ideal) x0 (ix1 r)) (val_main_v96 (F := Ideal) x0 (ix1 r)) (val_main_v118 (F := Ideal) x0 (ix1 r)) (val_main_v140 (F := Ideal) x0 (ix1 r)) k := by
  rw [val_main_v144_apply, val_main_v122_apply, val_main_v100_apply, val_main_v78_apply, val_main_v99_apply,
    val_main_v121_apply, val_main_v143_apply, w77_at, w98_at, w120_at, w142_at]
  simp only [Ideal.addf_def, Ideal.mulf_def]
  rfl

/-- The joined row's first eight columns are the sampled feature. -/
private theorem cat_left (x0 : (⟨S4194304x2, .f32⟩ : BufTy).Contents (Elt Ideal)) (x1 : (⟨S4194304x3, .f32⟩ : BufTy).Contents (Elt Ideal)) (x2 : (⟨S8x2048x2048, .f32⟩ : BufTy).Contents (Elt Ideal)) (r : Fin 4194304) (k : Fin 8) :
    val_main_v145 (F := Ideal) x0 x1 x2 (ix2 r (Fin.castAdd 3 k)) = val_main_v144 (F := Ideal) x0 x2 (ix2 r k) := by
  unfold val_main_v145
  generalize val_main_v144 (F := Ideal) x0 x2 = y
  exact concatenate_pair_apply_left 1 y x1 concatenates_S4194304x8_S4194304x3_S4194304x11_d1 (ix2 r (Fin.castAdd 3 k)) rfl (ix2 r k)
    (fun b => by match b with
      | ⟨0, _⟩ => rfl
      | ⟨1, _⟩ => rfl)

/-- The joined row's last three columns are the view direction. -/
private theorem cat_right (x0 : (⟨S4194304x2, .f32⟩ : BufTy).Contents (Elt Ideal)) (x1 : (⟨S4194304x3, .f32⟩ : BufTy).Contents (Elt Ideal)) (x2 : (⟨S8x2048x2048, .f32⟩ : BufTy).Contents (Elt Ideal)) (r : Fin 4194304) (k : Fin 3) :
    val_main_v145 (F := Ideal) x0 x1 x2 (ix2 r (Fin.natAdd 8 k)) = x1 (ix2 r k) := by
  unfold val_main_v145
  generalize val_main_v144 (F := Ideal) x0 x2 = y
  exact concatenate_pair_apply_right 1 y x1 concatenates_S4194304x8_S4194304x3_S4194304x11_d1 (ix2 r (Fin.natAdd 8 k)) rfl rfl (ix2 r k)
    (fun b hb => by match b, hb with
      | ⟨0, _⟩, _ => rfl
      | ⟨1, _⟩, hb => exact absurd rfl hb)
    (by show k.val + 8 = 8 + k.val; omega)

/-- The contraction of the joined row against row `i` of the 16 × 11 matrix: the eight feature columns plus the three
    view-direction columns. -/
private theorem dot1_at (x0 : (⟨S4194304x2, .f32⟩ : BufTy).Contents (Elt Ideal)) (x1 : (⟨S4194304x3, .f32⟩ : BufTy).Contents (Elt Ideal)) (x2 : (⟨S8x2048x2048, .f32⟩ : BufTy).Contents (Elt Ideal)) (x3 : (⟨S16x11, .f32⟩ : BufTy).Contents (Elt Ideal)) (r : Fin 4194304) (i : Fin 16) :
    (∑ q : Fin 11, val_main_v145 (F := Ideal) x0 x1 x2 (ix2 r q) * x3 (ix2 i q))
      = (∑ k : Fin 8, val_main_v144 (F := Ideal) x0 x2 (ix2 r k) * x3 (ix2 i (Fin.castAdd 3 k)))
        + ∑ k : Fin 3, x1 (ix2 r k) * x3 (ix2 i (Fin.natAdd 8 k)) := by
  rw [Cert.Mlp.sum_eleven]
  simp only [cat_left, cat_right]

/-- The first rectified layer at row `r`, unit `i`. -/
private theorem h1_at (x0 : (⟨S4194304x2, .f32⟩ : BufTy).Contents (Elt Ideal)) (x1 : (⟨S4194304x3, .f32⟩ : BufTy).Contents (Elt Ideal)) (x2 : (⟨S8x2048x2048, .f32⟩ : BufTy).Contents (Elt Ideal)) (x3 : (⟨S16x11, .f32⟩ : BufTy).Contents (Elt Ideal)) (x4 : (⟨S16, .f32⟩ : BufTy).Contents (Elt Ideal)) (r : Fin 4194304) (i : Fin 16) :
    val_main_v151 (F := Ideal) x0 x1 x2 x3 x4 (ix2 r i) = Cert.Mlp.hid1
      (fun k => val_main_v144 (F := Ideal) x0 x2 (ix2 r k)) (fun k => x1 (ix2 r k))
      (fun i k => x3 (ix2 i (Fin.castAdd 3 k))) (fun i k => x3 (ix2 i (Fin.natAdd 8 k))) (fun i => x4 (ix1 i)) i := by
  rw [val_main_v151_apply, val_main_v150_apply, val_main_v147_apply, val_main_v149_apply, val_main_v148_apply,
    val_main_call4_v0_apply, val_main_call4_cst_apply]
  have hl : ∀ q : Fin 11, lidx_main_v147 (ix2 r i) q = ix2 r q := fun q => funext fun a => Fin.ext (by match a with | ⟨0, _⟩ => rfl | ⟨1, _⟩ => rfl)
  have hr : ∀ q : Fin 11, idx_main_v146 (ridx_main_v147 (ix2 r i) q) = ix2 i q := fun q => funext fun a => Fin.ext (by match a with | ⟨0, _⟩ => rfl | ⟨1, _⟩ => rfl)
  have hb : idx_main_v148 (idx_main_v149 (ix2 r i)) = ix1 i := funext fun a => Fin.ext (by match a with | ⟨0, _⟩ => rfl)
  simp only [val_main_v146_apply, hl, hr, hb, Ideal.maximumf_def, Ideal.addf_def, Ideal.ofBits_def]
  rw [dot1_at]
  rfl

/-- The second rectified layer at row `r`, unit `i`. -/
private theorem h2_at (x0 : (⟨S4194304x2, .f32⟩ : BufTy).Contents (Elt Ideal)) (x1 : (⟨S4194304x3, .f32⟩ : BufTy).Contents (Elt Ideal)) (x2 : (⟨S8x2048x2048, .f32⟩ : BufTy).Contents (Elt Ideal)) (x3 : (⟨S16x11, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (r : Fin 4194304) (i : Fin 16) :
    val_main_v157 (F := Ideal) x0 x1 x2 x3 x4 x5 x6 (ix2 r i) = Cert.Mlp.hid2
      (fun k => val_main_v151 (F := Ideal) x0 x1 x2 x3 x4 (ix2 r k)) (fun i k => x5 (ix2 i k)) (fun i => x6 (ix1 i)) i := by
  rw [val_main_v157_apply, val_main_v156_apply, val_main_v153_apply, val_main_v155_apply, val_main_v154_apply,
    val_main_call5_v0_apply, val_main_call5_cst_apply]
  have hl : ∀ q : Fin 16, lidx_main_v153 (ix2 r i) q = ix2 r q := fun q => funext fun a => Fin.ext (by match a with | ⟨0, _⟩ => rfl | ⟨1, _⟩ => rfl)
  have hr : ∀ q : Fin 16, idx_main_v152 (ridx_main_v153 (ix2 r i) q) = ix2 i q := fun q => funext fun a => Fin.ext (by match a with | ⟨0, _⟩ => rfl | ⟨1, _⟩ => rfl)
  have hb : idx_main_v154 (idx_main_v155 (ix2 r i)) = ix1 i := funext fun a => Fin.ext (by match a with | ⟨0, _⟩ => rfl)
  simp only [val_main_v152_apply, hl, hr, hb, Ideal.maximumf_def, Ideal.addf_def, Ideal.ofBits_def]
  rfl

/-- The output layer at row `r`, channel `j`: the logistic of the contraction plus the bias. -/
private theorem out_at (x0 : (⟨S4194304x2, .f32⟩ : BufTy).Contents (Elt Ideal)) (x1 : (⟨S4194304x3, .f32⟩ : BufTy).Contents (Elt Ideal)) (x2 : (⟨S8x2048x2048, .f32⟩ : BufTy).Contents (Elt Ideal)) (x3 : (⟨S16x11, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S3x16, .f32⟩ : BufTy).Contents (Elt Ideal)) (x8 : (⟨S3, .f32⟩ : BufTy).Contents (Elt Ideal)) (r : Fin 4194304) (j : Fin 3) :
    val_main_v168 (F := Ideal) x0 x1 x2 x3 x4 x5 x6 x7 x8 (ix2 r j) = Cert.Mlp.outp
      (fun k => val_main_v157 (F := Ideal) x0 x1 x2 x3 x4 x5 x6 (ix2 r k)) (fun i k => x7 (ix2 i k)) (fun i => x8 (ix1 i)) j := by
  rw [val_main_v168_apply, val_main_v167_apply, val_main_cst_41_apply, val_main_v166_apply, val_main_v165_apply,
    val_main_cst_40_apply, val_main_v164_apply, val_main_v163_apply, val_main_v162_apply, val_main_v159_apply,
    val_main_v161_apply, val_main_v160_apply]
  have hl : ∀ q : Fin 16, lidx_main_v159 (ix2 r j) q = ix2 r q := fun q => funext fun a => Fin.ext (by match a with | ⟨0, _⟩ => rfl | ⟨1, _⟩ => rfl)
  have hr : ∀ q : Fin 16, idx_main_v158 (ridx_main_v159 (ix2 r j) q) = ix2 j q := fun q => funext fun a => Fin.ext (by match a with | ⟨0, _⟩ => rfl | ⟨1, _⟩ => rfl)
  have hb : idx_main_v160 (idx_main_v161 (ix2 r j)) = ix1 j := funext fun a => Fin.ext (by match a with | ⟨0, _⟩ => rfl)
  simp only [val_main_v158_apply, hl, hr, hb, Ideal.hostDivf_def, Ideal.ofBits_def, Ideal.addf_def,
    Ideal.hostUnary_exp_def, Ideal.hostNegf_def, Ideal.negf_def]
  rw [tail_eq]
  rfl

theorem ref_at (x0 : (⟨S4194304x2, .f32⟩ : BufTy).Contents (Elt Ideal)) (x1 : (⟨S4194304x3, .f32⟩ : BufTy).Contents (Elt Ideal)) (x2 : (⟨S8x2048x2048, .f32⟩ : BufTy).Contents (Elt Ideal)) (x3 : (⟨S16x11, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S3x16, .f32⟩ : BufTy).Contents (Elt Ideal)) (x8 : (⟨S3, .f32⟩ : BufTy).Contents (Elt Ideal)) (r : Fin 4194304) (j : Fin 3) :
    val_main_v168 (F := Ideal) x0 x1 x2 x3 x4 x5 x6 x7 x8 (ix2 r j) = Cert.Mlp.rowOut
      (fun k => val_main_v72 (F := Ideal) x0 x2 (ix2 r k)) (fun k => val_main_v93 (F := Ideal) x0 x2 (ix2 r k))
      (fun k => val_main_v115 (F := Ideal) x0 x2 (ix2 r k)) (fun k => val_main_v137 (F := Ideal) x0 x2 (ix2 r k))
      (val_main_v75 (F := Ideal) x0 (ix1 r)) (val_main_v96 (F := Ideal) x0 (ix1 r)) (val_main_v118 (F := Ideal) x0 (ix1 r)) (val_main_v140 (F := Ideal) x0 (ix1 r))
      (fun k => x1 (ix2 r k))
      (fun i k => x3 (ix2 i (Fin.castAdd 3 k))) (fun i k => x3 (ix2 i (Fin.natAdd 8 k))) (fun i => x4 (ix1 i))
      (fun i k => x5 (ix2 i k)) (fun i => x6 (ix1 i)) (fun i k => x7 (ix2 i k)) (fun i => x8 (ix1 i)) j := by
  rw [out_at]
  simp only [h2_at, h1_at, feat_at]
  rfl

end Cert.ReferenceIdeal.RefValue

end
-- ==== Proof.lean ====
/-
  The certificate: a texture-sampling perceptron, tiled over rows, against its jnp reference.
  Both programs sample an 8-channel 2048 × 2048 texture bilinearly at 4,194,304 points (four gathered taps and four
  tap weights per point), append the point's view direction, and run a three-layer perceptron
  (11 → 16 → 16 → 3, rectifier, rectifier, logistic). The kernel program does the gathers and the weights on the
  host and the rest in one region over 256 tiles of 16384 rows; it splits the first layer's 16 × 11 matrix into its
  first eight and last three columns and adds the two products, where the reference concatenates the sampled feature
  with the view direction and contracts all eleven columns at once.
  On the extended reals the two are one function, row by row (`Cert.Mlp.rowOut`): the bf16 casts are identities, the
  matrix unit's products into zero accumulators and the host's contractions are plain finite sums, a sum over eleven
  columns is the sum over eight plus the sum over three, and the kernel's logistic is the reference's
  1 / (1 + exp (−x)). None of this needs the inputs finite, so the precondition is never opened.
  The frames: the kernel programs' by the pipeline library's launch theorem from the body's triple (FrameK, FrameKI);
  the reference's by its run, read stretch by stretch (RefRunHand). The idealization rewrote nothing, so `preserves` is trivial.
-/
import proofs.«119979_j1047972020725_1_alg».proof.Defs
import proofs.«119979_j1047972020725_1_alg».proof.Proof.Gen.Kernel
import proofs.«119979_j1047972020725_1_alg».proof.Proof.Gen.KernelIdeal
import proofs.«119979_j1047972020725_1_alg».proof.Proof.Gen.ReferenceIdeal
import proofs.«119979_j1047972020725_1_alg».proof.Proof.Gen.Pre_finite_inputs
import proofs.«119979_j1047972020725_1_alg».proof.Proof.RunP
import proofs.«119979_j1047972020725_1_alg».proof.Proof.ReadP
import proofs.«119979_j1047972020725_1_alg».proof.Proof.RefRunHand
import proofs.«119979_j1047972020725_1_alg».proof.Proof.FrameK
import proofs.«119979_j1047972020725_1_alg».proof.Proof.FrameKI
import proofs.«119979_j1047972020725_1_alg».proof.Proof.KIValue
import proofs.«119979_j1047972020725_1_alg».proof.Proof.Bridge
import proofs.«119979_j1047972020725_1_alg».proof.Proof.BridgeRest
import proofs.«119979_j1047972020725_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The reference's result array, from a memory agreeing with the kernel's on the arguments, is the kernel's result
    array: at row `r`, channel `j` both are the perceptron's row function of the same taps, weights, view direction,
    matrices and biases — the reference's own stages on one side, the arrays the region was handed on the other, which
    are those stages. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Read.val_main_v168 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = (Cert.KernelIdeal.Hand.dats m 0 c).arrAt 13 Cert.KernelIdeal.cfg0.N := by
  rw [h0, h1, h2, h3, h4, h5, h6, h7, h8]
  funext i
  obtain ⟨r, j, rfl⟩ : ∃ (r : Fin 4194304) (j : Fin 3), i = ix2 r j := ⟨i 0, i 1, eq_ix2 i⟩
  rw [Cert.ReferenceIdeal.RefValue.ref_at, Cert.KernelIdeal.Val.final]
  rw [Cert.KernelIdeal.Bridge.tap00 m c, Cert.KernelIdeal.Bridge.tap01 m c, Cert.KernelIdeal.Bridge.tap10 m c, Cert.KernelIdeal.Bridge.tap11 m c,
    Cert.KernelIdeal.Bridge.w00 m c r, Cert.KernelIdeal.Bridge.w01 m c r, Cert.KernelIdeal.Bridge.w10 m c r, Cert.KernelIdeal.Bridge.w11 m c r,
    Cert.KernelIdeal.Hand.V_main_arg1 m c, Cert.KernelIdeal.Hand.V_main_arg5 m c, Cert.KernelIdeal.Hand.V_main_arg7 m c]
  have eA : (fun (i : Fin 16) (k : Fin 8) => Cert.KernelIdeal.Hand.V m c Cert.KernelIdeal.main_v135 (ix2 i k)) = fun i k => m ((c.tc : Thread Cert.KernelIdeal.nD Cert.KernelIdeal.τ).loc Cert.KernelIdeal.main_arg3) (ix2 i (Fin.castAdd 3 k)) :=
    funext fun i => funext fun k => Cert.KernelIdeal.Bridge.W1a m c i k
  have eB : (fun (i : Fin 16) (k : Fin 3) => Cert.KernelIdeal.Hand.V m c Cert.KernelIdeal.main_v136 (ix2 i k)) = fun i k => m ((c.tc : Thread Cert.KernelIdeal.nD Cert.KernelIdeal.τ).loc Cert.KernelIdeal.main_arg3) (ix2 i (Fin.natAdd 8 k)) :=
    funext fun i => funext fun k => Cert.KernelIdeal.Bridge.W1b m c i k
  have e1 : (fun (i : Fin 16) => Cert.KernelIdeal.Hand.V m c Cert.KernelIdeal.main_v137 (ix2 (0 : Fin 1) i)) = fun i => m ((c.tc : Thread Cert.KernelIdeal.nD Cert.KernelIdeal.τ).loc Cert.KernelIdeal.main_arg4) (ix1 i) :=
    funext fun i => Cert.KernelIdeal.Bridge.b1 m c i
  have e2 : (fun (i : Fin 16) => Cert.KernelIdeal.Hand.V m c Cert.KernelIdeal.main_v138 (ix2 (0 : Fin 1) i)) = fun i => m ((c.tc : Thread Cert.KernelIdeal.nD Cert.KernelIdeal.τ).loc Cert.KernelIdeal.main_arg6) (ix1 i) :=
    funext fun i => Cert.KernelIdeal.Bridge.b2 m c i
  have e3 : (fun (i : Fin 3) => Cert.KernelIdeal.Hand.V m c Cert.KernelIdeal.main_v139 (ix2 (0 : Fin 1) i)) = fun i => m ((c.tc : Thread Cert.KernelIdeal.nD Cert.KernelIdeal.τ).loc Cert.KernelIdeal.main_arg8) (ix1 i) :=
    funext fun i => Cert.KernelIdeal.Bridge.b3 m c i
  rw [eA, eB, e1, e2, e3]

theorem algebraic : Cert.algebraic_KernelIdeal_ReferenceIdeal := by
  intro m ρ m' ρ' _ hagree
  refine ⟨fun c => (Cert.KernelIdeal.Hand.dats m 0 c).arrAt 13 Cert.KernelIdeal.cfg0.N, Cert.KernelIdeal.Hand.run_blocks (F := Ideal) m ρ, ?_⟩
  refine (θ_run Cert.ReferenceIdeal.defs _ _).mono (fun _ h c => ⟨(h c).1.trans ?_, (h c).2⟩)
    (Cert.ReferenceIdeal.RefRun.run (F := Ideal) m' ρ')
  exact result_eq m m' c (hagree c).1 (hagree c).2.1 (hagree c).2.2.1 (hagree c).2.2.2.1 (hagree c).2.2.2.2.1 (hagree c).2.2.2.2.2.1
    (hagree c).2.2.2.2.2.2.1 (hagree c).2.2.2.2.2.2.2.1 (hagree c).2.2.2.2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
